-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S512x512 : Shape := ⟨2, ![512, 512]⟩
abbrev S16 : Shape := ⟨1, ![16]⟩
abbrev S_ : Shape := ⟨0, ![]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v20 : BitVec 32 := Scalar.addi v17 c0_i32_14
  let c0_i32_22 : BitVec 32 := 0#32
  ![v20.toNat, 0]
def k0_dev3 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v21 : BitVec 32 := Scalar.muli v2 c2_i32_17
  let v22 : BitVec 32 := Scalar.addi c0_i32_18 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_19 : BitVec 32 := 1#32
  let v23 : BitVec 32 := Scalar.muli v6 c1_i32_19
  let v24 : BitVec 32 := Scalar.addi v22 v23
  v24.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v32 : BitVec 32 := Scalar.muli v2 c2_i32_25
  let v33 : BitVec 32 := Scalar.addi c0_i32_26 v32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v34 : BitVec 32 := Scalar.muli v6 c1_i32_27
  let v35 : BitVec 32 := Scalar.addi v33 v34
  v35.toNat
def k0_dev5 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v43 : BitVec 32 := Scalar.muli v2 c2_i32_33
  let v44 : BitVec 32 := Scalar.addi c0_i32_34 v43
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v45 : BitVec 32 := Scalar.muli v6 c1_i32_35
  let v46 : BitVec 32 := Scalar.addi v44 v45
  v46.toNat
def k0_dev6 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v54 : BitVec 32 := Scalar.muli v2 c2_i32_40
  let v55 : BitVec 32 := Scalar.addi c0_i32_41 v54
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_42 : BitVec 32 := 1#32
  let v56 : BitVec 32 := Scalar.muli v6 c1_i32_42
  let v57 : BitVec 32 := Scalar.addi v55 v56
  v57.toNat
def k0_dev7 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v65 : BitVec 32 := Scalar.muli v2 c2_i32_47
  let v66 : BitVec 32 := Scalar.addi c0_i32_48 v65
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_49 : BitVec 32 := 1#32
  let v67 : BitVec 32 := Scalar.muli v6 c1_i32_49
  let v68 : BitVec 32 := Scalar.addi v66 v67
  v68.toNat
def k0_dev8 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v76 : BitVec 32 := Scalar.muli v2 c2_i32_54
  let v77 : BitVec 32 := Scalar.addi c0_i32_55 v76
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v78 : BitVec 32 := Scalar.muli v6 c1_i32_56
  let v79 : BitVec 32 := Scalar.addi v77 v78
  v79.toNat
def k0_dev9 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v87 : BitVec 32 := Scalar.muli v2 c2_i32_61
  let v88 : BitVec 32 := Scalar.addi c0_i32_62 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v89 : BitVec 32 := Scalar.muli v6 c1_i32_63
  let v90 : BitVec 32 := Scalar.addi v88 v89
  v90.toNat
def k0_dev10 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v98 : BitVec 32 := Scalar.muli v2 c2_i32_68
  let v99 : BitVec 32 := Scalar.addi c0_i32_69 v98
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v100 : BitVec 32 := Scalar.muli v6 c1_i32_70
  let v101 : BitVec 32 := Scalar.addi v99 v100
  v101.toNat
def k0_dev11 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v109 : BitVec 32 := Scalar.muli v2 c2_i32_75
  let v110 : BitVec 32 := Scalar.addi c0_i32_76 v109
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_77 : BitVec 32 := 1#32
  let v111 : BitVec 32 := Scalar.muli v6 c1_i32_77
  let v112 : BitVec 32 := Scalar.addi v110 v111
  v112.toNat
def k0_dev12 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v120 : BitVec 32 := Scalar.muli v2 c2_i32_82
  let v121 : BitVec 32 := Scalar.addi c0_i32_83 v120
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v122 : BitVec 32 := Scalar.muli v6 c1_i32_84
  let v123 : BitVec 32 := Scalar.addi v121 v122
  v123.toNat
def k0_dev13 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v131 : BitVec 32 := Scalar.muli v2 c2_i32_89
  let v132 : BitVec 32 := Scalar.addi c0_i32_90 v131
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_91 : BitVec 32 := 1#32
  let v133 : BitVec 32 := Scalar.muli v6 c1_i32_91
  let v134 : BitVec 32 := Scalar.addi v132 v133
  v134.toNat
def k0_dev14 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v142 : BitVec 32 := Scalar.muli v2 c2_i32_96
  let v143 : BitVec 32 := Scalar.addi c0_i32_97 v142
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_98 : BitVec 32 := 1#32
  let v144 : BitVec 32 := Scalar.muli v6 c1_i32_98
  let v145 : BitVec 32 := Scalar.addi v143 v144
  v145.toNat
def k0_dev15 (d0 : Dev nD) : Nat :=
  let c0_i32_104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_103 : BitVec 32 := 2#32
  let v153 : BitVec 32 := Scalar.muli v2 c2_i32_103
  let v154 : BitVec 32 := Scalar.addi c0_i32_104 v153
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_105 : BitVec 32 := 1#32
  let v155 : BitVec 32 := Scalar.muli v6 c1_i32_105
  let v156 : BitVec 32 := Scalar.addi v154 v155
  v156.toNat
def k0_dev16 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v164 : BitVec 32 := Scalar.muli v2 c2_i32_110
  let v165 : BitVec 32 := Scalar.addi c0_i32_111 v164
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_112 : BitVec 32 := 1#32
  let v166 : BitVec 32 := Scalar.muli v6 c1_i32_112
  let v167 : BitVec 32 := Scalar.addi v165 v166
  v167.toNat
def k0_dev17 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v175 : BitVec 32 := Scalar.muli v2 c2_i32_117
  let v176 : BitVec 32 := Scalar.addi c0_i32_118 v175
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_119 : BitVec 32 := 1#32
  let v177 : BitVec 32 := Scalar.muli v6 c1_i32_119
  let v178 : BitVec 32 := Scalar.addi v176 v177
  v178.toNat
def k0_dev18 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v186 : BitVec 32 := Scalar.muli v2 c2_i32_124
  let v187 : BitVec 32 := Scalar.addi c0_i32_125 v186
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_126 : BitVec 32 := 1#32
  let v188 : BitVec 32 := Scalar.muli v6 c1_i32_126
  let v189 : BitVec 32 := Scalar.addi v187 v188
  v189.toNat
def k0_off2 (d0 : Dev nD) (c0_i32_130 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v196 : BitVec 32 := Scalar.addi v17 c0_i32_130
  let v205 : Index := Scalar.indexCast v196
  let c0 : Index := 0#32
  ![v205.toNat, 0]
def k0_dev19 (d0 : Dev nD) : Nat :=
  let c0_i32_145 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_144 : BitVec 32 := 2#32
  let v212 : BitVec 32 := Scalar.muli v7 c2_i32_144
  let v213 : BitVec 32 := Scalar.addi c0_i32_145 v212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_146 : BitVec 32 := 1#32
  let v214 : BitVec 32 := Scalar.muli v5 c1_i32_146
  let v215 : BitVec 32 := Scalar.addi v213 v214
  v215.toNat
def k0_dev20 (d0 : Dev nD) : Nat :=
  let c0_i32_164 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_163 : BitVec 32 := 2#32
  let v238 : BitVec 32 := Scalar.muli v7 c2_i32_163
  let v239 : BitVec 32 := Scalar.addi c0_i32_164 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_165 : BitVec 32 := 1#32
  let v240 : BitVec 32 := Scalar.muli v5 c1_i32_165
  let v241 : BitVec 32 := Scalar.addi v239 v240
  v241.toNat
def k0_dev21 (d0 : Dev nD) : Nat :=
  let c0_i32_183 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_182 : BitVec 32 := 2#32
  let v264 : BitVec 32 := Scalar.muli v7 c2_i32_182
  let v265 : BitVec 32 := Scalar.addi c0_i32_183 v264
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v266 : BitVec 32 := Scalar.muli v5 c1_i32_184
  let v267 : BitVec 32 := Scalar.addi v265 v266
  v267.toNat
def k0_dev22 (d0 : Dev nD) : Nat :=
  let c0_i32_202 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_201 : BitVec 32 := 2#32
  let v290 : BitVec 32 := Scalar.muli v7 c2_i32_201
  let v291 : BitVec 32 := Scalar.addi c0_i32_202 v290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_203 : BitVec 32 := 1#32
  let v292 : BitVec 32 := Scalar.muli v5 c1_i32_203
  let v293 : BitVec 32 := Scalar.addi v291 v292
  v293.toNat
def k0_dev23 (d0 : Dev nD) : Nat :=
  let c0_i32_221 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_220 : BitVec 32 := 2#32
  let v316 : BitVec 32 := Scalar.muli v7 c2_i32_220
  let v317 : BitVec 32 := Scalar.addi c0_i32_221 v316
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v318 : BitVec 32 := Scalar.muli v5 c1_i32_222
  let v319 : BitVec 32 := Scalar.addi v317 v318
  v319.toNat
def k0_dev24 (d0 : Dev nD) : Nat :=
  let c0_i32_240 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_239 : BitVec 32 := 2#32
  let v342 : BitVec 32 := Scalar.muli v7 c2_i32_239
  let v343 : BitVec 32 := Scalar.addi c0_i32_240 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_241 : BitVec 32 := 1#32
  let v344 : BitVec 32 := Scalar.muli v5 c1_i32_241
  let v345 : BitVec 32 := Scalar.addi v343 v344
  v345.toNat
def k0_dev25 (d0 : Dev nD) : Nat :=
  let c0_i32_259 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_258 : BitVec 32 := 2#32
  let v368 : BitVec 32 := Scalar.muli v7 c2_i32_258
  let v369 : BitVec 32 := Scalar.addi c0_i32_259 v368
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v370 : BitVec 32 := Scalar.muli v5 c1_i32_260
  let v371 : BitVec 32 := Scalar.addi v369 v370
  v371.toNat
def k0_dev26 (d0 : Dev nD) : Nat :=
  let c0_i32_278 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_277 : BitVec 32 := 2#32
  let v394 : BitVec 32 := Scalar.muli v7 c2_i32_277
  let v395 : BitVec 32 := Scalar.addi c0_i32_278 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_279 : BitVec 32 := 1#32
  let v396 : BitVec 32 := Scalar.muli v5 c1_i32_279
  let v397 : BitVec 32 := Scalar.addi v395 v396
  v397.toNat
def k0_dev27 (d0 : Dev nD) : Nat :=
  let c0_i32_297 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_296 : BitVec 32 := 2#32
  let v420 : BitVec 32 := Scalar.muli v7 c2_i32_296
  let v421 : BitVec 32 := Scalar.addi c0_i32_297 v420
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v422 : BitVec 32 := Scalar.muli v5 c1_i32_298
  let v423 : BitVec 32 := Scalar.addi v421 v422
  v423.toNat
def k0_dev28 (d0 : Dev nD) : Nat :=
  let c0_i32_316 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_315 : BitVec 32 := 2#32
  let v446 : BitVec 32 := Scalar.muli v7 c2_i32_315
  let v447 : BitVec 32 := Scalar.addi c0_i32_316 v446
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_317 : BitVec 32 := 1#32
  let v448 : BitVec 32 := Scalar.muli v5 c1_i32_317
  let v449 : BitVec 32 := Scalar.addi v447 v448
  v449.toNat
def k0_dev29 (d0 : Dev nD) : Nat :=
  let c0_i32_335 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_334 : BitVec 32 := 2#32
  let v472 : BitVec 32 := Scalar.muli v7 c2_i32_334
  let v473 : BitVec 32 := Scalar.addi c0_i32_335 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_336 : BitVec 32 := 1#32
  let v474 : BitVec 32 := Scalar.muli v5 c1_i32_336
  let v475 : BitVec 32 := Scalar.addi v473 v474
  v475.toNat
def k0_dev30 (d0 : Dev nD) : Nat :=
  let c0_i32_354 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_353 : BitVec 32 := 2#32
  let v498 : BitVec 32 := Scalar.muli v7 c2_i32_353
  let v499 : BitVec 32 := Scalar.addi c0_i32_354 v498
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_355 : BitVec 32 := 1#32
  let v500 : BitVec 32 := Scalar.muli v5 c1_i32_355
  let v501 : BitVec 32 := Scalar.addi v499 v500
  v501.toNat
def k0_dev31 (d0 : Dev nD) : Nat :=
  let c0_i32_373 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_372 : BitVec 32 := 2#32
  let v524 : BitVec 32 := Scalar.muli v7 c2_i32_372
  let v525 : BitVec 32 := Scalar.addi c0_i32_373 v524
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_374 : BitVec 32 := 1#32
  let v526 : BitVec 32 := Scalar.muli v5 c1_i32_374
  let v527 : BitVec 32 := Scalar.addi v525 v526
  v527.toNat
def k0_dev32 (d0 : Dev nD) : Nat :=
  let c0_i32_392 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_391 : BitVec 32 := 2#32
  let v550 : BitVec 32 := Scalar.muli v7 c2_i32_391
  let v551 : BitVec 32 := Scalar.addi c0_i32_392 v550
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_393 : BitVec 32 := 1#32
  let v552 : BitVec 32 := Scalar.muli v5 c1_i32_393
  let v553 : BitVec 32 := Scalar.addi v551 v552
  v553.toNat
def k0_dev33 (d0 : Dev nD) : Nat :=
  let c0_i32_411 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_410 : BitVec 32 := 2#32
  let v576 : BitVec 32 := Scalar.muli v7 c2_i32_410
  let v577 : BitVec 32 := Scalar.addi c0_i32_411 v576
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_412 : BitVec 32 := 1#32
  let v578 : BitVec 32 := Scalar.muli v5 c1_i32_412
  let v579 : BitVec 32 := Scalar.addi v577 v578
  v579.toNat
def k0_dev34 (d0 : Dev nD) : Nat :=
  let c0_i32_430 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_429 : BitVec 32 := 2#32
  let v602 : BitVec 32 := Scalar.muli v7 c2_i32_429
  let v603 : BitVec 32 := Scalar.addi c0_i32_430 v602
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_431 : BitVec 32 := 1#32
  let v604 : BitVec 32 := Scalar.muli v5 c1_i32_431
  let v605 : BitVec 32 := Scalar.addi v603 v604
  v605.toNat
def k0_off3 (d0 : Dev nD) (c0_i32_434 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c512_i32_13 : BitVec 32 := 512#32
  let v19 : BitVec 32 := Scalar.muli v18 c512_i32_13
  let v612 : BitVec 32 := Scalar.addi v19 c0_i32_434
  let c0_i32_440 : BitVec 32 := 0#32
  ![v612.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S512x512_S32x512_0_0 : ∀ a, (![0, 0] : Fin 2 → Nat) a + S32x512.size a ≤ S512x512.size a
  inb_S16_S1_1 : ∀ a, (![1] : Fin 1 → Nat) a + S1.size a ≤ S16.size a
  inb_S512x512_S32x512_32_0 : ∀ a, (![32, 0] : Fin 2 → Nat) a + S32x512.size a ≤ S512x512.size a
  inb_S16_S1_2 : ∀ a, (![2] : Fin 1 → Nat) a + S1.size a ≤ S16.size a
  inb_S512x512_S32x512_64_0 : ∀ a, (![64, 0] : Fin 2 → Nat) a + S32x512.size a ≤ S512x512.size a
  inb_S16_S1_3 : ∀ a, (![3] : Fin 1 → Nat) a + S1.size a ≤ S16.size a
  inb_S512x512_S32x512_96_0 : ∀ a, (![96, 0] : Fin 2 → Nat) a + S32x512.size a ≤ S512x512.size a
  inb_S16_S1_4 : ∀ a, (![4] : Fin 1 → Nat) a + S1.size a ≤ S16.size a
  inb_S512x512_S32x512_128_0 : ∀ a, (![128, 0] : Fin 2 → Nat) a + S32x512.size a ≤ S512x512.size a
  inb_S16_S1_5 : ∀ a, (![5] : Fin 1 → Nat) a + S1.size a ≤ S16.size a
  inb_S512x512_S32x512_160_0 : ∀ a, (![160, 0] : Fin 2 → Nat) a + S32x512.size a ≤ S512x512.size a
  inb_S16_S1_6 : ∀ a, (![6] : Fin 1 → Nat) a + S1.size a ≤ S16.size a
  inb_S512x512_S32x512_192_0 : ∀ a, (![192, 0] : Fin 2 → Nat) a + S32x512.size a ≤ S512x512.size a
  inb_S16_S1_7 : ∀ a, (![7] : Fin 1 → Nat) a + S1.size a ≤ S16.size a
  inb_S512x512_S32x512_224_0 : ∀ a, (![224, 0] : Fin 2 → Nat) a + S32x512.size a ≤ S512x512.size a
  inb_S16_S1_8 : ∀ a, (![8] : Fin 1 → Nat) a + S1.size a ≤ S16.size a
  inb_S512x512_S32x512_256_0 : ∀ a, (![256, 0] : Fin 2 → Nat) a + S32x512.size a ≤ S512x512.size a
  inb_S16_S1_9 : ∀ a, (![9] : Fin 1 → Nat) a + S1.size a ≤ S16.size a
  inb_S512x512_S32x512_288_0 : ∀ a, (![288, 0] : Fin 2 → Nat) a + S32x512.size a ≤ S512x512.size a
  inb_S16_S1_10 : ∀ a, (![10] : Fin 1 → Nat) a + S1.size a ≤ S16.size a
  inb_S512x512_S32x512_320_0 : ∀ a, (![320, 0] : Fin 2 → Nat) a + S32x512.size a ≤ S512x512.size a
  inb_S16_S1_11 : ∀ a, (![11] : Fin 1 → Nat) a + S1.size a ≤ S16.size a
  inb_S512x512_S32x512_352_0 : ∀ a, (![352, 0] : Fin 2 → Nat) a + S32x512.size a ≤ S512x512.size a
  inb_S16_S1_12 : ∀ a, (![12] : Fin 1 → Nat) a + S1.size a ≤ S16.size a
  inb_S512x512_S32x512_384_0 : ∀ a, (![384, 0] : Fin 2 → Nat) a + S32x512.size a ≤ S512x512.size a
  inb_S16_S1_13 : ∀ a, (![13] : Fin 1 → Nat) a + S1.size a ≤ S16.size a
  inb_S512x512_S32x512_416_0 : ∀ a, (![416, 0] : Fin 2 → Nat) a + S32x512.size a ≤ S512x512.size a
  inb_S16_S1_14 : ∀ a, (![14] : Fin 1 → Nat) a + S1.size a ≤ S16.size a
  inb_S512x512_S32x512_448_0 : ∀ a, (![448, 0] : Fin 2 → Nat) a + S32x512.size a ≤ S512x512.size a
  inb_S16_S1_15 : ∀ a, (![15] : Fin 1 → Nat) a + S1.size a ≤ S16.size a
  inb_S512x512_S32x512_480_0 : ∀ a, (![480, 0] : Fin 2 → Nat) a + S32x512.size a ≤ S512x512.size a
  h_S32x512 : 0 < S32x512.numel
  shapeCasts_S32x512_S32x512 : S32x512.ShapeCasts S32x512
  hcc0_scratch1 : 2 + S16.numel ≤ 66
  hcc0_scratch2 : 18 + S16.numel ≤ 66
  hcc0_scratch3 : 34 + S16.numel ≤ 66
  hcc0_scratch4 : 50 + S16.numel ≤ 66
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (32 * r.val))) a + S32x512.size a ≤ S1024x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ (r : Fin 16), ∀ a, (k0_off2 d0 (BitVec.ofNat 32 (32 * r.val))) a + S32x512.size a ≤ S1024x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ (r : Fin 16), ∀ a, (k0_off3 d0 (BitVec.ofNat 32 (32 * r.val))) a + S32x512.size a ≤ S1024x512.size a
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2
abbrev cc0_scratch3 : DmaSems sig S16 := SemArray.consecutive 34 S16 hcc0_scratch3
abbrev cc0_scratch4 : DmaSems sig S16 := SemArray.consecutive 50 S16 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x512_S2x1024x512 : S2048x512.ShapeCasts S2x1024x512
  reducesTo_S2x1024x512_S1024x512_d0 : S2x1024x512.ReducesTo [0] S1024x512
  h_S_ : 0 < S_.numel

variable [Facts₀]

class Facts : Prop extends Facts₀ where

variable [Facts]
-- ==== Proof.Mesh.lean ====
/-
The 2×2 mesh: device `c` sits at coordinates (c / 2, c % 2). Its partner along the second axis
(same first coordinate, the other second coordinate) is `yp c`; its partner along the first axis is `xp c`.
Both maps are involutions, they commute, and neither has a fixed point.
-/
import Idealize.ShloMosaic.Lib.Layout

namespace Cert.Mesh

/-- The partner along the second mesh axis: the low bit of the device number flipped. -/
def yp (c : Fin 4) : Fin 4 := ⟨(2 * (c.val / 2) + 1) - (c.val % 2), by omega⟩
/-- The partner along the first mesh axis: the high bit of the device number flipped. -/
def xp (c : Fin 4) : Fin 4 := ⟨((c.val % 2) + 2) - 2 * (c.val / 2), by omega⟩

theorem yp_yp (c : Fin 4) : yp (yp c) = c := by revert c; decide
theorem xp_xp (c : Fin 4) : xp (xp c) = c := by revert c; decide
theorem yp_xp (c : Fin 4) : yp (xp c) = xp (yp c) := by revert c; decide
theorem yp_ne (c : Fin 4) : yp c ≠ c := by revert c; decide
theorem xp_ne (c : Fin 4) : xp c ≠ c := by revert c; decide
theorem yp_ne_xp (c : Fin 4) : yp c ≠ xp c := by revert c; decide
/-- The first mesh coordinate is kept by `yp` and flipped by `xp`. -/
theorem yp_div (c : Fin 4) : (yp c).val / 2 = c.val / 2 := by revert c; decide
theorem xp_div (c : Fin 4) : (xp c).val / 2 = 1 - c.val / 2 := by revert c; decide
/-- The second mesh coordinate is flipped by `yp` and kept by `xp`. -/
theorem yp_mod (c : Fin 4) : (yp c).val % 2 = 1 - c.val % 2 := by revert c; decide
theorem xp_mod (c : Fin 4) : (xp c).val % 2 = c.val % 2 := by revert c; decide

def ypEquiv : Fin 4 ≃ Fin 4 := ⟨yp, yp, yp_yp, yp_yp⟩
def xpEquiv : Fin 4 ≃ Fin 4 := ⟨xp, xp, xp_xp, xp_xp⟩

end Cert.Mesh
-- ==== Proof.RefSide.lean ====
/-
The reference side of the certificate: the one-device reference's result as a function of its whole
input (row r of the first half plus row r of the second half), and the bridge from the mesh's blocks:
on the 2×2 mesh device c holds block (c % 2) of the input along dimension 0, so a device's block plus
the block of its partner along the second mesh axis is the reference's result, and the partner along
the first mesh axis holds the same block.
-/
import proofs.«900139_g7700000000000140_dist_ar_v7x_xy2x2_y_m1024_n512_f32_1_alg».proof.Defs
import proofs.«900139_g7700000000000140_dist_ar_v7x_xy2x2_y_m1024_n512_f32_1_alg».proof.Proof.Gen.ReferenceIdeal
import proofs.«900139_g7700000000000140_dist_ar_v7x_xy2x2_y_m1024_n512_f32_1_alg».proof.Proof.Gen.ReferenceIdeal.Run
import proofs.«900139_g7700000000000140_dist_ar_v7x_xy2x2_y_m1024_n512_f32_1_alg».proof.Proof.Gen.ReferenceIdeal.Read
import proofs.«900139_g7700000000000140_dist_ar_v7x_xy2x2_y_m1024_n512_f32_1_alg».proof.Proof.Mesh
import Idealize.ShloMosaic.Lib.Layout
import Idealize.ShloMosaic.Lib.ValueIdx
import Idealize.ShloMosaic.Lib.Pipeline.Value
import Idealize.ShloMosaic.PureOps.Ideal.Laws
import Idealize.ShloMosaic.Lib.StableHlo.Run

noncomputable section

namespace Cert.RefSide

open Idealize.ShloMosaic Idealize.SL.Sem

/-- The reference's result from its whole input: row r of the first half plus row r of the second half. -/
def refVal (X : (⟨2, ![2048, 512]⟩ : Shape).Idx → EReal) : (⟨2, ![1024, 512]⟩ : Shape).Idx → EReal :=
  fun i => X (ValueIdx.ix2 (⟨(i 0).val, by have := ValueIdx.idx2_lt0 i; omega⟩ : Fin 2048) (i 1))
    + X (ValueIdx.ix2 (⟨1024 + (i 0).val, by have := ValueIdx.idx2_lt0 i; omega⟩ : Fin 2048) (i 1))

/-! ## The reference's run -/

/-- Element (k, r, l) of the reshaped input is element (k * 1024 + r, l) of the input, so the sum over k
    that the reduction reads at (r, l), from the initial value 0, is the sum of the two halves' rows. -/
theorem val_eq_refVal (X : (⟨2, ![2048, 512]⟩ : Shape).Idx → EReal) :
    Cert.ReferenceIdeal.Read.val_main_v1 (F := Ideal) X = refVal X := by
  funext i
  rw [Cert.ReferenceIdeal.Read.val_main_v1_apply, Cert.ReferenceIdeal.Read.val_main_cst_apply, Fin.sum_univ_two,
    Cert.ReferenceIdeal.Read.val_main_v0_apply, Cert.ReferenceIdeal.Read.val_main_v0_apply]
  show Ideal.ofBits .f32 0x00000000#32 + _ = _
  rw [Ideal.ofBits_zero_f32, zero_add]
  unfold refVal
  have h0 := ValueIdx.idx2_lt0 i
  have h1 := ValueIdx.idx2_lt1 i
  congr 1
  · refine congrArg X (funext fun a => Fin.ext ?_)
    match a with
    | ⟨0, _⟩ =>
      show (((0 : Fin 2).val * 1024 + (i 0).val) * 512 + (i 1).val) / 512 = (i 0).val
      simp only [Fin.val_zero]; omega
    | ⟨1, _⟩ =>
      show (((0 : Fin 2).val * 1024 + (i 0).val) * 512 + (i 1).val) % 512 = (i 1).val
      simp only [Fin.val_zero]; omega
  · refine congrArg X (funext fun a => Fin.ext ?_)
    match a with
    | ⟨0, _⟩ =>
      show (((1 : Fin 2).val * 1024 + (i 0).val) * 512 + (i 1).val) / 512 = 1024 + (i 0).val
      simp only [Fin.val_one]; omega
    | ⟨1, _⟩ =>
      show (((1 : Fin 2).val * 1024 + (i 0).val) * 512 + (i 1).val) % 512 = (i 1).val
      simp only [Fin.val_one]; omega

/-- The reference runs to the end, its result is `refVal` of its argument, and its argument ends unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
        r.2.mem (((0 : Dev Cert.ReferenceIdeal.nD).tc : Thread Cert.ReferenceIdeal.nD Cert.ReferenceIdeal.τ).loc Cert.ReferenceIdeal.main_v1) = refVal (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans ((Cert.ReferenceIdeal.Read.val_main_v1_eq (F := Ideal) _).trans (val_eq_refVal _)), (h 0).2⟩)
    (Cert.ReferenceIdeal.Value.run (F := Ideal) m' g')

/-- The reference's frame: its run with the result dropped. -/
theorem ref_frame [hReferenceIdeal : Cert.ReferenceIdeal.Facts] [hPre_finite_inputs_ReferenceIdeal : Cert.Pre_finite_inputs_ReferenceIdeal.Facts] :
    Cert.frame_ReferenceIdeal :=
  fun m ρ _ => (θ_run (Cert.ReferenceIdeal.defs (F := Ideal)) _ _).mono (fun _ h c => (h c).2)
    (Cert.ReferenceIdeal.Value.run (F := Ideal) m ρ)

/-! ## The bridge from the mesh's blocks -/

/-- Where a device's block lies in the whole input: device c holds rows (c % 2) * 1024 + r of it. -/
theorem block_apply (X : (⟨2, ![2048, 512]⟩ : Shape).Idx → EReal) (c : Fin 4) (i : (⟨2, ![1024, 512]⟩ : Shape).Idx) :
    (Layout.blockN ⟨2, ![1024, 512]⟩ ⟨2, ![2048, 512]⟩ (Layout.meshBlock [2, 2] ![[1], []] c) X) i
      = X (ValueIdx.ix2 (⟨(c.val % 2) * 1024 + (i 0).val, by have := ValueIdx.idx2_lt0 i; omega⟩ : Fin 2048) (i 1)) := by
  rw [Layout.blockN_apply]
  refine congrArg X (funext fun a => Fin.ext ?_)
  rw [Layout.TilesN.idx_val]
  match a with
  | ⟨0, _⟩ =>
    show Layout.meshLin [2, 2] c.val [1] * 1024 + (i 0).val = (c.val % 2) * 1024 + (i 0).val
    simp [Layout.meshLin, Layout.meshCoord, Layout.cutSize]
  | ⟨1, _⟩ =>
    show Layout.meshLin [2, 2] c.val [] * 512 + (i 1).val = (i 1).val
    simp [Layout.meshLin]

/-- THE BRIDGE: device c's block plus its second-axis partner's block is the reference's result. -/
theorem block_add_partner (X : (⟨2, ![2048, 512]⟩ : Shape).Idx → EReal) (c : Fin 4) (i : (⟨2, ![1024, 512]⟩ : Shape).Idx) :
    (Layout.blockN ⟨2, ![1024, 512]⟩ ⟨2, ![2048, 512]⟩ (Layout.meshBlock [2, 2] ![[1], []] c) X) i
      + (Layout.blockN ⟨2, ![1024, 512]⟩ ⟨2, ![2048, 512]⟩ (Layout.meshBlock [2, 2] ![[1], []] (Cert.Mesh.yp c)) X) i = refVal X i := by
  rw [block_apply, block_apply]
  have hy := Cert.Mesh.yp_mod c
  have hc : c.val % 2 = 0 ∨ c.val % 2 = 1 := by omega
  unfold refVal
  rcases hc with h | h
  · have e1 : (c.val % 2) * 1024 + (i 0).val = (i 0).val := by omega
    have e2 : ((Cert.Mesh.yp c).val % 2) * 1024 + (i 0).val = 1024 + (i 0).val := by omega
    simp only [e1, e2]
  · have e1 : (c.val % 2) * 1024 + (i 0).val = 1024 + (i 0).val := by omega
    have e2 : ((Cert.Mesh.yp c).val % 2) * 1024 + (i 0).val = (i 0).val := by omega
    simp only [e1, e2]
    exact add_comm (G := EReal) _ _

/-- The partner along the first mesh axis has the same second coordinate, so it holds the same block. -/
theorem block_xp (X : (⟨2, ![2048, 512]⟩ : Shape).Idx → EReal) (c : Fin 4) :
    Layout.blockN ⟨2, ![1024, 512]⟩ ⟨2, ![2048, 512]⟩ (Layout.meshBlock [2, 2] ![[1], []] (Cert.Mesh.xp c)) X
      = Layout.blockN ⟨2, ![1024, 512]⟩ ⟨2, ![2048, 512]⟩ (Layout.meshBlock [2, 2] ![[1], []] c) X := by
  funext i
  rw [block_apply, block_apply]
  have hx := Cert.Mesh.xp_mod c
  simp only [hx]

/-- info: 'Cert.RefSide.ref_run' depends on axioms: [propext, Classical.choice, Quot.sound] -/
#guard_msgs in #print axioms ref_run
/-- info: 'Cert.RefSide.block_add_partner' depends on axioms: [propext, Classical.choice, Quot.sound] -/
#guard_msgs in #print axioms block_add_partner

end Cert.RefSide

end
-- ==== Proof.Protocol.lean ====
/-
The all-reduce over a 2×2 mesh, as a protocol of semaphore cells.

Device `c` holds a 1024×512 block `X c`. Its own half of the rows is the 512 rows starting at 512·(c / 2), cut in
sixteen chunks of 32 rows; the other half starts at 512·(1 − c / 2).
Phase 1: chunk j of the own half of `X c` goes to chunk j of the landing buffer of `yp c`.
Phase 2: once chunk j has landed, the device adds it to its own chunk j of `X c`, stores the sum in chunk j of the own half
of its result, and sends that chunk to the same rows of the result of `xp c` (whose other half they are).
Phase 3: it waits for the sixteen chunks of its other half to land, and for its own transfers to have left.
Before any transfer it signals both partners' entry semaphore and waits for two units on its own.

Cells of device c: the entry cell (two duties: `false` paid by `yp c`, `true` by `xp c`) and 4 × 16 transfer cells
(one duty each): departure of chunk j in phase 1, arrival of chunk j in the landing buffer, departure of chunk j in
phase 2, arrival of chunk j in the other half of the result.
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import Idealize.ShloMosaic.Lib.Pipeline.Launch
import Idealize.ShloMosaic.Lib.Pipeline.Kit
import Idealize.ShloMosaic.Lib.Ring
import Idealize.ShloMosaic.Lib.Tactic
import Idealize.ShloMosaic.Lib.ValueIdx

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and their chunks -/

abbrev xM : Memref sig .tc .vmem S1024x512 .f32 := Memref.whole cc0_stg0_0
abbrev oM : Memref sig .tc .vmem S1024x512 .f32 := Memref.whole cc0_stg1_0
abbrev rM : Memref sig .tc .vmem S512x512 .f32 := Memref.whole cc0_scratch0

/-- Chunk j of the landing buffer: rows 32 j … 32 j + 31. -/
theorem inbSm (j : Fin 16) : ∀ a, (![32 * j.val, 0] : Fin 2 → Nat) a + S32x512.size a ≤ S512x512.size a := by
  revert j; decide
abbrev rRect (j : Fin 16) : Rect S512x512 := Rect.unit (s := S512x512) ![32 * j.val, 0] S32x512.size (inbSm j)
/-- Chunk j of the device's own half of a 1024-row buffer, and of its other half, at the offsets the program computes. -/
abbrev ownRect (c : Dev nD) (j : Fin 16) : Rect S1024x512 :=
  Rect.unit (s := S1024x512) (k0_off1 c (BitVec.ofNat 32 (32 * j.val))) S32x512.size (k0_off1_inb c j)
abbrev othRect (c : Dev nD) (j : Fin 16) : Rect S1024x512 :=
  Rect.unit (s := S1024x512) (k0_off3 c (BitVec.ofNat 32 (32 * j.val))) S32x512.size (k0_off3_inb c j)

abbrev rSl (j : Fin 16) : Memref sig .tc .vmem S32x512 .f32 := rM.slice (rRect j) (fun _ => rfl)
abbrev xSl (c : Dev nD) (j : Fin 16) : Memref sig .tc .vmem S32x512 .f32 := xM.slice (ownRect c j) (fun _ => rfl)
abbrev oSl (c : Dev nD) (j : Fin 16) : Memref sig .tc .vmem S32x512 .f32 := oM.slice (ownRect c j) (fun _ => rfl)
abbrev pSl (c : Dev nD) (j : Fin 16) : Memref sig .tc .vmem S32x512 .f32 := oM.slice (othRect c j) (fun _ => rfl)

/-! ## The semaphores and cells -/

theorem inb16 (j : Fin 16) : ∀ a, (![j.val] : Fin 1 → Nat) a + S1.size a ≤ S16.size a := by revert j; decide
/-- Semaphore j of one of the four semaphore arrays, as the program names it. -/
abbrev semAt (A : DmaSems sig S16) (j : Fin 16) : DmaSem sig :=
  ((A.slice (Rect.unit (s := S16) ![j.val] S1.size (inb16 j))).squeeze S_ squeezes_S1_S_).sem
abbrev semArr : Fin 4 → DmaSems sig S16 := ![cc0_scratch1, cc0_scratch2, cc0_scratch3, cc0_scratch4]

abbrev barS : Sem sig := (SemArray.scalar (sig.barrier 0 rfl) : Sems sig S_).sem

/-- A device's cells: the entry cell, and the transfer cell (array a, chunk j). -/
abbrev CK : Type := Option (Fin 4 × Fin 16)
abbrev csem : CK → SemLoc sig
  | none => .reg barS
  | some (a, j) => .dma (semAt (semArr a) j)
abbrev kcell (ck : Dev nD × CK) : GSem nD τ sig := ((ck.1 : Thread nD τ), csem ck.2)

abbrev barCell (c : Dev nD) : GSem nD τ sig := kcell (c, none)
abbrev dep1Cell (c : Dev nD) (j : Fin 16) : GSem nD τ sig := kcell (c, some (0, j))
abbrev arr1Cell (c : Dev nD) (j : Fin 16) : GSem nD τ sig := kcell (c, some (1, j))
abbrev dep2Cell (c : Dev nD) (j : Fin 16) : GSem nD τ sig := kcell (c, some (2, j))
abbrev arr2Cell (c : Dev nD) (j : Fin 16) : GSem nD τ sig := kcell (c, some (3, j))

/-- The units one chunk's transfer credits. -/
abbrev N : ℕ := (rSl 0 : Memref sig .tc .vmem S32x512 .f32).view.dmaCredit
theorem N_pos : 0 < N := View.dmaCredit_pos _ (by decide)

/-! ## Contents -/

/-- What device c's input staging buffer holds once fetched: its block. -/
def X (c : Dev nD) : (cc0_stg0_0 : Ref sig .tc).ty.Contents (Elt F) :=
  (win0_0.blk (0 : Fin 1)).view.read (Elt F) ((s₀ m ρ).mem ((c : Thread nD τ).loc main_arg0))

/-- The sum of device c's block and its second-axis partner's, entry by entry (the float addition of the instance). -/
def pairSum (c : Dev nD) : (cc0_stg1_0 : Ref sig .tc).ty.Contents (Elt F) :=
  fun i => FloatOps.addf (X m ρ c i) (X m ρ (yp c) i)

/-- Row r belongs to device c's own half. -/
abbrev ownRow (c : Dev nD) (r : ℕ) : Prop := r / 512 = c.val / 2

/-- What device c's result staging buffer holds at the end: on its own half its pair sum, on the other half its first-axis
    partner's pair sum. -/
def outVal (c : Dev nD) : (cc0_stg1_0 : Ref sig .tc).ty.Contents (Elt F) :=
  fun i => if ownRow c (i 0).val then pairSum m ρ c i else pairSum m ρ (xp c) i

/-- What device c's landing buffer holds at the end: the own-half rows of its second-axis partner's block. -/
def landVal (c : Dev nD) : (cc0_scratch0 : Ref sig .tc).ty.Contents (Elt F) :=
  fun i => X m ρ (yp c) (ValueIdx.ix2 (⟨512 * (c.val / 2) + (i 0).val, by have := ValueIdx.idx2_lt0 i; have hc : c.val < 4 := c.isLt; omega⟩ : Fin 1024)
    (⟨(i 1).val, ValueIdx.idx2_lt1 i⟩ : Fin 512))

/-! ## The buffers' chunks as assertions -/

/-- Chunk j of the landing buffer on device d, held whole at contents f. -/
def rPts (d : Dev nD) (j : Fin 16) (f : Buf (Elt F) ((rSl j).view.loc (d : Thread nD τ))) : sProp 𝕄 :=
  (rSl j).view.loc (d : Thread nD τ) ↦[(rSl j).view.set]{fullShare} f
/-- Chunk j of device c's own half of its input staging buffer, held at share q. -/
def xPts (c : Dev nD) (j : Fin 16) (q : PosShare TreeShare) : sProp 𝕄 :=
  (xSl c j).view.loc (c : Thread nD τ) ↦[(xSl c j).view.set]{q} X m ρ c
/-- Rows of the result staging buffer ON DEVICE d at the place of device c's own chunk j (for d the first-axis partner of c
    these are chunk j of d's other half), held whole at contents f. -/
def oPts (d c : Dev nD) (j : Fin 16) (f : Buf (Elt F) ((oSl c j).view.loc (d : Thread nD τ))) : sProp 𝕄 :=
  (oSl c j).view.loc (d : Thread nD τ) ↦[(oSl c j).view.set]{fullShare} f

/-- The sixteen chunk indices in program order. -/
abbrev js : List (Fin 16) := [0, 1, 2, 3, 4, 5, 6, 7, 8, 9, 10, 11, 12, 13, 14, 15]

/-! ## The schedule -/

/-- What the second-axis partner's entry signal hands device c: that partner's landing buffer, chunk by chunk. -/
def barPayY (c : Dev nD) : sProp 𝕄 := bigSepL js fun j => iprop(∃ f, rPts (yp c) j f)
/-- What the first-axis partner's entry signal hands device c: on that partner, the rows of its result buffer at device
    c's own half, chunk by chunk. -/
def barPayX (c : Dev nD) : sProp 𝕄 := bigSepL js fun j => iprop(∃ f, oPts (xp c) c j f)

/-- The payload of each duty of device c's cells. -/
def payOf (c : Dev nD) : CK → Bool → sProp 𝕄
  | none, false => barPayY c
  | none, true => barPayX c
  | some (a, j), _ =>
    if a = 0 then xPts m ρ c j fullShare.right
    else if a = 1 then rPts c j (landVal m ρ c)
    else if a = 2 then oPts c c j (outVal m ρ c)
    else oPts c (xp c) j (outVal m ρ c)

theorem csem_some_ne_bar (aj : Fin 4 × Fin 16) : csem (some aj) ≠ .reg barS := fun h => by cases h

/-- One round, round 0. The entry cell has two duties of one unit; a transfer cell one duty of a chunk's credit. -/
def Rd : Rounds.Schedule (GSem nD τ sig) Bool 𝕄 where
  duties g r := if r = 0 ∧ g.1.2 = .tc then (if g.2 = .reg barS then Finset.univ else if ∃ aj, csem (some aj) = g.2 then {false} else ∅) else ∅
  unitless _ := False
  amount g _ _ := if g.2 = .reg barS then 1 else N
  payload g _ d := if h : ∃ k : CK, csem k = g.2 then payOf m ρ g.1.1 (Classical.choose h) d else iprop(emp)
  amount_pos g _ _ _ := by
    by_cases h : g.2 = .reg barS
    · rw [if_pos h]; exact Nat.one_pos
    · rw [if_neg h]; exact N_pos

/-! ## What each device owes at launch; the levels -/

/-- The tallies of a list of (cell, amount) pairs, the head of the list the LAST summand: paying the head leaves the tail's. -/
def oweL : List (GSem nD τ sig × ℕ) → CellTallies nD τ sig Unit
  | [] => 0
  | p :: l => oweL l + tallyAt p.1 () p.2

/-- What device c pays, in the order it pays it: the two entry signals, the sixteen arrivals at its second-axis partner,
    the sixteen arrivals at its first-axis partner. -/
def payList (c : Dev nD) : List (GSem nD τ sig × ℕ) :=
  (barCell (yp c), 1) :: (barCell (xp c), 1) :: (js.map fun j => (arr1Cell (yp c) j, N)) ++ (js.map fun j => (arr2Cell (xp c) j, N))

def O₀ (c : Dev nD) : CellTallies nD τ sig Unit := oweL (payList c)

def L (g : GSem nD τ sig) : Finset Unit := if g.1.2 = .tc then {()} else ∅
/-- Entry cells at level 1, phase-1 arrival cells at 2, phase-2 arrival cells at 3, everything else (staging, departures) at 0. -/
def lv (g : GSem nD τ sig) (_ : Unit) : ℕ :=
  if g.2 = .reg barS then 1 else if ∃ j, g.2 = csem (some (1, j)) then 2 else if ∃ j, g.2 = csem (some (3, j)) then 3 else 0

/-! ## The ghost state of a device -/

/-- The cells' invariants at the names the launch allocated them at, and that round 0 of every cell is reached. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

/-- Per chunk: the four positions of device c's own cells and the four tokens of the duties it pays. -/
def chunkGhost (c : Dev nD) (j : Fin 16) : sProp 𝕄 :=
  iprop(atPos ER (dep1Cell c j) 0 ∅ 0 ∗ atPos ER (arr1Cell c j) 0 ∅ 0 ∗ atPos ER (dep2Cell c j) 0 ∅ 0 ∗ atPos ER (arr2Cell c j) 0 ∅ 0
    ∗ dutyTok ER (dep1Cell c j) 0 false ∗ dutyTok ER (arr1Cell (yp c) j) 0 false
    ∗ dutyTok ER (dep2Cell c j) 0 false ∗ dutyTok ER (arr2Cell (xp c) j) 0 false)

/-- What stays with device c: its entry cell's position, the two entry tokens it pays with, and the chunks' ghost state. -/
def linear (c : Dev nD) : sProp 𝕄 :=
  iprop(atPos ER (barCell c) 0 ∅ 0 ∗ dutyTok ER (barCell (yp c)) 0 false ∗ dutyTok ER (barCell (xp c)) 0 true
    ∗ bigSepL js (chunkGhost c))

def ghost (K : Dev nD × CK → ℕ) (c : Dev nD) : sProp 𝕄 := iprop(records m ρ K ∗ linear c)

/-- The credit tokens the launch deals device c: two units on its entry cell, a chunk's credit on each arrival cell. -/
def launchCreds (c : Dev nD) : sProp 𝕄 :=
  iprop(cred (tallyAt (barCell c) () 2) ∗ (bigSepL js fun j => cred (tallyAt (arr1Cell c j) () N)) ∗ bigSepL js fun j => cred (tallyAt (arr2Cell c j) () N))

def start (c : Dev nD) : sProp 𝕄 := iprop((∃ K, ghost m ρ K c) ∗ launchCreds c ∗ levAts L lv)

def Φ₀ (c : Dev nD) : sProp 𝕄 := iprop(start m ρ c ∗ ∃ f, ((c : Thread nD τ).loc cc0_scratch0) ↦{fullShare} f)
/-- After the point: the landing buffer holding the partner's rows, the 64 own cells closed at zero. -/
def Φ₁ (c : Dev nD) : sProp 𝕄 :=
  iprop((((c : Thread nD τ).loc cc0_scratch0) ↦{fullShare} landVal m ρ c)
    ∗ bigSep Finset.univ fun aj : Fin 4 × Fin 16 => semVal (kcell (c, some aj)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outVal m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdealProof
end
-- ==== Proof.Bridge.lean ====
/-
The bridge from the kernel's protocol values to the reference's result, at the ideal instance.
What a device's input staging buffer holds once fetched is its whole argument array; a device's array is its block of the
reference's whole argument; a block plus the block of the partner along the second mesh axis is the reference's result;
so every device's pair sum, and with it the final contents of every device's result buffer, is the reference's result.
-/
import proofs.«900139_g7700000000000140_dist_ar_v7x_xy2x2_y_m1024_n512_f32_1_alg».proof.Proof.Protocol
import proofs.«900139_g7700000000000140_dist_ar_v7x_xy2x2_y_m1024_n512_f32_1_alg».proof.Proof.RefSide
import proofs.«900139_g7700000000000140_dist_ar_v7x_xy2x2_y_m1024_n512_f32_1_alg».proof.Proof.Mesh
import Idealize.ShloMosaic.Lib.Layout
import Idealize.ShloMosaic.PureOps.Ideal

noncomputable section

namespace Cert.Bridge

open Idealize.ShloMosaic Idealize.SL.Sem
open Cert.Mesh

/-- The input window's one block is the whole array: what the staging buffer holds once fetched is the device's argument. -/
theorem X_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdealProof.X (F := Ideal) m ρ c = m ((c.tc : Thread Cert.KernelIdeal.nD Cert.KernelIdeal.τ).loc Cert.KernelIdeal.main_arg0) := by
  unfold Cert.KernelIdealProof.X
  exact Memref.read_access_unit_zero (Elt Ideal) Cert.KernelIdeal.main_arg0 (funext fun a => Nat.zero_mul _) _ _

/-- Every device's pair sum is the reference's result of the whole argument. -/
theorem pairSum_eq_ref (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hag : ∀ c : Dev Cert.KernelIdeal.nD, m ((c.tc : Thread Cert.KernelIdeal.nD Cert.KernelIdeal.τ).loc Cert.KernelIdeal.main_arg0) = Layout.blockN ⟨2, ![1024, 512]⟩ ⟨2, ![2048, 512]⟩ (Layout.meshBlock [2, 2] ![[1], []] c) (m' (((0 : Dev Cert.ReferenceIdeal.nD).tc : Thread Cert.ReferenceIdeal.nD Cert.ReferenceIdeal.τ).loc Cert.ReferenceIdeal.main_arg0)))
    (d : Dev Cert.KernelIdeal.nD) :
    Cert.KernelIdealProof.pairSum (F := Ideal) m ρ d = Cert.RefSide.refVal (m' (((0 : Dev Cert.ReferenceIdeal.nD).tc : Thread _ Cert.ReferenceIdeal.τ).loc Cert.ReferenceIdeal.main_arg0)) := by
  funext i
  unfold Cert.KernelIdealProof.pairSum
  rw [X_eq, X_eq, hag d, hag (yp d)]
  exact Cert.RefSide.block_add_partner _ d i

/-- The final contents of every device's result buffer is the reference's result of the whole argument. -/
theorem outVal_eq_ref (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hag : ∀ c : Dev Cert.KernelIdeal.nD, m ((c.tc : Thread Cert.KernelIdeal.nD Cert.KernelIdeal.τ).loc Cert.KernelIdeal.main_arg0) = Layout.blockN ⟨2, ![1024, 512]⟩ ⟨2, ![2048, 512]⟩ (Layout.meshBlock [2, 2] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdealProof.outVal (F := Ideal) m ρ c = Cert.RefSide.refVal (m' (((0 : Dev Cert.ReferenceIdeal.nD).tc : Thread _ Cert.ReferenceIdeal.τ).loc Cert.ReferenceIdeal.main_arg0)) := by
  funext i
  unfold Cert.KernelIdealProof.outVal
  split
  · rw [pairSum_eq_ref m ρ m' hag c]
  · rw [pairSum_eq_ref m ρ m' hag (xp c)]

/-- info: 'Cert.Bridge.X_eq' depends on axioms: [propext, Classical.choice, Quot.sound] -/
#guard_msgs in #print axioms X_eq

/-- info: 'Cert.Bridge.outVal_eq_ref' depends on axioms: [propext, Classical.choice, Quot.sound] -/
#guard_msgs in #print axioms outVal_eq_ref

end Cert.Bridge

end
-- ==== Proof.Tables.lean ====
/-
The schedule's tables: which duties each cell has, their amounts, a round's expected units, the payloads, and that the
cells of the protocol are pairwise distinct.
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import proofs.«900139_g7700000000000140_dist_ar_v7x_xy2x2_y_m1024_n512_f32_1_alg».proof.Proof.Protocol
import Idealize.ShloMosaic.Lib.Pipeline.Launch
import Idealize.ShloMosaic.Lib.Pipeline.Kit
import Idealize.ShloMosaic.Lib.Ring
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are distinct -/

/-- Semaphore j of array a is DMA semaphore number 2 + 16 a + j. -/
theorem semAt_val (a : Fin 4) (j : Fin 16) : (semAt (semArr a) j).val = 2 + 16 * a.val + j.val := by
  revert a j; decide

theorem csem_injective : Function.Injective (csem : CK → SemLoc sig) := by
  rintro (_ | ⟨a, j⟩) (_ | ⟨a', j'⟩) h
  · rfl
  · cases h
  · cases h
  · have hv : (semAt (semArr a) j).val = (semAt (semArr a') j').val := congrArg Fin.val (SemLoc.dma.inj h)
    rw [semAt_val, semAt_val] at hv
    have ha : a = a' := Fin.ext (by omega)
    have hj : j = j' := Fin.ext (by omega)
    rw [ha, hj]

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

theorem choose_csem (k : CK) (h : ∃ k', csem k' = csem k) : Classical.choose h = k :=
  csem_injective (Classical.choose_spec h)

/-! ## The tables -/

section Sched
variable (c : Dev nD)

theorem duties_bar : (Rd (F := F) m ρ).duties (barCell c) 0 = Finset.univ := by
  dsimp only [Rd]; rw [if_pos ⟨rfl, rfl⟩, if_pos rfl]
theorem duties_x (aj : Fin 4 × Fin 16) : (Rd (F := F) m ρ).duties (kcell (c, some aj)) 0 = {false} := by
  dsimp only [Rd]; rw [if_pos ⟨rfl, rfl⟩, if_neg (csem_some_ne_bar aj), if_pos ⟨aj, rfl⟩]
theorem duties_later (g : GSem nD τ sig) : ∀ r, 1 ≤ r → (Rd (F := F) m ρ).duties g r = ∅ :=
  fun r hr => by dsimp only [Rd]; rw [if_neg fun h => by omega]
theorem amount_bar (d : Bool) : (Rd (F := F) m ρ).amount (barCell c) 0 d = 1 := by
  dsimp only [Rd]; exact if_pos rfl
theorem amount_x (aj : Fin 4 × Fin 16) (d : Bool) : (Rd (F := F) m ρ).amount (kcell (c, some aj)) 0 d = N := by
  dsimp only [Rd]; exact if_neg (csem_some_ne_bar aj)
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_x (aj : Fin 4 × Fin 16) : (Rd (F := F) m ρ).expect (kcell (c, some aj)) 0 = N := by
  unfold Schedule.expect Schedule.amountOf; rw [duties_x, Finset.sum_singleton, amount_x]
theorem payload_eq (k : CK) (r : ℕ) (d : Bool) : (Rd m ρ).payload (kcell (c, k)) r d = payOf m ρ c k d := by
  show (if h : ∃ k' : CK, csem k' = csem k then payOf m ρ c (Classical.choose h) d else iprop(emp)) = payOf m ρ c k d
  rw [dif_pos ⟨k, rfl⟩, choose_csem]
/-- The rest of the entry cell's round, no duty taken: both partners' payloads. -/
theorem rest_bar : bigSep ((Rd m ρ).duties (barCell c) 0 \ ∅) (fun d => (Rd m ρ).payload (barCell c) 0 d) = iprop(barPayY c ∗ barPayX c) := by
  rw [Finset.sdiff_empty, duties_bar, bigSep_univ_eq_bigSepL [false, true] (by decide) (by decide), bigSepL_cons_cons, bigSepL_singleton,
    payload_eq, payload_eq]
  rfl
/-- The rest of a transfer cell's round: its one duty's payload. -/
theorem rest_x (aj : Fin 4 × Fin 16) :
    bigSep ((Rd m ρ).duties (kcell (c, some aj)) 0 \ ∅) (fun d => (Rd m ρ).payload (kcell (c, some aj)) 0 d) = payOf m ρ c (some aj) false := by
  rw [Finset.sdiff_empty, duties_x, bigSep_singleton, payload_eq]

end Sched

/-- A chain of storable assertions over a list is storable. -/
theorem storable_bigSepL {I : Type} (l : List I) (Φ : I → sProp 𝕄) (h : ∀ i, BI.Storable (upEmb : UEmb _ 𝕄) (Φ i)) :
    BI.Storable (upEmb : UEmb _ 𝕄) (bigSepL l Φ) := by
  induction l with
  | nil => rw [bigSepL_nil]; exact BI.Storable.emp _
  | cons i l ih => rw [bigSepL_cons]; exact BI.Storable.sep _ _ _

instance payOf_storable (c : Dev nD) (k : CK) (d : Bool) : BI.Storable (upEmb : UEmb _ 𝕄) (payOf m ρ c k d) := by
  rcases k with _ | ⟨a, j⟩
  · cases d
    · show BI.Storable upEmb (barPayY c)
      unfold barPayY rPts; exact storable_bigSepL _ _ fun j => inferInstance
    · show BI.Storable upEmb (barPayX c)
      unfold barPayX oPts; exact storable_bigSepL _ _ fun j => inferInstance
  · show BI.Storable upEmb (if a = 0 then xPts m ρ c j fullShare.right else if a = 1 then rPts c j (landVal m ρ c)
      else if a = 2 then oPts c c j (outVal m ρ c) else oPts c (xp c) j (outVal m ρ c))
    unfold xPts rPts oPts
    (repeat' split) <;> infer_instance

instance Rd_payload_storable (g : GSem nD τ sig) (r : ℕ) (d : Bool) :
    BI.Storable (upEmb : UEmb _ 𝕄) ((Rd m ρ).payload g r d) := by
  show BI.Storable upEmb (if h : ∃ k : CK, csem k = g.2 then payOf m ρ g.1.1 (Classical.choose h) d else iprop(emp))
  split <;> infer_instance

/-- info: 'Cert.KernelIdealProof.kcell_injective' depends on axioms: [propext, Classical.choice, Quot.sound] -/
#guard_msgs in #print axioms kcell_injective

/-- info: 'Cert.KernelIdealProof.rest_bar' depends on axioms: [propext, Classical.choice, Quot.sound] -/
#guard_msgs in #print axioms rest_bar

/-- info: 'Cert.KernelIdealProof.rest_x' depends on axioms: [propext, Classical.choice, Quot.sound] -/
#guard_msgs in #print axioms rest_x

/-- info: 'Cert.KernelIdealProof.Rd_payload_storable' depends on axioms: [propext, Classical.choice, Quot.sound] -/
#guard_msgs in #print axioms Rd_payload_storable

end Cert.KernelIdealProof
end
-- ==== Proof.Levels.lean ====
/-
The deadlock argument: the levels of the cells, that every wait of a device sits below everything the device still owes,
and that the credit the launch deals a device is what its partners owe its cells.
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import proofs.«900139_g7700000000000140_dist_ar_v7x_xy2x2_y_m1024_n512_f32_1_alg».proof.Proof.Protocol
import Idealize.ShloMosaic.Lib.Pipeline.Launch
import Idealize.ShloMosaic.Lib.Pipeline.Kit
import Idealize.ShloMosaic.Lib.Ring
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

/-- What device c still owes after its two entry signals: the thirty-two arrivals. -/
abbrev owedAfterEntry (c : Dev nD) : CellTallies nD τ sig Unit :=
  oweL ((js.map fun j => (arr1Cell (yp c) j, N)) ++ (js.map fun j => (arr2Cell (xp c) j, N)))
/-- What device c still owes when it waits for chunk j of phase 1 to land: the phase-2 arrivals of chunks j, j + 1, …. -/
abbrev owedPhase2 (c : Dev nD) (l : List (Fin 16)) : CellTallies nD τ sig Unit :=
  oweL (l.map fun j => (arr2Cell (xp c) j, N))

/-! ## The cells' numbers and levels -/

/-- Semaphore j of array a is number 2 + 16 a + j of the device's pool (numbers 0 and 1 are the staging semaphores). -/
theorem semAt_val' (a : Fin 4) (j : Fin 16) : (semAt (semArr a) j).val = 2 + 16 * a.val + j.val := by
  revert a j; decide

/-- Distinct (array, chunk) pairs name distinct semaphores. -/
theorem csem_some_inj {a a' : Fin 4} {j j' : Fin 16} (h : csem (some (a, j)) = csem (some (a', j'))) : a = a' ∧ j = j' := by
  have h1 : semAt (semArr a) j = semAt (semArr a') j' := SemLoc.dma.inj h
  have h2 := congrArg Fin.val h1
  rw [semAt_val', semAt_val'] at h2
  have := a.isLt; have := a'.isLt; have := j.isLt; have := j'.isLt
  constructor <;> apply Fin.ext <;> omega

theorem lv_bar (t : Thread nD τ) (u : Unit) : lv (t, .reg barS) u = 1 := by
  dsimp only [lv]; rw [if_pos rfl]

theorem lv_arr1 (t : Thread nD τ) (j : Fin 16) (u : Unit) : lv (t, csem (some (1, j))) u = 2 := by
  dsimp only [lv]; rw [if_neg (csem_some_ne_bar _), if_pos ⟨j, rfl⟩]

theorem lv_arr2 (t : Thread nD τ) (j : Fin 16) (u : Unit) : lv (t, csem (some (3, j))) u = 3 := by
  dsimp only [lv]
  rw [if_neg (csem_some_ne_bar _), if_neg (fun ⟨j', h⟩ => absurd (csem_some_inj h).1 (by decide)), if_pos ⟨j, rfl⟩]

/-- The two staging semaphores, numbers 0 and 1, are at level 0. -/
theorem lv_low (t : Thread nD τ) (q : DmaSem sig) (hq : q.val < 2) (u : Unit) : lv (t, .dma q) u = 0 := by
  dsimp only [lv]
  rw [if_neg (fun h => by cases h),
    if_neg (fun ⟨j, h⟩ => by have h2 := congrArg Fin.val (SemLoc.dma.inj h); rw [semAt_val'] at h2; omega),
    if_neg (fun ⟨j, h⟩ => by have h2 := congrArg Fin.val (SemLoc.dma.inj h); rw [semAt_val'] at h2; omega)]

/-! ## Where a list of dues is positive -/

theorem oweL_cons (g : GSem nD τ sig) (n : ℕ) (l : List (GSem nD τ sig × ℕ)) : oweL ((g, n) :: l) = oweL l + tallyAt g () n := rfl

theorem oweL_pos {l : List (GSem nD τ sig × ℕ)} {g : GSem nD τ sig} {u : Unit} (h : 0 < oweL l g u) : ∃ p ∈ l, g = p.1 := by
  induction l with
  | nil => exact absurd h (Nat.lt_irrefl 0)
  | cons p l ih =>
    obtain ⟨g', n⟩ := p
    rw [oweL_cons, Pi.add_apply, Finsupp.add_apply, tallyAt_apply] at h
    by_cases hp : g = g' ∧ u = ()
    · exact ⟨(g', n), List.mem_cons_self .., hp.1⟩
    · rw [if_neg hp, Nat.add_zero] at h
      obtain ⟨q, hq, hg⟩ := ih h
      exact ⟨q, List.mem_cons_of_mem _ hq, hg⟩

theorem mem_map_cell {f : Fin 16 → GSem nD τ sig} {l : List (Fin 16)} {p : GSem nD τ sig × ℕ} (h : p ∈ l.map fun j => (f j, N)) :
    ∃ j, p.1 = f j := by
  obtain ⟨j, -, rfl⟩ := List.mem_map.mp h
  exact ⟨j, rfl⟩

theorem owedAfterEntry_pos {c : Dev nD} {g : GSem nD τ sig} {u : Unit} (h : 0 < owedAfterEntry c g u) :
    (∃ j, g = arr1Cell (yp c) j) ∨ ∃ j, g = arr2Cell (xp c) j := by
  obtain ⟨p, hp, rfl⟩ := oweL_pos h
  rcases List.mem_append.mp hp with hp | hp
  · exact Or.inl (mem_map_cell hp)
  · exact Or.inr (mem_map_cell hp)

theorem O₀_pos {c : Dev nD} {g : GSem nD τ sig} {u : Unit} (h : 0 < O₀ c g u) :
    g = barCell (yp c) ∨ g = barCell (xp c) ∨ (∃ j, g = arr1Cell (yp c) j) ∨ ∃ j, g = arr2Cell (xp c) j := by
  obtain ⟨p, hp, rfl⟩ := oweL_pos h
  rcases List.mem_append.mp hp with hp | hp
  · rcases List.mem_cons.mp hp with rfl | hp
    · exact Or.inl rfl
    rcases List.mem_cons.mp hp with rfl | hp
    · exact Or.inr (Or.inl rfl)
    · exact Or.inr (Or.inr (Or.inl (mem_map_cell hp)))
  · exact Or.inr (Or.inr (Or.inr (mem_map_cell hp)))

omit [FloatOps F] in
/-- A wait on a cell of level 0 (a staging or a departure semaphore) is below all a device ever owes. -/
theorem mayWait_low (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq hq) (fun g u hg => ?_)
    · rcases O₀_pos hg with rfl | rfl | ⟨j, rfl⟩ | ⟨j, rfl⟩ <;> (rw [L_tc]; exact Finset.mem_singleton_self _)
    · rcases O₀_pos hg with rfl | rfl | ⟨j, rfl⟩ | ⟨j, rfl⟩
      · rw [lv_bar]; decide
      · rw [lv_bar]; decide
      · rw [lv_arr1]; decide
      · rw [lv_arr2]; decide
  · rw [MayWait_zero]; iintro -; iempintro

omit [FloatOps F] in
/-- At its entry wait a device owes arrivals only: cells of levels 2 and 3, above its entry cell's level 1. -/
theorem mayWait_bar (c : Dev nD) :
    (levAts L lv : sProp 𝕄) ⊢ MayWait (c : Thread nD τ) (.reg barS) () (owedAfterEntry c) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact le_of_eq (lv_bar _ _)) (fun g u hg => ?_)
  · rcases owedAfterEntry_pos hg with ⟨j, rfl⟩ | ⟨j, rfl⟩ <;> (rw [L_tc]; exact Finset.mem_singleton_self _)
  · rcases owedAfterEntry_pos hg with ⟨j, rfl⟩ | ⟨j, rfl⟩
    · rw [lv_arr1]; decide
    · rw [lv_arr2]; decide

omit [FloatOps F] in
/-- At its wait for a phase-1 arrival (level 2) a device owes phase-2 arrivals only (level 3). -/
theorem mayWait_arr1 (c : Dev nD) (j : Fin 16) (l : List (Fin 16)) :
    (levAts L lv : sProp 𝕄) ⊢ MayWait (c : Thread nD τ) (csem (some (1, j))) () (owedPhase2 c l) := by
  have hpos {g : GSem nD τ sig} {u : Unit} (hg : 0 < owedPhase2 c l g u) : ∃ j', g = arr2Cell (xp c) j' := by
    obtain ⟨p, hp, rfl⟩ := oweL_pos hg
    exact mem_map_cell hp
  refine MayOwe.of_cut (L := L) (lev := lv) 2 (fun p hp => by rw [Finset.mem_singleton.mp hp, L_tc]; exact Finset.mem_singleton_self _)
    (fun g u hg => ?_) (fun p hp => by rw [Finset.mem_singleton.mp hp]; exact le_of_eq (lv_arr1 _ _ _)) (fun g u hg => ?_)
  · obtain ⟨j', rfl⟩ := hpos hg
    rw [L_tc]; exact Finset.mem_singleton_self _
  · obtain ⟨j', rfl⟩ := hpos hg
    rw [lv_arr2]; decide

/-- The staging semaphores' waits, at every point's debt. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (lv_low _ _ (by fin_cases w <;> fin_cases s <;> decide) _) _ (by
      rcases t with ⟨_ | _, ht⟩
      · exact Or.inl rfl
      · exact Or.inr rfl)

/-! ## The launch credit -/

/-- A chunk's credit on each of the cells f j, j in l, as one tally. -/
def chunkTallies (f : Fin 16 → GSem nD τ sig) : List (Fin 16) → CellTallies nD τ sig Unit
  | [] => 0
  | j :: l => tallyAt (f j) () N + chunkTallies f l

theorem chunkTallies_cons (f : Fin 16 → GSem nD τ sig) (j : Fin 16) (l : List (Fin 16)) :
    chunkTallies f (j :: l) = tallyAt (f j) () N + chunkTallies f l := rfl

/-- What the partners of device d owe d's cells between them. -/
abbrev ownCredit (d : Dev nD) : CellTallies nD τ sig Unit :=
  tallyAt (barCell d) () 2 + (chunkTallies (arr1Cell d) js + chunkTallies (arr2Cell d) js)

theorem oweL_map (f : Fin 16 → GSem nD τ sig) (l : List (Fin 16)) : oweL (l.map fun j => (f j, N)) = chunkTallies f l := by
  induction l with
  | nil => rfl
  | cons j l ih => rw [List.map_cons, oweL_cons, ih, chunkTallies_cons, add_comm]

theorem oweL_append (l₁ l₂ : List (GSem nD τ sig × ℕ)) : oweL (l₁ ++ l₂) = oweL l₂ + oweL l₁ := by
  induction l₁ with
  | nil => exact (add_zero _).symm
  | cons p l₁ ih =>
    obtain ⟨g, n⟩ := p
    rw [List.cons_append, oweL_cons, ih, oweL_cons, add_assoc]

/-- What device c owes, by cell: a unit on each partner's entry cell, a chunk's credit on each phase-1 arrival cell of its
    second-axis partner and on each phase-2 arrival cell of its first-axis partner. -/
theorem O₀_eq (c : Dev nD) :
    O₀ c = chunkTallies (arr2Cell (xp c)) js + ((chunkTallies (arr1Cell (yp c)) js + tallyAt (barCell (xp c)) () 1) + tallyAt (barCell (yp c)) () 1) := by
  unfold O₀ payList
  rw [oweL_append, oweL_cons, oweL_cons, oweL_map, oweL_map]

theorem add_rearrange {M : Type} [AddCommMonoid M] (a b c : M) : c + ((b + a) + a) = (a + a) + (b + c) := by
  rw [add_comm c, add_assoc b a a, add_comm b (a + a), add_assoc]

theorem sum_yp {M : Type} [AddCommMonoid M] (g : Dev nD → M) : ∑ d, g (yp d) = ∑ d, g d := Equiv.sum_comp ypEquiv g
theorem sum_xp {M : Type} [AddCommMonoid M] (g : Dev nD → M) : ∑ d, g (xp d) = ∑ d, g d := Equiv.sum_comp xpEquiv g

/-- Summed over the devices, what they owe is what their cells are owed: the partner maps are bijections of the mesh. -/
theorem sum_O₀ : ∑ d, O₀ d = ∑ d : Dev nD, ownCredit d := by
  have h1 : ∑ d : Dev nD, chunkTallies (arr2Cell (xp d)) js = ∑ d : Dev nD, chunkTallies (arr2Cell d) js := sum_xp fun d => chunkTallies (arr2Cell d) js
  have h2 : ∑ d : Dev nD, chunkTallies (arr1Cell (yp d)) js = ∑ d : Dev nD, chunkTallies (arr1Cell d) js := sum_yp fun d => chunkTallies (arr1Cell d) js
  have h3 : ∑ d : Dev nD, (tallyAt (barCell (xp d)) () 1 : CellTallies nD τ sig Unit) = ∑ d : Dev nD, tallyAt (barCell d) () 1 := sum_xp fun d => tallyAt (barCell d) () 1
  have h4 : ∑ d : Dev nD, (tallyAt (barCell (yp d)) () 1 : CellTallies nD τ sig Unit) = ∑ d : Dev nD, tallyAt (barCell d) () 1 := sum_yp fun d => tallyAt (barCell d) () 1
  have h5 (d : Dev nD) : (tallyAt (barCell d) () 2 : CellTallies nD τ sig Unit) = tallyAt (barCell d) () 1 + tallyAt (barCell d) () 1 := (tallyAt_add _ _ 1 1).symm
  rw [Finset.sum_congr rfl fun d _ => O₀_eq d, Finset.sum_add_distrib, Finset.sum_add_distrib, Finset.sum_add_distrib, h1, h2, h3, h4]
  unfold ownCredit
  rw [Finset.sum_add_distrib, Finset.sum_add_distrib, Finset.sum_congr rfl fun d _ => h5 d, Finset.sum_add_distrib]
  exact add_rearrange _ _ _

theorem chunkTallies_ne (f : Fin 16 → GSem nD τ sig) (l : List (Fin 16)) {g : GSem nD τ sig} (h : ∀ j, g ≠ f j) : chunkTallies f l g = 0 := by
  induction l with
  | nil => rfl
  | cons j l ih => rw [chunkTallies_cons, Pi.add_apply, tallyAt_ne_cell (h j), ih, add_zero]

/-- A device's credit sits on its own cells only. -/
theorem ownCredit_own (d : Dev nD) (g : GSem nD τ sig) (h : ownCredit d g ≠ 0) : g.1 = (d.tc : Thread nD τ) := by
  by_contra hne
  have hk (k : CK) : g ≠ kcell (d, k) := fun e => hne (congrArg Prod.fst e)
  refine h ?_
  unfold ownCredit
  rw [Pi.add_apply, Pi.add_apply, tallyAt_ne_cell (hk none), chunkTallies_ne _ _ (fun j => hk (some (1, j))),
    chunkTallies_ne _ _ (fun j => hk (some (3, j))), add_zero, add_zero]

omit [FloatOps F] in
theorem cred_chunkTallies (f : Fin 16 → GSem nD τ sig) (l : List (Fin 16)) :
    (cred (chunkTallies f l) : sProp 𝕄) ⊢ bigSepL l fun j => cred (tallyAt (f j) () N) := by
  induction l with
  | nil => exact Entails.of_eq cred_zero
  | cons j l ih =>
    rw [bigSepL_cons, chunkTallies_cons]
    exact (cred_add _ _).1.trans (sep_mono_right ih)

omit [FloatOps F] in
/-- The launch credit of device c: two units on its entry cell (one from each partner), a chunk's credit on each of its
    arrival cells (phase 1 from its second-axis partner, phase 2 from its first-axis partner). -/
theorem creds (c : Dev nD) : (Pipeline.launchCred O₀ c : sProp 𝕄) ⊢ launchCreds c := by
  rw [Pipeline.launchCred_of_sum O₀ ownCredit sum_O₀ ownCredit_own c]
  unfold launchCreds
  exact (cred_add _ _).1.trans (sep_mono_right ((cred_add _ _).1.trans (BI.sep_mono (cred_chunkTallies _ _) (cred_chunkTallies _ _))))

/-- info: 'Cert.KernelIdealProof.mayWait_low' depends on axioms: [propext, Classical.choice, Quot.sound] -/
#guard_msgs in #print axioms mayWait_low

/-- info: 'Cert.KernelIdealProof.mayWait_bar' depends on axioms: [propext, Classical.choice, Quot.sound] -/
#guard_msgs in #print axioms mayWait_bar

/-- info: 'Cert.KernelIdealProof.mayWait_arr1' depends on axioms: [propext, Classical.choice, Quot.sound] -/
#guard_msgs in #print axioms mayWait_arr1

/-- info: 'Cert.KernelIdealProof.waits' depends on axioms: [propext, Classical.choice, Quot.sound] -/
#guard_msgs in #print axioms waits

/-- info: 'Cert.KernelIdealProof.creds' depends on axioms: [propext, Classical.choice, Quot.sound] -/
#guard_msgs in #print axioms creds

end Cert.KernelIdealProof
end
-- ==== Proof.Regions.lean ====
/-
A buffer held whole is held chunk by chunk, and back: the landing buffer as its sixteen chunks; the two 1024-row staging
buffers as the sixteen chunks of the device's own half and the sixteen of its other half (which are the own-half chunks of
its first-axis partner).
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import proofs.«900139_g7700000000000140_dist_ar_v7x_xy2x2_y_m1024_n512_f32_1_alg».proof.Proof.Protocol
import Idealize.ShloMosaic.Lib.Pipeline.Launch
import Idealize.ShloMosaic.Lib.Pipeline.Kit
import Idealize.ShloMosaic.Lib.Ring
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists -/

section Lists
variable {M : Type _} [URA M] {I J : Type _}

theorem bigSepL_map (g : I → J) (l : List I) (Φ : J → sProp M) : bigSepL (l.map g) Φ = bigSepL l fun i => Φ (g i) := by
  induction l with
  | nil => rfl
  | cons i l ih => rw [List.map_cons, bigSepL_cons, bigSepL_cons, ih]

theorem bigSepL_congr (l : List I) {Φ Ψ : I → sProp M} (h : ∀ i, Φ i = Ψ i) : bigSepL l Φ = bigSepL l Ψ := by
  rw [show Φ = Ψ from funext h]

theorem bigSepL_mono (l : List I) {Φ Ψ : I → sProp M} (h : ∀ i, Φ i ⊢ Ψ i) : bigSepL l Φ ⊢ bigSepL l Ψ := by
  induction l with
  | nil => exact .refl
  | cons i l ih => rw [bigSepL_cons, bigSepL_cons]; exact BIClass.sep_mono (h i) ih

end Lists

/-! ## The landing buffer: sixteen chunks of 32 rows -/

theorem rRect_disjoint (j j' : Fin 16) (h : j ≠ j') : Disjoint (rRect j).set (rRect j').set :=
  Ring.lead_disjoint (s := S512x512) (NB := 16) (0 : Fin 2) 32 (fun j => ![32 * j.val, 0]) S32x512.size inbSm (fun _ => rfl) rfl j j' h

theorem rRect_cover : Finset.univ.biUnion (fun j : Fin 16 => (rRect j).set) = Finset.univ :=
  Ring.lead_cover (s := S512x512) (NB := 16) (0 : Fin 2) 32 (fun j => ![32 * j.val, 0]) S32x512.size inbSm (fun _ => rfl)
    (fun b a ha => match a, ha with | 0, ha => absurd rfl ha | 1, _ => rfl) rfl
    (fun a ha => match a, ha with | 0, ha => absurd rfl ha | 1, _ => rfl) (by decide)

theorem rSl_set (j : Fin 16) : (rSl j).view.set = (rRect j).set := View.set_slice_whole cc0_scratch0 (rRect j)

omit [FloatOps F] in
/-- The landing buffer on device d, whole at f, is its sixteen chunks at f. -/
theorem scr_chunks (d : Dev nD) (f : Buf (Elt F) ((d : Thread nD τ).loc cc0_scratch0)) :
    ((((d : Thread nD τ).loc cc0_scratch0) ↦{fullShare} f : sProp 𝕄)) = bigSepL js fun j => rPts d j f := by
  rw [Ring.pointsTo_blocks (fun j : Fin 16 => (rRect j).set) rRect_disjoint rRect_cover f,
    bigSep_univ_eq_bigSepL js (by decide) (by decide)]
  refine bigSepL_congr js fun j => ?_
  unfold rPts; rw [rSl_set]

omit [FloatOps F] in
/-- Whole at some contents: chunk by chunk at some contents. -/
theorem scr_chunks_ex (d : Dev nD) :
    (iprop(∃ f, ((d : Thread nD τ).loc cc0_scratch0) ↦{fullShare} f) : sProp 𝕄) ⊢ bigSepL js fun j => iprop(∃ f, rPts (F := F) d j f) := by
  refine BIClass.exists_elim fun f => ?_
  rw [scr_chunks d f]
  exact bigSepL_mono js fun j => BIClass.exists_intro (Φ := fun f => rPts d j f) f

/-! ## The 1024-row buffers: the sixteen chunks of a half -/

/-- Membership in chunk j of device e's own half is a condition on the row alone. -/
theorem mem_own (e : Dev nD) (j : Fin 16) (i : S1024x512.Idx) :
    i ∈ (ownRect e j).set ↔ 512 * (e.val / 2) + 32 * j.val ≤ (i 0).val ∧ (i 0).val < 512 * (e.val / 2) + 32 * j.val + 32 := by
  rw [Rect.mem_set_unit, k0_off1_eq]
  constructor
  · intro h; exact h 0
  · intro h
    have h1 : (i 1).val < 512 := (i 1).isLt
    exact Fin.forall_fin_two.mpr ⟨h, Nat.zero_le _, by show (i 1).val < 0 + 512; omega⟩

/-- Chunks of different halves, or different chunks of one half, share no element. -/
theorem own_disjoint (e e' : Dev nD) (j j' : Fin 16) (h : e.val / 2 ≠ e'.val / 2 ∨ j ≠ j') :
    Disjoint (ownRect e j).set (ownRect e' j').set := by
  rw [Finset.disjoint_left]
  intro i hi hi'
  rw [mem_own] at hi hi'
  have he : e.val < 4 := e.isLt
  have he' : e'.val < 4 := e'.isLt
  have hj : j.val < 16 := j.isLt
  have hj' : j'.val < 16 := j'.isLt
  rcases h with h | h
  · omega
  · exact h (Fin.ext (by omega))

/-- The elements of device e's own half. -/
abbrev halfSet (e : Dev nD) : Finset S1024x512.Idx := Finset.univ.biUnion fun j : Fin 16 => (ownRect e j).set

theorem half_disjoint (c : Dev nD) : Disjoint (halfSet c) (halfSet (xp c)) := by
  rw [Finset.disjoint_biUnion_left]; intro j _
  rw [Finset.disjoint_biUnion_right]; intro j' _
  exact own_disjoint c (xp c) j j' (Or.inl (by have := xp_div c; have := c.isLt; omega))

/-- A device's own half and its first-axis partner's own half make up the buffer. -/
theorem half_cover (c : Dev nD) : halfSet c ∪ halfSet (xp c) = Finset.univ := by
  ext i
  simp only [Finset.mem_union, Finset.mem_biUnion, Finset.mem_univ, true_and, iff_true, mem_own]
  have hr : (i 0).val < 1024 := (i 0).isLt
  have hc : c.val < 4 := c.isLt
  have hx := xp_div c
  by_cases h : (i 0).val / 512 = c.val / 2
  · left; refine ⟨⟨((i 0).val % 512) / 32, by omega⟩, ?_⟩; dsimp only; omega
  · right; refine ⟨⟨((i 0).val % 512) / 32, by omega⟩, ?_⟩; dsimp only; omega

theorem xSl_set (c : Dev nD) (j : Fin 16) : (xSl c j).view.set = (ownRect c j).set := View.set_slice_whole cc0_stg0_0 (ownRect c j)
theorem oSl_set (c : Dev nD) (j : Fin 16) : (oSl c j).view.set = (ownRect c j).set := View.set_slice_whole cc0_stg1_0 (ownRect c j)

/-- Device c's input staging buffer at its block and share q: the own-half chunks, and the rest of the buffer. -/
theorem x_chunks (c : Dev nD) (q : PosShare TreeShare) :
    ∃ Rest : sProp 𝕄, ((((c : Thread nD τ).loc cc0_stg0_0) ↦{q} X m ρ c : sProp 𝕄)) = iprop((bigSepL js fun j => xPts m ρ c j q) ∗ Rest) := by
  refine ⟨(((c : Thread nD τ).loc cc0_stg0_0) ↦[Finset.univ \ halfSet c]{q} X m ρ c), ?_⟩
  have hs := pointsTo_split_subset (Ix := Unit) (Name := ℕ) (U := UU) (Lvl := ℕ) (ℓ := (c : Thread nD τ).loc cc0_stg0_0) (q := q) (f := X m ρ c) (Finset.subset_univ (halfSet c))
  rw [BI.equiv_iff.mp ⟨hs.1, hs.2⟩, pointsTo_biUnion (ℓ := (c : Thread nD τ).loc cc0_stg0_0) Finset.univ (fun j : Fin 16 => (ownRect c j).set) (fun j _ j' _ h => own_disjoint c c j j' (Or.inr h)),
    bigSep_univ_eq_bigSepL js (by decide) (by decide)]
  refine congrArg (fun P => iprop(P ∗ _)) (bigSepL_congr js fun j => ?_)
  unfold xPts; rw [xSl_set]

omit [FloatOps F] in
/-- Device c's result staging buffer whole at f: its own-half chunks and its other-half chunks, the latter at the places of its
    first-axis partner's own-half chunks. -/
theorem o_chunks (c : Dev nD) (f : Buf (Elt F) ((c : Thread nD τ).loc cc0_stg1_0)) :
    ((((c : Thread nD τ).loc cc0_stg1_0) ↦{fullShare} f : sProp 𝕄)) = iprop((bigSepL js fun j => oPts c c j f) ∗ bigSepL js fun j => oPts c (xp c) j f) := by
  have hu := pointsTo_union (Ix := Unit) (Name := ℕ) (U := UU) (Lvl := ℕ) (ℓ := (c : Thread nD τ).loc cc0_stg1_0) (q := fullShare) (f := f) (half_disjoint c)
  have h1 := BI.equiv_iff.mp ⟨hu.1, hu.2⟩
  rw [half_cover c] at h1
  rw [h1, pointsTo_biUnion (ℓ := (c : Thread nD τ).loc cc0_stg1_0) Finset.univ (fun j : Fin 16 => (ownRect c j).set) (fun j _ j' _ h => own_disjoint c c j j' (Or.inr h)),
    pointsTo_biUnion (ℓ := (c : Thread nD τ).loc cc0_stg1_0) Finset.univ (fun j : Fin 16 => (ownRect (xp c) j).set) (fun j _ j' _ h => own_disjoint (xp c) (xp c) j j' (Or.inr h)),
    bigSep_univ_eq_bigSepL js (by decide) (by decide), bigSep_univ_eq_bigSepL js (by decide) (by decide)]
  refine congrArg₂ (fun P Q => iprop(P ∗ Q)) (bigSepL_congr js fun j => ?_) (bigSepL_congr js fun j => ?_)
  · unfold oPts; rw [oSl_set]
  · unfold oPts; rw [oSl_set]

omit [FloatOps F] in
/-- The same with each chunk at contents of its own: they join to the buffer whole at some contents. -/
theorem o_chunks_ex (c : Dev nD) :
    (iprop(∃ f, ((c : Thread nD τ).loc cc0_stg1_0) ↦{fullShare} f) : sProp 𝕄)
      ⊢ iprop((bigSepL js fun j => iprop(∃ f, oPts (F := F) c c j f)) ∗ bigSepL js fun j => iprop(∃ f, oPts (F := F) c (xp c) j f)) := by
  refine BIClass.exists_elim fun f => ?_
  rw [o_chunks c f]
  exact BIClass.sep_mono (bigSepL_mono js fun j => BIClass.exists_intro (Φ := fun f => oPts c c j f) f)
    (bigSepL_mono js fun j => BIClass.exists_intro (Φ := fun f => oPts c (xp c) j f) f)

/-- info: 'Cert.KernelIdealProof.scr_chunks_ex' depends on axioms: [propext, Classical.choice, Quot.sound] -/
#guard_msgs in #print axioms scr_chunks_ex

/-- info: 'Cert.KernelIdealProof.x_chunks' depends on axioms: [propext, Classical.choice, Quot.sound] -/
#guard_msgs in #print axioms x_chunks

/-- info: 'Cert.KernelIdealProof.o_chunks_ex' depends on axioms: [propext, Classical.choice, Quot.sound] -/
#guard_msgs in #print axioms o_chunks_ex

end Cert.KernelIdealProof
end
-- ==== Proof.Values.lean ====
/-
What a landing or a store leaves in a chunk, as the closed contents of the protocol: a chunk of the own half of a block
landed in the partner's landing buffer is that buffer's final contents there; the sum stored in a chunk of the result is
the result's final contents there; and a chunk of the result landed in the first-axis partner's result is that partner's
final contents there.
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import proofs.«900139_g7700000000000140_dist_ar_v7x_xy2x2_y_m1024_n512_f32_1_alg».proof.Proof.Protocol
import Idealize.ShloMosaic.Lib.Pipeline.Launch
import Idealize.ShloMosaic.Lib.Pipeline.Kit
import Idealize.ShloMosaic.Lib.Ring
import Idealize.ShloMosaic.Lib.Tactic
import Idealize.ShloMosaic.Lib.Pipeline.Value
import Idealize.ShloMosaic.Lib.ValueIdx

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rectangles of the same sizes at equal offsets: the same embedding, read and write -/

section UnitCongr
variable {κ : Kind} {sp : Space} {s : Shape} {e : EltTy} {Val : EltTy → Type}

theorem emb_unit_congr (v : View sig κ sp s e) {off off' size : Fin s.rank → Nat} (h : off = off')
    (p : ∀ a, off a + size a ≤ s.size a) (p' : ∀ a, off' a + size a ≤ s.size a) (y : (⟨s.rank, size⟩ : Shape).Idx) :
    (v.slice (Rect.unit off size p)).emb y = (v.slice (Rect.unit off' size p')).emb y := by
  subst h; rfl

theorem write_unit_congr (v : View sig κ sp s e) {off off' size : Fin s.rank → Nat} (h : off = off')
    (p : ∀ a, off a + size a ≤ s.size a) (p' : ∀ a, off' a + size a ≤ s.size a) (f : v.ty.Contents Val)
    (w : (⟨s.rank, size⟩ : Shape).Idx → Val e) (M : Finset (⟨s.rank, size⟩ : Shape).Idx) :
    (v.slice (Rect.unit off size p)).write Val f w M = (v.slice (Rect.unit off' size p')).write Val f w M := by
  subst h; rfl

theorem read_unit_congr (v : View sig κ sp s e) {off off' size : Fin s.rank → Nat} (h : off = off')
    (p : ∀ a, off a + size a ≤ s.size a) (p' : ∀ a, off' a + size a ≤ s.size a) (f : v.ty.Contents Val) :
    (v.slice (Rect.unit off size p)).read Val f = (v.slice (Rect.unit off' size p')).read Val f := by
  subst h; rfl

end UnitCongr

omit [FloatOps F] in
theorem off2_eq_off1 (c : Dev nD) (j : Fin 16) :
    k0_off2 c (BitVec.ofNat 32 (32 * j.val)) = k0_off1 c (BitVec.ofNat 32 (32 * j.val)) :=
  (k0_off2_eq c j).trans (k0_off1_eq c j).symm

/-! ## Where a chunk's elements sit -/

omit [FloatOps F] in
/-- Element y of own chunk j of device c sits at row 512 (c / 2) + 32 j + y₀, column y₁. -/
theorem ownRect_emb (c : Dev nD) (j : Fin 16) (y : S32x512.Idx) :
    ((ownRect c j).emb y 0).val = 512 * (c.val / 2) + 32 * j.val + (y 0).val ∧ ((ownRect c j).emb y 1).val = (y 1).val := by
  refine ⟨?_, ?_⟩
  · rw [Rect.emb_apply]
    show k0_off1 c (BitVec.ofNat 32 (32 * j.val)) 0 + 1 * (y 0).val = _
    rw [k0_off1_eq]; simp
  · rw [Rect.emb_apply]
    show k0_off1 c (BitVec.ofNat 32 (32 * j.val)) 1 + 1 * (y 1).val = _
    rw [k0_off1_eq]; simp

omit [FloatOps F] in
/-- Element y of chunk j of the landing buffer sits at row 32 j + y₀, column y₁. -/
theorem rRect_emb (j : Fin 16) (y : S32x512.Idx) :
    ((rRect j).emb y 0).val = 32 * j.val + (y 0).val ∧ ((rRect j).emb y 1).val = (y 1).val := by
  refine ⟨?_, ?_⟩
  · rw [Rect.emb_apply]
    show (![32 * j.val, 0] : Fin 2 → Nat) 0 + 1 * (y 0).val = _
    simp
  · rw [Rect.emb_apply]
    show (![32 * j.val, 0] : Fin 2 → Nat) 1 + 1 * (y 1).val = _
    simp

/-- The rectangle of own chunk j as the loads and the store of phase 2 compute it. -/
abbrev ownRect2 (c : Dev nD) (j : Fin 16) : Rect S1024x512 :=
  Rect.unit (s := S1024x512) (k0_off2 c (BitVec.ofNat 32 (32 * j.val))) S32x512.size (k0_off2_inb c j)

omit [FloatOps F] in
theorem ownRect2_eq (c : Dev nD) (j : Fin 16) : ownRect2 c j = ownRect c j :=
  Rect.unit_congr (off2_eq_off1 c j) _ _

/-! ## The loads and the store of phase 2 stay inside their chunk -/

omit [FloatOps F] in
theorem load_r_sub (j : Fin 16) : (rM : Memref sig .tc .vmem S512x512 .f32).view.setOn (rRect j).toLoadRect.set ⊆ (rSl j).view.set := by
  show (rM : Memref sig .tc .vmem S512x512 .f32).view.setOn (rRect j).set ⊆ ((rM : Memref sig .tc .vmem S512x512 .f32).view.slice (rRect j)).set
  rw [View.set_slice]; exact subset_rfl
omit [FloatOps F] in
theorem load_o_sub (c : Dev nD) (j : Fin 16) : (oM : Memref sig .tc .vmem S1024x512 .f32).view.setOn (ownRect2 c j).toLoadRect.set ⊆ (oSl c j).view.set := by
  rw [ownRect2_eq]
  show (oM : Memref sig .tc .vmem S1024x512 .f32).view.setOn (ownRect c j).set ⊆ ((oM : Memref sig .tc .vmem S1024x512 .f32).view.slice (ownRect c j)).set
  rw [View.set_slice]; exact subset_rfl
omit [FloatOps F] in
theorem store_o_sub (c : Dev nD) (j : Fin 16) : ((oM : Memref sig .tc .vmem S1024x512 .f32).access (ownRect2 c j)).setOn Finset.univ ⊆ (oSl c j).view.set := by
  rw [ownRect2_eq]; exact subset_rfl

/-! ## Contents -/

/-- Phase 1: own chunk j of device c's block, landed in chunk j of its second-axis partner's landing buffer, is that
    buffer's final contents there. -/
theorem land1_val (c : Dev nD) (j : Fin 16) (fd : Buf (Elt F) ((rSl j).view.loc ((yp c : Dev nD) : Thread nD τ))) :
    (((rSl j).view.loc ((yp c : Dev nD) : Thread nD τ) ↦[(rSl j).view.set]{fullShare}
        ((rSl j).view.write (Elt F) fd ((xSl c j).view.read (Elt F) (X m ρ c)) Finset.univ)) : sProp 𝕄)
      = rPts (yp c) j (landVal m ρ (yp c)) := by
  unfold rPts
  refine pointsTo_congr (fun i hi => ?_)
  obtain ⟨y, rfl⟩ := View.exists_emb_of_mem_set (rSl j).view hi
  rw [View.write_emb_of_mem _ _ (Finset.mem_univ y), View.read_apply]
  unfold landVal
  rw [yp_yp]
  simp only [cast_cast, cast_eq]
  refine congrArg (X m ρ c) (funext fun a => Fin.ext ?_)
  have ho := ownRect_emb c j y
  have hr := rRect_emb j y
  have hd := yp_div c
  match a with
  | ⟨0, _⟩ =>
    show ((ownRect c j).emb y 0).val = 512 * ((yp c).val / 2) + ((rRect j).emb y 0).val
    omega
  | ⟨1, _⟩ =>
    show ((ownRect c j).emb y 1).val = ((rRect j).emb y 1).val
    omega

/-- The sum the store of phase 2 writes, at element y of the chunk: the block's entry there plus the landing buffer's. -/
theorem sum_apply (c : Dev nD) (j : Fin 16) (y : S32x512.Idx) :
    (addf (shapeCast S32x512 ((xM : Memref sig .tc .vmem S1024x512 .f32).view.readAt (Elt F) (ownRect2 c j).toLoadRect (X m ρ c)) shapeCasts_S32x512_S32x512)
        ((rM : Memref sig .tc .vmem S512x512 .f32).view.readAt (Elt F) (rRect j).toLoadRect (landVal m ρ c))) y
      = FloatOps.addf (X m ρ c ((ownRect c j).emb y)) (landVal m ρ c ((rRect j).emb y)) := by
  have h1 : shapeCast S32x512 ((xM : Memref sig .tc .vmem S1024x512 .f32).view.readAt (Elt F) (ownRect2 c j).toLoadRect (X m ρ c)) shapeCasts_S32x512_S32x512
      = (xM : Memref sig .tc .vmem S1024x512 .f32).view.readAt (Elt F) (ownRect2 c j).toLoadRect (X m ρ c) := shapeCast_self _ _
  have h2 : (xM : Memref sig .tc .vmem S1024x512 .f32).view.readAt (Elt F) (ownRect2 c j).toLoadRect (X m ρ c)
      = (xSl c j).view.read (Elt F) (X m ρ c) :=
    read_unit_congr (xM : Memref sig .tc .vmem S1024x512 .f32).view (off2_eq_off1 c j) (k0_off2_inb c j) (k0_off1_inb c j) (X m ρ c)
  unfold addf
  rw [h1, h2, View.readAt_rect]
  simp only [View.read_apply, cast_eq]
  rfl

/-- Phase 2: the sum of own chunk j of the block and chunk j of the landing buffer, stored over own chunk j of the result,
    is the result's final contents there. -/
theorem store_val (c : Dev nD) (j : Fin 16) (f : Buf (Elt F) (((oM : Memref sig .tc .vmem S1024x512 .f32).access (ownRect2 c j)).loc (c : Thread nD τ))) :
    ((((oM : Memref sig .tc .vmem S1024x512 .f32).access (ownRect2 c j)).loc (c : Thread nD τ) ↦[(oSl c j).view.set]{fullShare}
        ((oM : Memref sig .tc .vmem S1024x512 .f32).access (ownRect2 c j)).write (Elt F) f
          (addf (shapeCast S32x512 ((xM : Memref sig .tc .vmem S1024x512 .f32).view.readAt (Elt F) (ownRect2 c j).toLoadRect (X m ρ c)) shapeCasts_S32x512_S32x512)
            ((rM : Memref sig .tc .vmem S512x512 .f32).view.readAt (Elt F) (rRect j).toLoadRect (landVal m ρ c))) Finset.univ) : sProp 𝕄)
      = oPts c c j (outVal m ρ c) := by
  unfold oPts
  refine pointsTo_congr (fun i hi => ?_)
  obtain ⟨y, rfl⟩ := View.exists_emb_of_mem_set (oSl c j).view hi
  rw [write_unit_congr (oM : Memref sig .tc .vmem S1024x512 .f32).view (off2_eq_off1 c j) (k0_off2_inb c j) (k0_off1_inb c j),
    View.write_emb_of_mem _ _ (Finset.mem_univ y), sum_apply]
  simp only [cast_eq]
  have ho := ownRect_emb c j y
  have hr := rRect_emb j y
  have hy0 := ValueIdx.idx2_lt0 y
  have hj := j.isLt
  have hrow : ownRow c (((oSl c j).view.emb y) 0).val := by
    show ((ownRect c j).emb y 0).val / 512 = c.val / 2
    omega
  unfold outVal
  rw [if_pos hrow]
  unfold pairSum
  refine congrArg (FloatOps.addf _) ?_
  unfold landVal
  refine congrArg (X m ρ (yp c)) (funext fun a => Fin.ext ?_)
  match a with
  | ⟨0, _⟩ =>
    show 512 * (c.val / 2) + ((rRect j).emb y 0).val = ((ownRect c j).emb y 0).val
    omega
  | ⟨1, _⟩ =>
    show ((rRect j).emb y 1).val = ((ownRect c j).emb y 1).val
    omega

/-- Phase 2: own chunk j of device c's result, landed at the same rows of its first-axis partner's result, is that
    partner's final contents there. -/
theorem land2_val (c : Dev nD) (j : Fin 16) (fd : Buf (Elt F) ((oSl c j).view.loc ((xp c : Dev nD) : Thread nD τ))) :
    (((oSl c j).view.loc ((xp c : Dev nD) : Thread nD τ) ↦[(oSl c j).view.set]{fullShare}
        ((oSl c j).view.write (Elt F) fd ((oSl c j).view.read (Elt F) (outVal m ρ c)) Finset.univ)) : sProp 𝕄)
      = oPts (xp c) c j (outVal m ρ (xp c)) := by
  unfold oPts
  refine pointsTo_congr (fun i hi => ?_)
  obtain ⟨y, rfl⟩ := View.exists_emb_of_mem_set (oSl c j).view hi
  rw [View.write_emb_of_mem _ _ (Finset.mem_univ y), View.read_apply]
  simp only [cast_cast, cast_eq]
  have ho := ownRect_emb c j y
  have hy0 := ValueIdx.idx2_lt0 y
  have hj := j.isLt
  have hc : c.val < 4 := c.isLt
  have hrow : ownRow c (((oSl c j).view.emb y) 0).val := by
    show ((ownRect c j).emb y 0).val / 512 = c.val / 2
    omega
  have hrow' : ¬ ownRow (xp c) (((oSl c j).view.emb y) 0).val := by
    show ¬ (((ownRect c j).emb y 0).val / 512 = (xp c).val / 2)
    rw [xp_div]; omega
  unfold outVal
  rw [if_pos hrow, if_neg hrow', xp_xp]

/-- info: 'Cert.KernelIdealProof.land1_val' depends on axioms: [propext, Classical.choice, Quot.sound] -/
#guard_msgs in #print axioms land1_val

/-- info: 'Cert.KernelIdealProof.store_val' depends on axioms: [propext, Classical.choice, Quot.sound] -/
#guard_msgs in #print axioms store_val

/-- info: 'Cert.KernelIdealProof.land2_val' depends on axioms: [propext, Classical.choice, Quot.sound] -/
#guard_msgs in #print axioms land2_val

end Cert.KernelIdealProof
end
-- ==== Proof.Steps.lean ====
/-
One device's body, phase by phase, at a symbolic device c and a symbolic chunk j: the transfer of phase 1; the wait, the two
loads, the store and the transfer of phase 2; the three waits of phase 3 and the closing of the chunk's four cells.
Each rule takes from the device's assertions exactly what the chunk's step consumes and hands back what it leaves.
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import proofs.«900139_g7700000000000140_dist_ar_v7x_xy2x2_y_m1024_n512_f32_1_alg».proof.Proof.Protocol
import proofs.«900139_g7700000000000140_dist_ar_v7x_xy2x2_y_m1024_n512_f32_1_alg».proof.Proof.Tables
import proofs.«900139_g7700000000000140_dist_ar_v7x_xy2x2_y_m1024_n512_f32_1_alg».proof.Proof.Levels
import proofs.«900139_g7700000000000140_dist_ar_v7x_xy2x2_y_m1024_n512_f32_1_alg».proof.Proof.Values
import Idealize.ShloMosaic.Lib.Pipeline.Launch
import Idealize.ShloMosaic.Lib.Pipeline.Kit
import Idealize.ShloMosaic.Lib.Ring
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "WP" => wp frame (wpE (defs₀ (F := F)) 𝒱₀ (_ : Thread nD τ) none) Set.univ

/-! ## Reading the records -/

theorem inv_at0 (K : Dev nD × CK → ℕ) (ck : Dev nD × CK) :
    (bigSep Finset.univ fun ck : Dev nD × CK => (cellInv ER (Rd m ρ) (K ck) (kcell ck) : sProp 𝕄)) ⊢ cellInv ER (Rd m ρ) (K ck) (kcell ck) :=
  bigSep_elim (Finset.mem_univ ck)
omit [FloatOps F] in
theorem reached_at0 (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m ρ K ⊢ cellInv ER (Rd m ρ) (K ck) (kcell ck) := by
  unfold records
  iintro ⟨HI, -⟩
  iapply (inv_at0 m ρ K ck); iexact HI
theorem reached_at (K : Dev nD × CK → ℕ) (ck : Dev nD × CK) : records m ρ K ⊢ reached ER (kcell ck) 0 := by
  unfold records
  iintro ⟨-, HR⟩
  iapply (reached_at0 (F := F) ck); iexact HR

/-! ## The payloads of the four kinds of transfer cell -/

theorem payOf_dep1 (c : Dev nD) (j : Fin 16) (d : Bool) : payOf m ρ c (some (0, j)) d = xPts m ρ c j fullShare.right := by
  simp [payOf]
theorem payOf_arr1 (c : Dev nD) (j : Fin 16) (d : Bool) : payOf m ρ c (some (1, j)) d = rPts c j (landVal m ρ c) := by
  simp [payOf]
theorem payOf_dep2 (c : Dev nD) (j : Fin 16) (d : Bool) : payOf m ρ c (some (2, j)) d = oPts c c j (outVal m ρ c) := by
  simp [payOf]
theorem payOf_arr2 (c : Dev nD) (j : Fin 16) (d : Bool) : payOf m ρ c (some (3, j)) d = oPts c (xp c) j (outVal m ρ c) := by
  simp [payOf]

/-! ## Every chunk's transfer credits the same units -/

omit [FloatOps F] in
theorem amt_r (j : Fin 16) (sm : DmaSem sig) : (rSl j).view.amount (.dma sm) = N := rfl
omit [FloatOps F] in
theorem amt_o (c : Dev nD) (j : Fin 16) (sm : DmaSem sig) : (oSl c j).view.amount (.dma sm) = N := rfl

/-! ## The library's rules at this protocol's cells and payloads -/

set_option maxHeartbeats 1000000 in
/-- The library's rule for an addressed transfer, at phase 1's cells and payloads. -/
theorem wp_B0 (K : Dev nD × CK → ℕ) (c : Dev nD) (j : Fin 16) (O : CellTallies nD τ sig Unit) (W : Waits sig Unit) (n : Dev nD) (hn : n = yp c)
    {α : Type} {Q : α → sProp 𝕄} {k : PUnit → Prog (TpuEff nD τ sig (Elt F) Λ₀ .tc) α}
    {hsc : (rSl j : Memref sig (Dev.tc n : Thread nD τ).2.kind .vmem S32x512 .f32).view.ref.isScScratch = false}
    {hsrc : (xSl c j).view.WordExact} {hdst : (rSl j).view.WordExact}
    {hsem : DmaTarget.Typed .vmem (.dma (semAt cc0_scratch2 j)) (.remote (Dev.tc n : Thread nD τ) (rSl j) (.dma (semAt cc0_scratch1 j)) hsc)}
    (fd : Buf (Elt F) ((rSl j).view.loc ((yp c : Dev nD) : Thread nD τ))) :
    iprop(cellInv ER (Rd m ρ) (K (c, some (0, j))) (dep1Cell c j) ∗ cellInv ER (Rd m ρ) (K (yp c, some (1, j))) (arr1Cell (yp c) j)
        ∗ xPts m ρ c j fullShare.right ∗ rPts (yp c) j fd
        ∗ owes (c : Thread nD τ) (O + tallyAt (arr1Cell (yp c) j) () N) W
        ∗ dutyTok ER (dep1Cell c j) 0 false ∗ reached ER (dep1Cell c j) 0
        ∗ dutyTok ER (arr1Cell (yp c) j) 0 false ∗ reached ER (arr1Cell (yp c) j) 0)
      ⊢ iprop(((cred (tallyAt (dep1Cell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (xSl c j) (.remote (Dev.tc n : Thread nD τ) (rSl j) (.dma (semAt cc0_scratch1 j)) hsc) (.dma (semAt cc0_scratch2 j)) hsrc hdst hsem) k) Q) := by
  subst hn
  have hd1 : false ∈ (Rd m ρ).duties (dep1Cell c j) 0 := by rw [duties_x]; exact Finset.mem_singleton_self _
  have hd2 : false ∈ (Rd m ρ).duties (arr1Cell (yp c) j) 0 := by rw [duties_x]; exact Finset.mem_singleton_self _
  have hp1 : (xPts m ρ c j fullShare.right) ⊢ (Rd m ρ).payload (dep1Cell c j) 0 false :=
    Entails.of_eq (((payload_eq m ρ c (some (0, j)) 0 false).trans (payOf_dep1 m ρ c j false)).symm)
  have hp2 : (((rSl j).view.loc ((yp c : Dev nD) : Thread nD τ) ↦[(rSl j).view.set]{fullShare}
        ((rSl j).view.write (Elt F) fd ((xSl c j).view.read (Elt F) (X m ρ c)) Finset.univ)) : sProp 𝕄) ⊢ (Rd m ρ).payload (arr1Cell (yp c) j) 0 false :=
    Entails.of_eq ((land1_val m ρ c j fd).trans ((payload_eq m ρ (yp c) (some (1, j)) 0 false).trans (payOf_arr1 m ρ (yp c) j false)).symm)
  unfold xPts rPts at *
  exact Rounds.wp_send_pointsTo 𝒱₀ ER (Rd m ρ) (c : Thread nD τ) none (κ₁ := K (c, some (0, j))) (κ₂ := K (yp c, some (1, j)))
      (c' := (Dev.tc (yp c) : Thread nD τ)) (src := xSl c j) (dst := rSl j) (sS := .dma (semAt cc0_scratch1 j)) (sem := .dma (semAt cc0_scratch2 j))
      (r₁ := 0) (r₂ := 0) (d₁ := false) (d₂ := false) (fd := fd) (q := fullShare.right) (fs := X m ρ c)
      hd1 hd2 () () N (amt_r j _) (amount_x m ρ c (0, j) false) (amount_x m ρ (yp c) (1, j) false) O rfl (W := W) hp1 hp2

set_option maxHeartbeats 1000000 in
/-- The same for phase 2: own chunk j of the result, holding its final contents, sent to the same rows of the first-axis partner's result. -/
theorem wp_S0 (K : Dev nD × CK → ℕ) (c : Dev nD) (j : Fin 16) (O : CellTallies nD τ sig Unit) (W : Waits sig Unit) (n : Dev nD) (hn : n = xp c)
    {α : Type} {Q : α → sProp 𝕄} {k : PUnit → Prog (TpuEff nD τ sig (Elt F) Λ₀ .tc) α}
    {hsc : (oSl c j : Memref sig (Dev.tc n : Thread nD τ).2.kind .vmem S32x512 .f32).view.ref.isScScratch = false}
    {hsrc : (oSl c j).view.WordExact} {hdst : (oSl c j).view.WordExact}
    {hsem : DmaTarget.Typed .vmem (.dma (semAt cc0_scratch4 j)) (.remote (Dev.tc n : Thread nD τ) (oSl c j) (.dma (semAt cc0_scratch3 j)) hsc)}
    (fp : Buf (Elt F) ((oSl c j).view.loc ((xp c : Dev nD) : Thread nD τ))) :
    iprop(cellInv ER (Rd m ρ) (K (c, some (2, j))) (dep2Cell c j) ∗ cellInv ER (Rd m ρ) (K (xp c, some (3, j))) (arr2Cell (xp c) j)
        ∗ oPts c c j (outVal m ρ c) ∗ oPts (xp c) c j fp
        ∗ owes (c : Thread nD τ) (O + tallyAt (arr2Cell (xp c) j) () N) W
        ∗ dutyTok ER (dep2Cell c j) 0 false ∗ reached ER (dep2Cell c j) 0
        ∗ dutyTok ER (arr2Cell (xp c) j) 0 false ∗ reached ER (arr2Cell (xp c) j) 0)
      ⊢ iprop(((cred (tallyAt (dep2Cell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (oSl c j) (.remote (Dev.tc n : Thread nD τ) (oSl c j) (.dma (semAt cc0_scratch3 j)) hsc) (.dma (semAt cc0_scratch4 j)) hsrc hdst hsem) k) Q) := by
  subst hn
  have hd1 : false ∈ (Rd m ρ).duties (dep2Cell c j) 0 := by rw [duties_x]; exact Finset.mem_singleton_self _
  have hd2 : false ∈ (Rd m ρ).duties (arr2Cell (xp c) j) 0 := by rw [duties_x]; exact Finset.mem_singleton_self _
  have hp1 : (oPts c c j (outVal m ρ c)) ⊢ (Rd m ρ).payload (dep2Cell c j) 0 false :=
    Entails.of_eq (((payload_eq m ρ c (some (2, j)) 0 false).trans (payOf_dep2 m ρ c j false)).symm)
  have hp2 : (((oSl c j).view.loc ((xp c : Dev nD) : Thread nD τ) ↦[(oSl c j).view.set]{fullShare}
        ((oSl c j).view.write (Elt F) fp ((oSl c j).view.read (Elt F) (outVal m ρ c)) Finset.univ)) : sProp 𝕄) ⊢ (Rd m ρ).payload (arr2Cell (xp c) j) 0 false :=
    Entails.of_eq ((land2_val m ρ c j fp).trans ((payload_eq m ρ (xp c) (some (3, j)) 0 false).trans
      ((payOf_arr2 m ρ (xp c) j false).trans (by rw [xp_xp]))).symm)
  unfold oPts at *
  exact Rounds.wp_send_pointsTo 𝒱₀ ER (Rd m ρ) (c : Thread nD τ) none (κ₁ := K (c, some (2, j))) (κ₂ := K (xp c, some (3, j)))
      (c' := (Dev.tc (xp c) : Thread nD τ)) (src := oSl c j) (dst := oSl c j) (sS := .dma (semAt cc0_scratch3 j)) (sem := .dma (semAt cc0_scratch4 j))
      (r₁ := 0) (r₂ := 0) (d₁ := false) (d₂ := false) (fd := fp) (q := fullShare) (fs := outVal m ρ c)
      hd1 hd2 () () N (amt_o c j _) (amount_x m ρ c (2, j) false) (amount_x m ρ (xp c) (3, j) false) O rfl (W := W) hp1 hp2

set_option maxHeartbeats 1000000 in
/-- The library's rule for the wait on one of the device's transfer cells for its one duty: the duty's payload comes back. -/
theorem wp_W0 (K : Dev nD × CK → ℕ) (c : Dev nD) (aj : Fin 4 × Fin 16) (O : CellTallies nD τ sig Unit) (W : Waits sig Unit)
    {sp sp' : Space} {s s' : Shape} {e e' : EltTy} (src : Memref sig .tc sp' s' e') (dst : Memref sig .tc sp s e) (hcr : dst.view.dmaCredit = N)
    {hsrc : src.view.WordExact} {hdst : dst.view.WordExact} (P : sProp 𝕄) (hP : payOf m ρ c (some aj) false = P)
    {α : Type} {Q : α → sProp 𝕄} {k : PUnit → Prog (TpuEff nD τ sig (Elt F) Λ₀ .tc) α} :
    iprop(cellInv ER (Rd m ρ) (K (c, some aj)) (kcell (c, some aj)) ∗ cred (tallyAt (kcell (c, some aj)) () N) ∗ owes (c : Thread nD τ) O W
        ∗ MayWait (c : Thread nD τ) (csem (some aj)) () O ∗ atPos ER (kcell (c, some aj)) 0 ∅ 0)
      ⊢ iprop(((owes (c : Thread nD τ) O (insert (csem (some aj), ()) W) ∗ atPos ER (kcell (c, some aj)) (0 + 1) ∅ 0 ∗ reached ER (kcell (c, some aj)) (0 + 1)
              ∗ P)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (semAt (semArr aj.1) aj.2) src dst hsrc hdst) k) Q) := by
  have hk : 0 + dst.view.dmaCredit = (Rd m ρ).expect (kcell (c, some aj)) 0 := by rw [Nat.zero_add, hcr, expect_x]
  have h := Rounds.wp_wait_rest_token 𝒱₀ ER (Rd m ρ) (c : Thread nD τ) none (κ := K (c, some aj)) (sm := csem (some aj)) (k' := dst.view.dmaCredit)
      (w := .waitDma2 (semAt (semArr aj.1) aj.2) src dst hsrc hdst) (k := k) (Q := Q)
      (wpE_waitDma2_eq (defs := defs₀ (F := F)) 𝒱₀ (c : Thread nD τ) none Set.univ) (Set.mem_univ _) () (O := O) (W := W) (R := 0) (m := 0) (T := ∅) hk
  rw [rest_x, hcr, hP] at h
  exact h

/-! ## Phase 1: own chunk j of the block sent to the second-axis partner -/

set_option maxHeartbeats 1000000 in
theorem wp_B (K : Dev nD × CK → ℕ) (c : Dev nD) (j : Fin 16) (O : CellTallies nD τ sig Unit) (W : Waits sig Unit) (n : Dev nD) (hn : n = yp c)
    {α : Type} {Q : α → sProp 𝕄} {k : PUnit → Prog (TpuEff nD τ sig (Elt F) Λ₀ .tc) α}
    {hsc : (rSl j : Memref sig (Dev.tc n : Thread nD τ).2.kind .vmem S32x512 .f32).view.ref.isScScratch = false}
    {hsrc : (xSl c j).view.WordExact} {hdst : (rSl j).view.WordExact}
    {hsem : DmaTarget.Typed .vmem (.dma (semAt cc0_scratch2 j)) (.remote (Dev.tc n : Thread nD τ) (rSl j) (.dma (semAt cc0_scratch1 j)) hsc)}
    (fd : Buf (Elt F) ((rSl j).view.loc ((yp c : Dev nD) : Thread nD τ))) :
    records m ρ K ⊢ iprop(owes (c : Thread nD τ) (O + tallyAt (arr1Cell (yp c) j) () N) W -∗ xPts m ρ c j fullShare.right -∗ rPts (yp c) j fd
        -∗ dutyTok ER (dep1Cell c j) 0 false -∗ dutyTok ER (arr1Cell (yp c) j) 0 false
        -∗ ((cred (tallyAt (dep1Cell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (xSl c j) (.remote (Dev.tc n : Thread nD τ) (rSl j) (.dma (semAt cc0_scratch1 j)) hsc) (.dma (semAt cc0_scratch2 j)) hsrc hdst hsem) k) Q) := by
  iintro #HI HO Hx Hr Ht1 Ht2 Hk
  iapply (wp_B0 m ρ K c j O W n hn (hsc := hsc) (hsrc := hsrc) (hdst := hdst) (hsem := hsem) (k := k) (Q := Q) fd) $$ [HO Hx Hr Ht1 Ht2]
  · isplitr; · iapply (inv_at m ρ K (c, some (0, j))); iexact HI
    isplitr; · iapply (inv_at m ρ K (yp c, some (1, j))); iexact HI
    isplitl [Hx]; · iexact Hx
    isplitl [Hr]; · iexact Hr
    isplitl [HO]; · iexact HO
    isplitl [Ht1]; · iexact Ht1
    isplitr; · iapply (reached_at m ρ K (c, some (0, j))); iexact HI
    isplitl [Ht2]; · iexact Ht2
    iapply (reached_at m ρ K (yp c, some (1, j))); iexact HI
  iexact Hk

/-! ## Phase 2: chunk j has landed; the sum is stored and sent to the first-axis partner -/

/-- The stored vector is the sum of the two loaded ones: the store's result is the result's final contents on the chunk. -/
theorem store_val' (c : Dev nD) (j : Fin 16) (w : Vec F S32x512 .f32 → Vec F S32x512 .f32 → FVec F S32x512 .f32)
    (hw : ∀ a b, w a b = addf (shapeCast S32x512 a shapeCasts_S32x512_S32x512) b)
    (f : Buf (Elt F) (((oM : Memref sig .tc .vmem S1024x512 .f32).access (ownRect2 c j)).loc (c : Thread nD τ))) :
    ((((oM : Memref sig .tc .vmem S1024x512 .f32).access (ownRect2 c j)).loc (c : Thread nD τ) ↦[(oSl c j).view.set]{fullShare}
        ((oM : Memref sig .tc .vmem S1024x512 .f32).access (ownRect2 c j)).write (Elt F) f
          (w ((xM : Memref sig .tc .vmem S1024x512 .f32).view.readAt (Elt F) (ownRect2 c j).toLoadRect (X m ρ c))
            ((rM : Memref sig .tc .vmem S512x512 .f32).view.readAt (Elt F) (rRect j).toLoadRect (landVal m ρ c))) Finset.univ) : sProp 𝕄)
      = oPts c c j (outVal m ρ c) := by
  rw [hw]; exact store_val m ρ c j f

set_option maxHeartbeats 4000000 in
theorem wp_C (K : Dev nD × CK → ℕ) (c : Dev nD) (j : Fin 16) (l : List (Fin 16)) (W : Waits sig Unit) (n : Dev nD) (hn : n = xp c)
    {α : Type} {Q : α → sProp 𝕄} {k : PUnit → Prog (TpuEff nD τ sig (Elt F) Λ₀ .tc) α}
    (w : Vec F S32x512 .f32 → Vec F S32x512 .f32 → FVec F S32x512 .f32)
    (hw : ∀ a b, w a b = addf (shapeCast S32x512 a shapeCasts_S32x512_S32x512) b)
    {hws : (xSl c j).view.WordExact} {hwd : (rSl j).view.WordExact}
    {hl1 : (xM : Memref sig .tc .vmem S1024x512 .f32).view.LoadsAt (ownRect2 c j).toLoadRect}
    {hl2 : (rM : Memref sig .tc .vmem S512x512 .f32).view.LoadsAt (rRect j).toLoadRect}
    {hl3 : (oM : Memref sig .tc .vmem S1024x512 .f32).view.LoadsAt (ownRect2 c j).toLoadRect}
    {hx : ((oM : Memref sig .tc .vmem S1024x512 .f32).access (ownRect2 c j)).Stores Finset.univ}
    {hm : (Finset.univ : Finset (ownRect2 c j).shape.Idx) = Finset.univ ∨ ∀ a, (ownRect2 c j).stride a = 1}
    {hsc : (oSl c j : Memref sig (Dev.tc n : Thread nD τ).2.kind .vmem S32x512 .f32).view.ref.isScScratch = false}
    {hsrc : (oSl c j).view.WordExact} {hdst : (oSl c j).view.WordExact}
    {hsem : DmaTarget.Typed .vmem (.dma (semAt cc0_scratch4 j)) (.remote (Dev.tc n : Thread nD τ) (oSl c j) (.dma (semAt cc0_scratch3 j)) hsc)}
    (fo : Buf (Elt F) ((oSl c j).view.loc (c : Thread nD τ))) (fp : Buf (Elt F) ((oSl c j).view.loc ((xp c : Dev nD) : Thread nD τ))) :
    records m ρ K ⊢ iprop(levAts L lv -∗ owes (c : Thread nD τ) (owedPhase2 c l + tallyAt (arr2Cell (xp c) j) () N) W
        -∗ cred (tallyAt (arr1Cell c j) () N) -∗ atPos ER (arr1Cell c j) 0 ∅ 0
        -∗ (((c : Thread nD τ).loc cc0_stg0_0) ↦{fullShare.left} X m ρ c)
        -∗ oPts c c j fo -∗ oPts (xp c) c j fp
        -∗ dutyTok ER (dep2Cell c j) 0 false -∗ dutyTok ER (arr2Cell (xp c) j) 0 false
        -∗ ((∃ W', owes (c : Thread nD τ) (owedPhase2 c l) W' ∗ atPos ER (arr1Cell c j) (0 + 1) ∅ 0 ∗ rPts c j (landVal m ρ c)
              ∗ (((c : Thread nD τ).loc cc0_stg0_0) ↦{fullShare.left} X m ρ c) ∗ cred (tallyAt (dep2Cell c j) () N))
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (semAt cc0_scratch2 j) (xSl c j) (rSl j) hws hwd) fun _ =>
             .op (.load xM (ownRect2 c j).toLoadRect hl1) fun v1 =>
             .op (.load rM (rRect j).toLoadRect hl2) fun v2 =>
             .op (.load oM (ownRect2 c j).toLoadRect hl3) fun _ =>
             .op (.store oM (ownRect2 c j) (w v1 v2) Finset.univ hx hm) fun _ =>
             .op (.enqueueDma (oSl c j) (.remote (Dev.tc n : Thread nD τ) (oSl c j) (.dma (semAt cc0_scratch3 j)) hsc) (.dma (semAt cc0_scratch4 j)) hsrc hdst hsem) k) Q) := by
  iintro #HI #Hlev HO HcR HatR Hx Ho Hp Ht1 Ht2 Hk
  -- the wait for chunk j's arrival: the landing buffer's chunk comes with it
  iapply (wp_W0 m ρ K c (1, j) (owedPhase2 c l + tallyAt (arr2Cell (xp c) j) () N) W (xSl c j) (rSl j) rfl (hsrc := hws) (hdst := hwd) _ (payOf_arr1 m ρ c j false)) $$ [HcR HO HatR]
  · isplitr; · iapply (inv_at m ρ K (c, some (1, j))); iexact HI
    isplitl [HcR]; · iexact HcR
    isplitl [HO]; · iexact HO
    isplitr; · iapply (mayWait_arr1 c j (j :: l)); iexact Hlev
    iexact HatR
  iintro ⟨HO, HatR, -, Hr⟩
  unfold rPts
  -- the loads and the store
  iapply (wp_load 𝒱₀ (c : Thread nD τ) none Set.univ (m := xM) (r := (ownRect2 c j).toLoadRect) (Finset.subset_univ _)) $$ Hx; iintro Hx
  iapply (wp_load 𝒱₀ (c : Thread nD τ) none Set.univ (m := rM) (r := (rRect j).toLoadRect) (load_r_sub j)) $$ Hr; iintro Hr
  unfold oPts
  iapply (wp_load 𝒱₀ (c : Thread nD τ) none Set.univ (m := oM) (r := (ownRect2 c j).toLoadRect) (load_o_sub c j)) $$ Ho; iintro Ho
  iapply (wp_store 𝒱₀ (c : Thread nD τ) none Set.univ (m := oM) (r := ownRect2 c j) (Mk := Finset.univ) (store_o_sub c j)) $$ Ho; iintro Ho
  ihave Ho := (Entails.of_eq (store_val' m ρ c j w hw fo)) $$ Ho
  -- the transfer to the first-axis partner
  iapply (wp_S0 m ρ K c j (owedPhase2 c l) _ n hn (hsc := hsc) (hsrc := hsrc) (hdst := hdst) (hsem := hsem) (k := k) (Q := Q) fp)
    $$ [HO Ho Hp Ht1 Ht2]
  · isplitr; · iapply (inv_at m ρ K (c, some (2, j))); iexact HI
    isplitr; · iapply (inv_at m ρ K (xp c, some (3, j))); iexact HI
    isplitl [Ho]; · iexact Ho
    isplitl [Hp]; · unfold oPts; iexact Hp
    isplitl [HO]; · iexact HO
    isplitl [Ht1]; · iexact Ht1
    isplitr; · iapply (reached_at m ρ K (c, some (2, j))); iexact HI
    isplitl [Ht2]; · iexact Ht2
    iapply (reached_at m ρ K (xp c, some (3, j))); iexact HI
  iintro ⟨HcS, HO⟩
  iapply Hk
  iexists _
  isplitl [HO]; · iexact HO
  isplitl [HatR]; · iexact HatR
  isplitl [Hr]; · iexact Hr
  isplitl [Hx]; · iexact Hx
  iexact HcS

/-! ## Phase 3: the other half's chunk j lands, the two departures of chunk j are over, and the chunk's four cells close -/

set_option maxHeartbeats 4000000 in
theorem wp_D (K : Dev nD × CK → ℕ) (c : Dev nD) (j : Fin 16) (W : Waits sig Unit)
    {α : Type} {Q : α → sProp 𝕄} {k : PUnit → Prog (TpuEff nD τ sig (Elt F) Λ₀ .tc) α}
    {h1 : (pSl c j).view.WordExact} {h2 : (pSl c j).view.WordExact}
    {h3 : (rSl j).view.WordExact} {h4 : (xSl c j).view.WordExact}
    {h5 : (oSl c j).view.WordExact} {h6 : (oSl c j).view.WordExact} :
    records m ρ K ⊢ iprop(owes (c : Thread nD τ) 0 W
        -∗ cred (tallyAt (arr2Cell c j) () N) -∗ atPos ER (arr2Cell c j) 0 ∅ 0
        -∗ cred (tallyAt (dep1Cell c j) () N) -∗ atPos ER (dep1Cell c j) 0 ∅ 0
        -∗ cred (tallyAt (dep2Cell c j) () N) -∗ atPos ER (dep2Cell c j) 0 ∅ 0
        -∗ atPos ER (arr1Cell c j) (0 + 1) ∅ 0
        -∗ ((∃ W', owes (c : Thread nD τ) 0 W' ∗ oPts c (xp c) j (outVal m ρ c) ∗ xPts m ρ c j fullShare.right ∗ oPts c c j (outVal m ρ c)
              ∗ semVal (dep1Cell c j) 0 ∗ semVal (arr1Cell c j) 0 ∗ semVal (dep2Cell c j) 0 ∗ semVal (arr2Cell c j) 0)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (semAt cc0_scratch4 j) (pSl c j) (pSl c j) h1 h2) fun _ =>
             .op (.waitDma2 (semAt cc0_scratch1 j) (rSl j) (xSl c j) h3 h4) fun _ =>
             .op (.waitDma2 (semAt cc0_scratch3 j) (oSl c j) (oSl c j) h5 h6) k) Q) := by
  iintro #HI HO Hc4 Hat4 Hc1 Hat1 Hc3 Hat3 Hat2 Hk
  iapply (wp_W0 m ρ K c (3, j) 0 W (pSl c j) (pSl c j) rfl (hsrc := h1) (hdst := h2) _ (payOf_arr2 m ρ c j false)) $$ [Hc4 HO Hat4]
  · isplitr; · iapply (inv_at m ρ K (c, some (3, j))); iexact HI
    isplitl [Hc4]; · iexact Hc4
    isplitl [HO]; · iexact HO
    isplitr; · rw [MayWait_zero]; iempintro
    iexact Hat4
  iintro ⟨HO, Hat4, -, Hp⟩
  iapply (wp_W0 m ρ K c (0, j) 0 _ (rSl j) (xSl c j) rfl (hsrc := h3) (hdst := h4) _ (payOf_dep1 m ρ c j false)) $$ [Hc1 HO Hat1]
  · isplitr; · iapply (inv_at m ρ K (c, some (0, j))); iexact HI
    isplitl [Hc1]; · iexact Hc1
    isplitl [HO]; · iexact HO
    isplitr; · rw [MayWait_zero]; iempintro
    iexact Hat1
  iintro ⟨HO, Hat1, -, Hx⟩
  iapply (wp_W0 m ρ K c (2, j) 0 _ (oSl c j) (oSl c j) rfl (hsrc := h5) (hdst := h6) _ (payOf_dep2 m ρ c j false)) $$ [Hc3 HO Hat3]
  · isplitr; · iapply (inv_at m ρ K (c, some (2, j))); iexact HI
    isplitl [Hc3]; · iexact Hc3
    isplitl [HO]; · iexact HO
    isplitr; · rw [MayWait_zero]; iempintro
    iexact Hat3
  iintro ⟨HO, Hat3, -, Ho⟩
  -- the chunk's four cells close: their counters at zero are the device's again
  imod (Rounds.cell_close ER (Rd m ρ) (Set.mem_univ (K (c, some (0, j)))) (fun h => h) (R := 0 + 1) (duties_later m ρ (dep1Cell c j))) $$ [Hat1] with Hz1
  · isplitr; · iapply (inv_at m ρ K (c, some (0, j))); iexact HI
    iexact Hat1
  imod (Rounds.cell_close ER (Rd m ρ) (Set.mem_univ (K (c, some (1, j)))) (fun h => h) (R := 0 + 1) (duties_later m ρ (arr1Cell c j))) $$ [Hat2] with Hz2
  · isplitr; · iapply (inv_at m ρ K (c, some (1, j))); iexact HI
    iexact Hat2
  imod (Rounds.cell_close ER (Rd m ρ) (Set.mem_univ (K (c, some (2, j)))) (fun h => h) (R := 0 + 1) (duties_later m ρ (dep2Cell c j))) $$ [Hat3] with Hz3
  · isplitr; · iapply (inv_at m ρ K (c, some (2, j))); iexact HI
    iexact Hat3
  imod (Rounds.cell_close ER (Rd m ρ) (Set.mem_univ (K (c, some (3, j)))) (fun h => h) (R := 0 + 1) (duties_later m ρ (arr2Cell c j))) $$ [Hat4] with Hz4
  · isplitr; · iapply (inv_at m ρ K (c, some (3, j))); iexact HI
    iexact Hat4
  iapply Hk
  iexists _
  isplitl [HO]; · iexact HO
  isplitl [Hp]; · iexact Hp
  isplitl [Hx]; · iexact Hx
  isplitl [Ho]; · iexact Ho
  isplitl [Hz1]; · iexact Hz1
  isplitl [Hz2]; · iexact Hz2
  isplitl [Hz3]; · iexact Hz3
  iexact Hz4

end Cert.KernelIdealProof
end
-- ==== Proof.Body.lean ====
/-
One device's body, from the assertions the pipeline hands it to the assertions it hands back.
The device splits its buffers into the chunks the protocol moves; signals both partners' entry cell — handing the second-axis
partner its landing buffer and the first-axis partner the other half of its result buffer — and waits for two units on
its own, which bring the partners' buffers; then the sixteen chunks go through the three phases, one rule per chunk
and phase; at the end the chunks are joined back: the landing buffer holds the partner's rows, the result buffer the
result, the input buffer what it held, and the sixty-four transfer cells are closed at zero.
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import proofs.«900139_g7700000000000140_dist_ar_v7x_xy2x2_y_m1024_n512_f32_1_alg».proof.Proof.Protocol
import proofs.«900139_g7700000000000140_dist_ar_v7x_xy2x2_y_m1024_n512_f32_1_alg».proof.Proof.Tables
import proofs.«900139_g7700000000000140_dist_ar_v7x_xy2x2_y_m1024_n512_f32_1_alg».proof.Proof.Levels
import proofs.«900139_g7700000000000140_dist_ar_v7x_xy2x2_y_m1024_n512_f32_1_alg».proof.Proof.Regions
import proofs.«900139_g7700000000000140_dist_ar_v7x_xy2x2_y_m1024_n512_f32_1_alg».proof.Proof.Values
import proofs.«900139_g7700000000000140_dist_ar_v7x_xy2x2_y_m1024_n512_f32_1_alg».proof.Proof.Steps
import Idealize.ShloMosaic.Lib.Pipeline.Launch
import Idealize.ShloMosaic.Lib.Pipeline.Kit
import Idealize.ShloMosaic.Lib.Ring
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the device owes, chunk by chunk -/

/-- During phase 1, with the chunks of l still to send: their arrivals and all of phase 2's. -/
def owedB (c : Dev nD) (l : List (Fin 16)) : CellTallies nD τ sig Unit :=
  oweL ((l.map fun j => (arr1Cell (yp c) j, N)) ++ (js.map fun j => (arr2Cell (xp c) j, N)))

theorem owedB_cons (c : Dev nD) (j : Fin 16) (l : List (Fin 16)) : owedB c (j :: l) = owedB c l + tallyAt (arr1Cell (yp c) j) () N := rfl
theorem owedB_nil (c : Dev nD) : owedB c [] = owedPhase2 c js := rfl
theorem owedPhase2_cons (c : Dev nD) (j : Fin 16) (l : List (Fin 16)) :
    owedPhase2 c (j :: l) = owedPhase2 c l + tallyAt (arr2Cell (xp c) j) () N := rfl
theorem owedPhase2_nil (c : Dev nD) : owedPhase2 c [] = 0 := rfl
/-- What the device owes at launch: the two entry signals, then everything else. -/
theorem O₀_eq_entry (c : Dev nD) : O₀ c = oweL ((barCell (xp c), 1) :: ((js.map fun j => (arr1Cell (yp c) j, N)) ++ (js.map fun j => (arr2Cell (xp c) j, N)))) + tallyAt (barCell (yp c)) () 1 := rfl
theorem owed_entry2 (c : Dev nD) : oweL ((barCell (xp c), 1) :: ((js.map fun j => (arr1Cell (yp c) j, N)) ++ (js.map fun j => (arr2Cell (xp c) j, N)))) = owedB c js + tallyAt (barCell (xp c)) () 1 := rfl
theorem owedB_js (c : Dev nD) : owedB c js = owedAfterEntry c := rfl

/-! ## The device equations of the program's thirty-four addressed operations: the entry signals and phase 1 name the
second-axis partner, the second entry signal and phase 2 the first-axis partner -/

theorem dev1_eq (c : Dev nD) : (⟨k0_dev1 c, k0_dev1_lt c⟩ : Dev nD) = yp c := Fin.ext (k0_dev1_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = yp c := Fin.ext (k0_dev11_eq c)
theorem dev12_eq (c : Dev nD) : (⟨k0_dev12 c, k0_dev12_lt c⟩ : Dev nD) = yp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = yp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = yp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = yp c := Fin.ext (k0_dev18_eq c)
theorem dev2_eq (c : Dev nD) : (⟨k0_dev2 c, k0_dev2_lt c⟩ : Dev nD) = xp c := Fin.ext (k0_dev2_eq c)
theorem dev19_eq (c : Dev nD) : (⟨k0_dev19 c, k0_dev19_lt c⟩ : Dev nD) = xp c := Fin.ext (k0_dev19_eq c)
theorem dev20_eq (c : Dev nD) : (⟨k0_dev20 c, k0_dev20_lt c⟩ : Dev nD) = xp c := Fin.ext (k0_dev20_eq c)
theorem dev21_eq (c : Dev nD) : (⟨k0_dev21 c, k0_dev21_lt c⟩ : Dev nD) = xp c := Fin.ext (k0_dev21_eq c)
theorem dev22_eq (c : Dev nD) : (⟨k0_dev22 c, k0_dev22_lt c⟩ : Dev nD) = xp c := Fin.ext (k0_dev22_eq c)
theorem dev23_eq (c : Dev nD) : (⟨k0_dev23 c, k0_dev23_lt c⟩ : Dev nD) = xp c := Fin.ext (k0_dev23_eq c)
theorem dev24_eq (c : Dev nD) : (⟨k0_dev24 c, k0_dev24_lt c⟩ : Dev nD) = xp c := Fin.ext (k0_dev24_eq c)
theorem dev25_eq (c : Dev nD) : (⟨k0_dev25 c, k0_dev25_lt c⟩ : Dev nD) = xp c := Fin.ext (k0_dev25_eq c)
theorem dev26_eq (c : Dev nD) : (⟨k0_dev26 c, k0_dev26_lt c⟩ : Dev nD) = xp c := Fin.ext (k0_dev26_eq c)
theorem dev27_eq (c : Dev nD) : (⟨k0_dev27 c, k0_dev27_lt c⟩ : Dev nD) = xp c := Fin.ext (k0_dev27_eq c)
theorem dev28_eq (c : Dev nD) : (⟨k0_dev28 c, k0_dev28_lt c⟩ : Dev nD) = xp c := Fin.ext (k0_dev28_eq c)
theorem dev29_eq (c : Dev nD) : (⟨k0_dev29 c, k0_dev29_lt c⟩ : Dev nD) = xp c := Fin.ext (k0_dev29_eq c)
theorem dev30_eq (c : Dev nD) : (⟨k0_dev30 c, k0_dev30_lt c⟩ : Dev nD) = xp c := Fin.ext (k0_dev30_eq c)
theorem dev31_eq (c : Dev nD) : (⟨k0_dev31 c, k0_dev31_lt c⟩ : Dev nD) = xp c := Fin.ext (k0_dev31_eq c)
theorem dev32_eq (c : Dev nD) : (⟨k0_dev32 c, k0_dev32_lt c⟩ : Dev nD) = xp c := Fin.ext (k0_dev32_eq c)
theorem dev33_eq (c : Dev nD) : (⟨k0_dev33 c, k0_dev33_lt c⟩ : Dev nD) = xp c := Fin.ext (k0_dev33_eq c)
theorem dev34_eq (c : Dev nD) : (⟨k0_dev34 c, k0_dev34_lt c⟩ : Dev nD) = xp c := Fin.ext (k0_dev34_eq c)

omit [FloatOps F] in
/-- The chain over the sixteen chunks, written out. -/
theorem bigSepL_js (Φ : Fin 16 → sProp 𝕄) : bigSepL js Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := rfl

/-! ## The one grid point -/

theorem fetch_0 : (cfg0.win (0 : Fin 2)).fetch t0_0 = true := fetch0_0 t0_0

omit [FloatOps F] in
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

omit [FloatOps F] in
/-- The sixty-four transfer cells' counters, array by array. -/
theorem sems_eq (c : Dev nD) : (bigSep Finset.univ fun aj : Fin 4 × Fin 16 => (semVal (kcell (c, some aj)) 0 : sProp 𝕄))
    = iprop((bigSepL js fun j => semVal (dep1Cell c j) 0) ∗ (bigSepL js fun j => semVal (arr1Cell c j) 0)
        ∗ (bigSepL js fun j => semVal (dep2Cell c j) 0) ∗ (bigSepL js fun j => semVal (arr2Cell c j) 0)) := by
  rw [bigSep_univ_prod, bigSep_univ_eq_bigSepL [(0 : Fin 4), 1, 2, 3] (by decide) (by decide)]
  simp only [bigSep_univ_eq_bigSepL js (by decide) (by decide)]
  rfl

def bodyPre (K : Dev nD × CK → ℕ) (c : Dev nD) : sProp 𝕄 :=
  iprop((ghost m ρ K c ∗ launchCreds c ∗ levAts L lv ∗ ∃ f, ((c : Thread nD τ).loc cc0_scratch0) ↦{fullShare} f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (X m ρ c) ∗ stg c cc0_stg1_0 (outVal m ρ c))

set_option maxHeartbeats 40000000 in
set_option maxRecDepth 65536 in
/-- The body, from bodyPre, one rule per effect (the entry) or per chunk and phase, to bodyPost. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel,
    semSignalWord, semWaitWord, Prog.lift, Prog.bind_op, Prog.bind_ret, Prog.pure_eq_ret, wp_deviceId]
  simp only [dev1_eq c, dev2_eq c]
  unfold bodyPre ghost linear launchCreds
  iintro ⟨⟨⟨⟨#HI, HatB, HtY, HtX, HG⟩, ⟨HcB, HC1, HC2⟩, #Hlev, Hscr⟩, Ho, ⟨%d0, %g0, %hg0, Hx⟩, ⟨%d1, %g1, %hg1, Hout⟩⟩, Hk⟩
  have hx : g0 = X m ρ c := by rw [hg0]; unfold Dat.before; rw [if_pos fetch_0]; rfl
  subst hx
  unfold Dat.owesAt Pipeline.owesWithin
  icases Ho with ⟨%W, %hW, HO⟩
  rw [show (dats m ρ 0 c).owed t0_0.castSucc = O₀ c from rfl]
  -- the buffers, chunk by chunk: the landing buffer; the result buffer's own and other half; the input buffer at half its share
  ihave HscrC := (scr_chunks_ex (F := F) c) $$ Hscr
  ihave HoutC := (o_chunks_ex (F := F) c) $$ [Hout]
  · iexists g1; iexact Hout
  icases HoutC with ⟨HoOwn, HoOth⟩
  ihave Hx2 := ((pointsTo_share (PosShare.mem_left_op_right fullShare)).1) $$ Hx
  icases Hx2 with ⟨HxL, HxR⟩
  obtain ⟨Rest, hRest⟩ := x_chunks m ρ c fullShare.right
  ihave HxC := (Entails.of_eq hRest) $$ HxR
  icases HxC with ⟨HxC, HxRest⟩
  -- the FIRST signal, to the second-axis partner's entry cell: its duty false, with this device's landing buffer
  iapply (Rounds.wp_signal 𝒱₀ ER (Rd m ρ) (c : Thread nD τ) none (dst := (yp c : Thread nD τ)) (κ := K (yp c, none))
      (d := false) (by rw [duties_bar]; exact Finset.mem_univ _) ((amount_bar m ρ (yp c) false).trans (by decide)) ()
      (oweL ((barCell (xp c), 1) :: ((js.map fun j => (arr1Cell (yp c) j, N)) ++ (js.map fun j => (arr2Cell (xp c) j, N))))) rfl)
    $$ [HO HtY HscrC]
  · isplitr; · iapply (inv_at m ρ K (yp c, none)); iexact HI
    isplitl [HO]; · iexact HO
    isplitl [HtY]; · iexact HtY
    isplitl [HscrC]
    · iapply (Entails.of_eq (payload_eq m ρ (yp c) none 0 false).symm)
      simp only [payOf]; unfold barPayY; rw [yp_yp]; iexact HscrC
    iapply (reached_at m ρ K (yp c, none)); iexact HI
  iintro HO
  -- the SECOND, to the first-axis partner's: its duty true, with the other half of this device's result buffer
  iapply (Rounds.wp_signal 𝒱₀ ER (Rd m ρ) (c : Thread nD τ) none (dst := (xp c : Thread nD τ)) (κ := K (xp c, none))
      (d := true) (by rw [duties_bar]; exact Finset.mem_univ _) ((amount_bar m ρ (xp c) true).trans (by decide)) () (owedB c js) rfl)
    $$ [HO HtX HoOth]
  · isplitr; · iapply (inv_at m ρ K (xp c, none)); iexact HI
    isplitl [HO]; · iexact HO
    isplitl [HtX]; · iexact HtX
    isplitl [HoOth]
    · iapply (Entails.of_eq (payload_eq m ρ (xp c) none 0 true).symm)
      simp only [payOf]; unfold barPayX; rw [xp_xp]; iexact HoOth
    iapply (reached_at m ρ K (xp c, none)); iexact HI
  iintro HO
  -- the WAIT for two units on its own entry cell: both partners are inside, and their buffers come with the units
  iapply (Rounds.wp_wait_rest_token 𝒱₀ ER (Rd m ρ) (c : Thread nD τ) none (κ := K (c, none))
      (wpE_semWait_eq 𝒱₀ (c : Thread nD τ) none Set.univ) (Set.mem_univ _) () (O := owedB c js) (W := W) (R := 0) (m := 0) (T := ∅)
      (by rw [expect_bar]; decide)) $$ [HcB HO HatB]
  · isplitr; · iapply (inv_at m ρ K (c, none)); iexact HI
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPayY barPayX chunkGhost
  simp only [bigSepL_js]
  icases Hp with ⟨⟨⟨%f0, Hr0⟩, ⟨%f1, Hr1⟩, ⟨%f2, Hr2⟩, ⟨%f3, Hr3⟩, ⟨%f4, Hr4⟩, ⟨%f5, Hr5⟩, ⟨%f6, Hr6⟩, ⟨%f7, Hr7⟩, ⟨%f8, Hr8⟩, ⟨%f9, Hr9⟩, ⟨%f10, Hr10⟩, ⟨%f11, Hr11⟩, ⟨%f12, Hr12⟩, ⟨%f13, Hr13⟩, ⟨%f14, Hr14⟩, ⟨%f15, Hr15⟩⟩, ⟨⟨%g0, Hp0⟩, ⟨%g1, Hp1⟩, ⟨%g2, Hp2⟩, ⟨%g3, Hp3⟩, ⟨%g4, Hp4⟩, ⟨%g5, Hp5⟩, ⟨%g6, Hp6⟩, ⟨%g7, Hp7⟩, ⟨%g8, Hp8⟩, ⟨%g9, Hp9⟩, ⟨%g10, Hp10⟩, ⟨%g11, Hp11⟩, ⟨%g12, Hp12⟩, ⟨%g13, Hp13⟩, ⟨%g14, Hp14⟩, ⟨%g15, Hp15⟩⟩⟩
  icases HG with ⟨⟨Ha1_0, Ha2_0, Ha3_0, Ha4_0, Hta0, Htb0, Htc0, Htd0⟩, ⟨Ha1_1, Ha2_1, Ha3_1, Ha4_1, Hta1, Htb1, Htc1, Htd1⟩, ⟨Ha1_2, Ha2_2, Ha3_2, Ha4_2, Hta2, Htb2, Htc2, Htd2⟩, ⟨Ha1_3, Ha2_3, Ha3_3, Ha4_3, Hta3, Htb3, Htc3, Htd3⟩, ⟨Ha1_4, Ha2_4, Ha3_4, Ha4_4, Hta4, Htb4, Htc4, Htd4⟩, ⟨Ha1_5, Ha2_5, Ha3_5, Ha4_5, Hta5, Htb5, Htc5, Htd5⟩, ⟨Ha1_6, Ha2_6, Ha3_6, Ha4_6, Hta6, Htb6, Htc6, Htd6⟩, ⟨Ha1_7, Ha2_7, Ha3_7, Ha4_7, Hta7, Htb7, Htc7, Htd7⟩, ⟨Ha1_8, Ha2_8, Ha3_8, Ha4_8, Hta8, Htb8, Htc8, Htd8⟩, ⟨Ha1_9, Ha2_9, Ha3_9, Ha4_9, Hta9, Htb9, Htc9, Htd9⟩, ⟨Ha1_10, Ha2_10, Ha3_10, Ha4_10, Hta10, Htb10, Htc10, Htd10⟩, ⟨Ha1_11, Ha2_11, Ha3_11, Ha4_11, Hta11, Htb11, Htc11, Htd11⟩, ⟨Ha1_12, Ha2_12, Ha3_12, Ha4_12, Hta12, Htb12, Htc12, Htd12⟩, ⟨Ha1_13, Ha2_13, Ha3_13, Ha4_13, Hta13, Htb13, Htc13, Htd13⟩, ⟨Ha1_14, Ha2_14, Ha3_14, Ha4_14, Hta14, Htb14, Htc14, Htd14⟩, ⟨Ha1_15, Ha2_15, Ha3_15, Ha4_15, Hta15, Htb15, Htc15, Htd15⟩⟩
  icases HC1 with ⟨Hcr0, Hcr1, Hcr2, Hcr3, Hcr4, Hcr5, Hcr6, Hcr7, Hcr8, Hcr9, Hcr10, Hcr11, Hcr12, Hcr13, Hcr14, Hcr15⟩
  icases HC2 with ⟨Hcq0, Hcq1, Hcq2, Hcq3, Hcq4, Hcq5, Hcq6, Hcq7, Hcq8, Hcq9, Hcq10, Hcq11, Hcq12, Hcq13, Hcq14, Hcq15⟩
  icases HxC with ⟨Hx0, Hx1, Hx2, Hx3, Hx4, Hx5, Hx6, Hx7, Hx8, Hx9, Hx10, Hx11, Hx12, Hx13, Hx14, Hx15⟩
  icases HoOwn with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩, ⟨%fo8, Ho8⟩, ⟨%fo9, Ho9⟩, ⟨%fo10, Ho10⟩, ⟨%fo11, Ho11⟩, ⟨%fo12, Ho12⟩, ⟨%fo13, Ho13⟩, ⟨%fo14, Ho14⟩, ⟨%fo15, Ho15⟩⟩
  -- PHASE 1, chunk by chunk
  rw [owedB_cons c 0 [1, 2, 3, 4, 5, 6, 7, 8, 9, 10, 11, 12, 13, 14, 15]]
  iapply (wp_B m ρ K c 0 (owedB c [1, 2, 3, 4, 5, 6, 7, 8, 9, 10, 11, 12, 13, 14, 15]) _ _ (dev3_eq c) f0) $$ HI HO Hx0 Hr0 Hta0 Htb0
  iintro ⟨Hca0, HO⟩
  rw [owedB_cons c 1 [2, 3, 4, 5, 6, 7, 8, 9, 10, 11, 12, 13, 14, 15]]
  iapply (wp_B m ρ K c 1 (owedB c [2, 3, 4, 5, 6, 7, 8, 9, 10, 11, 12, 13, 14, 15]) _ _ (dev4_eq c) f1) $$ HI HO Hx1 Hr1 Hta1 Htb1
  iintro ⟨Hca1, HO⟩
  rw [owedB_cons c 2 [3, 4, 5, 6, 7, 8, 9, 10, 11, 12, 13, 14, 15]]
  iapply (wp_B m ρ K c 2 (owedB c [3, 4, 5, 6, 7, 8, 9, 10, 11, 12, 13, 14, 15]) _ _ (dev5_eq c) f2) $$ HI HO Hx2 Hr2 Hta2 Htb2
  iintro ⟨Hca2, HO⟩
  rw [owedB_cons c 3 [4, 5, 6, 7, 8, 9, 10, 11, 12, 13, 14, 15]]
  iapply (wp_B m ρ K c 3 (owedB c [4, 5, 6, 7, 8, 9, 10, 11, 12, 13, 14, 15]) _ _ (dev6_eq c) f3) $$ HI HO Hx3 Hr3 Hta3 Htb3
  iintro ⟨Hca3, HO⟩
  rw [owedB_cons c 4 [5, 6, 7, 8, 9, 10, 11, 12, 13, 14, 15]]
  iapply (wp_B m ρ K c 4 (owedB c [5, 6, 7, 8, 9, 10, 11, 12, 13, 14, 15]) _ _ (dev7_eq c) f4) $$ HI HO Hx4 Hr4 Hta4 Htb4
  iintro ⟨Hca4, HO⟩
  rw [owedB_cons c 5 [6, 7, 8, 9, 10, 11, 12, 13, 14, 15]]
  iapply (wp_B m ρ K c 5 (owedB c [6, 7, 8, 9, 10, 11, 12, 13, 14, 15]) _ _ (dev8_eq c) f5) $$ HI HO Hx5 Hr5 Hta5 Htb5
  iintro ⟨Hca5, HO⟩
  rw [owedB_cons c 6 [7, 8, 9, 10, 11, 12, 13, 14, 15]]
  iapply (wp_B m ρ K c 6 (owedB c [7, 8, 9, 10, 11, 12, 13, 14, 15]) _ _ (dev9_eq c) f6) $$ HI HO Hx6 Hr6 Hta6 Htb6
  iintro ⟨Hca6, HO⟩
  rw [owedB_cons c 7 [8, 9, 10, 11, 12, 13, 14, 15]]
  iapply (wp_B m ρ K c 7 (owedB c [8, 9, 10, 11, 12, 13, 14, 15]) _ _ (dev10_eq c) f7) $$ HI HO Hx7 Hr7 Hta7 Htb7
  iintro ⟨Hca7, HO⟩
  rw [owedB_cons c 8 [9, 10, 11, 12, 13, 14, 15]]
  iapply (wp_B m ρ K c 8 (owedB c [9, 10, 11, 12, 13, 14, 15]) _ _ (dev11_eq c) f8) $$ HI HO Hx8 Hr8 Hta8 Htb8
  iintro ⟨Hca8, HO⟩
  rw [owedB_cons c 9 [10, 11, 12, 13, 14, 15]]
  iapply (wp_B m ρ K c 9 (owedB c [10, 11, 12, 13, 14, 15]) _ _ (dev12_eq c) f9) $$ HI HO Hx9 Hr9 Hta9 Htb9
  iintro ⟨Hca9, HO⟩
  rw [owedB_cons c 10 [11, 12, 13, 14, 15]]
  iapply (wp_B m ρ K c 10 (owedB c [11, 12, 13, 14, 15]) _ _ (dev13_eq c) f10) $$ HI HO Hx10 Hr10 Hta10 Htb10
  iintro ⟨Hca10, HO⟩
  rw [owedB_cons c 11 [12, 13, 14, 15]]
  iapply (wp_B m ρ K c 11 (owedB c [12, 13, 14, 15]) _ _ (dev14_eq c) f11) $$ HI HO Hx11 Hr11 Hta11 Htb11
  iintro ⟨Hca11, HO⟩
  rw [owedB_cons c 12 [13, 14, 15]]
  iapply (wp_B m ρ K c 12 (owedB c [13, 14, 15]) _ _ (dev15_eq c) f12) $$ HI HO Hx12 Hr12 Hta12 Htb12
  iintro ⟨Hca12, HO⟩
  rw [owedB_cons c 13 [14, 15]]
  iapply (wp_B m ρ K c 13 (owedB c [14, 15]) _ _ (dev16_eq c) f13) $$ HI HO Hx13 Hr13 Hta13 Htb13
  iintro ⟨Hca13, HO⟩
  rw [owedB_cons c 14 [15]]
  iapply (wp_B m ρ K c 14 (owedB c [15]) _ _ (dev17_eq c) f14) $$ HI HO Hx14 Hr14 Hta14 Htb14
  iintro ⟨Hca14, HO⟩
  rw [owedB_cons c 15 []]
  iapply (wp_B m ρ K c 15 (owedB c []) _ _ (dev18_eq c) f15) $$ HI HO Hx15 Hr15 Hta15 Htb15
  iintro ⟨Hca15, HO⟩
  -- PHASE 2, chunk by chunk
  rw [owedB_nil c]
  rw [owedPhase2_cons c 0 [1, 2, 3, 4, 5, 6, 7, 8, 9, 10, 11, 12, 13, 14, 15]]
  iapply (wp_C m ρ K c 0 [1, 2, 3, 4, 5, 6, 7, 8, 9, 10, 11, 12, 13, 14, 15] _ _ (dev19_eq c) _ (fun _ _ => rfl) fo0 g0) $$ HI Hlev HO Hcr0 Ha2_0 HxL Ho0 Hp0 Htc0 Htd0
  iintro ⟨%W0, HO, Ha2_0, Hl0, HxL, Hcc0⟩
  rw [owedPhase2_cons c 1 [2, 3, 4, 5, 6, 7, 8, 9, 10, 11, 12, 13, 14, 15]]
  iapply (wp_C m ρ K c 1 [2, 3, 4, 5, 6, 7, 8, 9, 10, 11, 12, 13, 14, 15] _ _ (dev20_eq c) _ (fun _ _ => rfl) fo1 g1) $$ HI Hlev HO Hcr1 Ha2_1 HxL Ho1 Hp1 Htc1 Htd1
  iintro ⟨%W1, HO, Ha2_1, Hl1, HxL, Hcc1⟩
  rw [owedPhase2_cons c 2 [3, 4, 5, 6, 7, 8, 9, 10, 11, 12, 13, 14, 15]]
  iapply (wp_C m ρ K c 2 [3, 4, 5, 6, 7, 8, 9, 10, 11, 12, 13, 14, 15] _ _ (dev21_eq c) _ (fun _ _ => rfl) fo2 g2) $$ HI Hlev HO Hcr2 Ha2_2 HxL Ho2 Hp2 Htc2 Htd2
  iintro ⟨%W2, HO, Ha2_2, Hl2, HxL, Hcc2⟩
  rw [owedPhase2_cons c 3 [4, 5, 6, 7, 8, 9, 10, 11, 12, 13, 14, 15]]
  iapply (wp_C m ρ K c 3 [4, 5, 6, 7, 8, 9, 10, 11, 12, 13, 14, 15] _ _ (dev22_eq c) _ (fun _ _ => rfl) fo3 g3) $$ HI Hlev HO Hcr3 Ha2_3 HxL Ho3 Hp3 Htc3 Htd3
  iintro ⟨%W3, HO, Ha2_3, Hl3, HxL, Hcc3⟩
  rw [owedPhase2_cons c 4 [5, 6, 7, 8, 9, 10, 11, 12, 13, 14, 15]]
  iapply (wp_C m ρ K c 4 [5, 6, 7, 8, 9, 10, 11, 12, 13, 14, 15] _ _ (dev23_eq c) _ (fun _ _ => rfl) fo4 g4) $$ HI Hlev HO Hcr4 Ha2_4 HxL Ho4 Hp4 Htc4 Htd4
  iintro ⟨%W4, HO, Ha2_4, Hl4, HxL, Hcc4⟩
  rw [owedPhase2_cons c 5 [6, 7, 8, 9, 10, 11, 12, 13, 14, 15]]
  iapply (wp_C m ρ K c 5 [6, 7, 8, 9, 10, 11, 12, 13, 14, 15] _ _ (dev24_eq c) _ (fun _ _ => rfl) fo5 g5) $$ HI Hlev HO Hcr5 Ha2_5 HxL Ho5 Hp5 Htc5 Htd5
  iintro ⟨%W5, HO, Ha2_5, Hl5, HxL, Hcc5⟩
  rw [owedPhase2_cons c 6 [7, 8, 9, 10, 11, 12, 13, 14, 15]]
  iapply (wp_C m ρ K c 6 [7, 8, 9, 10, 11, 12, 13, 14, 15] _ _ (dev25_eq c) _ (fun _ _ => rfl) fo6 g6) $$ HI Hlev HO Hcr6 Ha2_6 HxL Ho6 Hp6 Htc6 Htd6
  iintro ⟨%W6, HO, Ha2_6, Hl6, HxL, Hcc6⟩
  rw [owedPhase2_cons c 7 [8, 9, 10, 11, 12, 13, 14, 15]]
  iapply (wp_C m ρ K c 7 [8, 9, 10, 11, 12, 13, 14, 15] _ _ (dev26_eq c) _ (fun _ _ => rfl) fo7 g7) $$ HI Hlev HO Hcr7 Ha2_7 HxL Ho7 Hp7 Htc7 Htd7
  iintro ⟨%W7, HO, Ha2_7, Hl7, HxL, Hcc7⟩
  rw [owedPhase2_cons c 8 [9, 10, 11, 12, 13, 14, 15]]
  iapply (wp_C m ρ K c 8 [9, 10, 11, 12, 13, 14, 15] _ _ (dev27_eq c) _ (fun _ _ => rfl) fo8 g8) $$ HI Hlev HO Hcr8 Ha2_8 HxL Ho8 Hp8 Htc8 Htd8
  iintro ⟨%W8, HO, Ha2_8, Hl8, HxL, Hcc8⟩
  rw [owedPhase2_cons c 9 [10, 11, 12, 13, 14, 15]]
  iapply (wp_C m ρ K c 9 [10, 11, 12, 13, 14, 15] _ _ (dev28_eq c) _ (fun _ _ => rfl) fo9 g9) $$ HI Hlev HO Hcr9 Ha2_9 HxL Ho9 Hp9 Htc9 Htd9
  iintro ⟨%W9, HO, Ha2_9, Hl9, HxL, Hcc9⟩
  rw [owedPhase2_cons c 10 [11, 12, 13, 14, 15]]
  iapply (wp_C m ρ K c 10 [11, 12, 13, 14, 15] _ _ (dev29_eq c) _ (fun _ _ => rfl) fo10 g10) $$ HI Hlev HO Hcr10 Ha2_10 HxL Ho10 Hp10 Htc10 Htd10
  iintro ⟨%W10, HO, Ha2_10, Hl10, HxL, Hcc10⟩
  rw [owedPhase2_cons c 11 [12, 13, 14, 15]]
  iapply (wp_C m ρ K c 11 [12, 13, 14, 15] _ _ (dev30_eq c) _ (fun _ _ => rfl) fo11 g11) $$ HI Hlev HO Hcr11 Ha2_11 HxL Ho11 Hp11 Htc11 Htd11
  iintro ⟨%W11, HO, Ha2_11, Hl11, HxL, Hcc11⟩
  rw [owedPhase2_cons c 12 [13, 14, 15]]
  iapply (wp_C m ρ K c 12 [13, 14, 15] _ _ (dev31_eq c) _ (fun _ _ => rfl) fo12 g12) $$ HI Hlev HO Hcr12 Ha2_12 HxL Ho12 Hp12 Htc12 Htd12
  iintro ⟨%W12, HO, Ha2_12, Hl12, HxL, Hcc12⟩
  rw [owedPhase2_cons c 13 [14, 15]]
  iapply (wp_C m ρ K c 13 [14, 15] _ _ (dev32_eq c) _ (fun _ _ => rfl) fo13 g13) $$ HI Hlev HO Hcr13 Ha2_13 HxL Ho13 Hp13 Htc13 Htd13
  iintro ⟨%W13, HO, Ha2_13, Hl13, HxL, Hcc13⟩
  rw [owedPhase2_cons c 14 [15]]
  iapply (wp_C m ρ K c 14 [15] _ _ (dev33_eq c) _ (fun _ _ => rfl) fo14 g14) $$ HI Hlev HO Hcr14 Ha2_14 HxL Ho14 Hp14 Htc14 Htd14
  iintro ⟨%W14, HO, Ha2_14, Hl14, HxL, Hcc14⟩
  rw [owedPhase2_cons c 15 []]
  iapply (wp_C m ρ K c 15 [] _ _ (dev34_eq c) _ (fun _ _ => rfl) fo15 g15) $$ HI Hlev HO Hcr15 Ha2_15 HxL Ho15 Hp15 Htc15 Htd15
  iintro ⟨%W15, HO, Ha2_15, Hl15, HxL, Hcc15⟩
  -- PHASE 3, chunk by chunk
  rw [owedPhase2_nil c]
  iapply (wp_D m ρ K c 0 _) $$ HI HO Hcq0 Ha4_0 Hca0 Ha1_0 Hcc0 Ha3_0 Ha2_0
  iintro ⟨%V0, HO, Hq0, Hx0, Ho0, Hz1_0, Hz2_0, Hz3_0, Hz4_0⟩
  iapply (wp_D m ρ K c 1 _) $$ HI HO Hcq1 Ha4_1 Hca1 Ha1_1 Hcc1 Ha3_1 Ha2_1
  iintro ⟨%V1, HO, Hq1, Hx1, Ho1, Hz1_1, Hz2_1, Hz3_1, Hz4_1⟩
  iapply (wp_D m ρ K c 2 _) $$ HI HO Hcq2 Ha4_2 Hca2 Ha1_2 Hcc2 Ha3_2 Ha2_2
  iintro ⟨%V2, HO, Hq2, Hx2, Ho2, Hz1_2, Hz2_2, Hz3_2, Hz4_2⟩
  iapply (wp_D m ρ K c 3 _) $$ HI HO Hcq3 Ha4_3 Hca3 Ha1_3 Hcc3 Ha3_3 Ha2_3
  iintro ⟨%V3, HO, Hq3, Hx3, Ho3, Hz1_3, Hz2_3, Hz3_3, Hz4_3⟩
  iapply (wp_D m ρ K c 4 _) $$ HI HO Hcq4 Ha4_4 Hca4 Ha1_4 Hcc4 Ha3_4 Ha2_4
  iintro ⟨%V4, HO, Hq4, Hx4, Ho4, Hz1_4, Hz2_4, Hz3_4, Hz4_4⟩
  iapply (wp_D m ρ K c 5 _) $$ HI HO Hcq5 Ha4_5 Hca5 Ha1_5 Hcc5 Ha3_5 Ha2_5
  iintro ⟨%V5, HO, Hq5, Hx5, Ho5, Hz1_5, Hz2_5, Hz3_5, Hz4_5⟩
  iapply (wp_D m ρ K c 6 _) $$ HI HO Hcq6 Ha4_6 Hca6 Ha1_6 Hcc6 Ha3_6 Ha2_6
  iintro ⟨%V6, HO, Hq6, Hx6, Ho6, Hz1_6, Hz2_6, Hz3_6, Hz4_6⟩
  iapply (wp_D m ρ K c 7 _) $$ HI HO Hcq7 Ha4_7 Hca7 Ha1_7 Hcc7 Ha3_7 Ha2_7
  iintro ⟨%V7, HO, Hq7, Hx7, Ho7, Hz1_7, Hz2_7, Hz3_7, Hz4_7⟩
  iapply (wp_D m ρ K c 8 _) $$ HI HO Hcq8 Ha4_8 Hca8 Ha1_8 Hcc8 Ha3_8 Ha2_8
  iintro ⟨%V8, HO, Hq8, Hx8, Ho8, Hz1_8, Hz2_8, Hz3_8, Hz4_8⟩
  iapply (wp_D m ρ K c 9 _) $$ HI HO Hcq9 Ha4_9 Hca9 Ha1_9 Hcc9 Ha3_9 Ha2_9
  iintro ⟨%V9, HO, Hq9, Hx9, Ho9, Hz1_9, Hz2_9, Hz3_9, Hz4_9⟩
  iapply (wp_D m ρ K c 10 _) $$ HI HO Hcq10 Ha4_10 Hca10 Ha1_10 Hcc10 Ha3_10 Ha2_10
  iintro ⟨%V10, HO, Hq10, Hx10, Ho10, Hz1_10, Hz2_10, Hz3_10, Hz4_10⟩
  iapply (wp_D m ρ K c 11 _) $$ HI HO Hcq11 Ha4_11 Hca11 Ha1_11 Hcc11 Ha3_11 Ha2_11
  iintro ⟨%V11, HO, Hq11, Hx11, Ho11, Hz1_11, Hz2_11, Hz3_11, Hz4_11⟩
  iapply (wp_D m ρ K c 12 _) $$ HI HO Hcq12 Ha4_12 Hca12 Ha1_12 Hcc12 Ha3_12 Ha2_12
  iintro ⟨%V12, HO, Hq12, Hx12, Ho12, Hz1_12, Hz2_12, Hz3_12, Hz4_12⟩
  iapply (wp_D m ρ K c 13 _) $$ HI HO Hcq13 Ha4_13 Hca13 Ha1_13 Hcc13 Ha3_13 Ha2_13
  iintro ⟨%V13, HO, Hq13, Hx13, Ho13, Hz1_13, Hz2_13, Hz3_13, Hz4_13⟩
  iapply (wp_D m ρ K c 14 _) $$ HI HO Hcq14 Ha4_14 Hca14 Ha1_14 Hcc14 Ha3_14 Ha2_14
  iintro ⟨%V14, HO, Hq14, Hx14, Ho14, Hz1_14, Hz2_14, Hz3_14, Hz4_14⟩
  iapply (wp_D m ρ K c 15 _) $$ HI HO Hcq15 Ha4_15 Hca15 Ha1_15 Hcc15 Ha3_15 Ha2_15
  iintro ⟨%V15, HO, Hq15, Hx15, Ho15, Hz1_15, Hz2_15, Hz3_15, Hz4_15⟩
  rw [wp_ret]; imodintro
  iapply Hk
  unfold bodyPost Φ₁ Dat.owesAt Pipeline.owesWithin
  rw [show (dats m ρ 0 c).owed t0_0.succ = 0 from rfl, scr_chunks, sems_eq]
  simp only [bigSepL_js]
  isplitl [Hl0 Hl1 Hl2 Hl3 Hl4 Hl5 Hl6 Hl7 Hl8 Hl9 Hl10 Hl11 Hl12 Hl13 Hl14 Hl15 Hz1_0 Hz2_0 Hz3_0 Hz4_0 Hz1_1 Hz2_1 Hz3_1 Hz4_1 Hz1_2 Hz2_2 Hz3_2 Hz4_2 Hz1_3 Hz2_3 Hz3_3 Hz4_3 Hz1_4 Hz2_4 Hz3_4 Hz4_4 Hz1_5 Hz2_5 Hz3_5 Hz4_5 Hz1_6 Hz2_6 Hz3_6 Hz4_6 Hz1_7 Hz2_7 Hz3_7 Hz4_7 Hz1_8 Hz2_8 Hz3_8 Hz4_8 Hz1_9 Hz2_9 Hz3_9 Hz4_9 Hz1_10 Hz2_10 Hz3_10 Hz4_10 Hz1_11 Hz2_11 Hz3_11 Hz4_11 Hz1_12 Hz2_12 Hz3_12 Hz4_12 Hz1_13 Hz2_13 Hz3_13 Hz4_13 Hz1_14 Hz2_14 Hz3_14 Hz4_14 Hz1_15 Hz2_15 Hz3_15 Hz4_15]
  · isplitl [Hl0 Hl1 Hl2 Hl3 Hl4 Hl5 Hl6 Hl7 Hl8 Hl9 Hl10 Hl11 Hl12 Hl13 Hl14 Hl15]
    · skip
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      isplitl [Hl7]; · iexact Hl7
      isplitl [Hl8]; · iexact Hl8
      isplitl [Hl9]; · iexact Hl9
      isplitl [Hl10]; · iexact Hl10
      isplitl [Hl11]; · iexact Hl11
      isplitl [Hl12]; · iexact Hl12
      isplitl [Hl13]; · iexact Hl13
      isplitl [Hl14]; · iexact Hl14
      iexact Hl15
    isplitl [Hz1_0 Hz1_1 Hz1_2 Hz1_3 Hz1_4 Hz1_5 Hz1_6 Hz1_7 Hz1_8 Hz1_9 Hz1_10 Hz1_11 Hz1_12 Hz1_13 Hz1_14 Hz1_15]
    · skip
      isplitl [Hz1_0]; · iexact Hz1_0
      isplitl [Hz1_1]; · iexact Hz1_1
      isplitl [Hz1_2]; · iexact Hz1_2
      isplitl [Hz1_3]; · iexact Hz1_3
      isplitl [Hz1_4]; · iexact Hz1_4
      isplitl [Hz1_5]; · iexact Hz1_5
      isplitl [Hz1_6]; · iexact Hz1_6
      isplitl [Hz1_7]; · iexact Hz1_7
      isplitl [Hz1_8]; · iexact Hz1_8
      isplitl [Hz1_9]; · iexact Hz1_9
      isplitl [Hz1_10]; · iexact Hz1_10
      isplitl [Hz1_11]; · iexact Hz1_11
      isplitl [Hz1_12]; · iexact Hz1_12
      isplitl [Hz1_13]; · iexact Hz1_13
      isplitl [Hz1_14]; · iexact Hz1_14
      iexact Hz1_15
    isplitl [Hz2_0 Hz2_1 Hz2_2 Hz2_3 Hz2_4 Hz2_5 Hz2_6 Hz2_7 Hz2_8 Hz2_9 Hz2_10 Hz2_11 Hz2_12 Hz2_13 Hz2_14 Hz2_15]
    · skip
      isplitl [Hz2_0]; · iexact Hz2_0
      isplitl [Hz2_1]; · iexact Hz2_1
      isplitl [Hz2_2]; · iexact Hz2_2
      isplitl [Hz2_3]; · iexact Hz2_3
      isplitl [Hz2_4]; · iexact Hz2_4
      isplitl [Hz2_5]; · iexact Hz2_5
      isplitl [Hz2_6]; · iexact Hz2_6
      isplitl [Hz2_7]; · iexact Hz2_7
      isplitl [Hz2_8]; · iexact Hz2_8
      isplitl [Hz2_9]; · iexact Hz2_9
      isplitl [Hz2_10]; · iexact Hz2_10
      isplitl [Hz2_11]; · iexact Hz2_11
      isplitl [Hz2_12]; · iexact Hz2_12
      isplitl [Hz2_13]; · iexact Hz2_13
      isplitl [Hz2_14]; · iexact Hz2_14
      iexact Hz2_15
    isplitl [Hz3_0 Hz3_1 Hz3_2 Hz3_3 Hz3_4 Hz3_5 Hz3_6 Hz3_7 Hz3_8 Hz3_9 Hz3_10 Hz3_11 Hz3_12 Hz3_13 Hz3_14 Hz3_15]
    · skip
      isplitl [Hz3_0]; · iexact Hz3_0
      isplitl [Hz3_1]; · iexact Hz3_1
      isplitl [Hz3_2]; · iexact Hz3_2
      isplitl [Hz3_3]; · iexact Hz3_3
      isplitl [Hz3_4]; · iexact Hz3_4
      isplitl [Hz3_5]; · iexact Hz3_5
      isplitl [Hz3_6]; · iexact Hz3_6
      isplitl [Hz3_7]; · iexact Hz3_7
      isplitl [Hz3_8]; · iexact Hz3_8
      isplitl [Hz3_9]; · iexact Hz3_9
      isplitl [Hz3_10]; · iexact Hz3_10
      isplitl [Hz3_11]; · iexact Hz3_11
      isplitl [Hz3_12]; · iexact Hz3_12
      isplitl [Hz3_13]; · iexact Hz3_13
      isplitl [Hz3_14]; · iexact Hz3_14
      iexact Hz3_15
    isplitl [Hz4_0]; · iexact Hz4_0
    isplitl [Hz4_1]; · iexact Hz4_1
    isplitl [Hz4_2]; · iexact Hz4_2
    isplitl [Hz4_3]; · iexact Hz4_3
    isplitl [Hz4_4]; · iexact Hz4_4
    isplitl [Hz4_5]; · iexact Hz4_5
    isplitl [Hz4_6]; · iexact Hz4_6
    isplitl [Hz4_7]; · iexact Hz4_7
    isplitl [Hz4_8]; · iexact Hz4_8
    isplitl [Hz4_9]; · iexact Hz4_9
    isplitl [Hz4_10]; · iexact Hz4_10
    isplitl [Hz4_11]; · iexact Hz4_11
    isplitl [Hz4_12]; · iexact Hz4_12
    isplitl [Hz4_13]; · iexact Hz4_13
    isplitl [Hz4_14]; · iexact Hz4_14
    iexact Hz4_15
  isplitl [HO]
  · iexists V15
    isplitr; · ipureintro; exact fun _ _ => Or.inl trivial
    iexact HO
  isplitl [HxL HxRest Hx0 Hx1 Hx2 Hx3 Hx4 Hx5 Hx6 Hx7 Hx8 Hx9 Hx10 Hx11 Hx12 Hx13 Hx14 Hx15]
  · iexists _; isplitr; · (ipureintro; rfl)
    iapply ((pointsTo_share (PosShare.mem_left_op_right fullShare)).2)
    isplitl [HxL]; · iexact HxL
    iapply (Entails.of_eq hRest.symm)
    simp only [bigSepL_js]
    isplitr [HxRest]
    · skip
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      isplitl [Hx12]; · iexact Hx12
      isplitl [Hx13]; · iexact Hx13
      isplitl [Hx14]; · iexact Hx14
      iexact Hx15
    iexact HxRest
  iexists _; isplitr; · (ipureintro; rfl)
  rw [o_chunks]
  simp only [bigSepL_js]
  isplitl [Ho0 Ho1 Ho2 Ho3 Ho4 Ho5 Ho6 Ho7 Ho8 Ho9 Ho10 Ho11 Ho12 Ho13 Ho14 Ho15]
  · skip
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  iexact Hq15

/-- The library's body obligation on device c. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 2) t0_0 d))
      ∗ (∃ d, stg c cc0_stg1_0 ((dats m ρ 0 c).before (1 : Fin 2) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2 cc0_scratch3 cc0_scratch4) (fun _ => bodyPost m ρ c)
  unfold Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Cert.KernelIdealProof
end
-- ==== Proof.Launch.lean ====
/-
The launch: the protocol's ghost state is allocated for all devices at once (the entry semaphore is the runtime's, shared by
the three devices that touch it), dealt to the devices, and the region's launch theorem turns the devices' body obligations
into a run of the whole program; the arrays' final contents are read off the proof data.
-/
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Mesh
import proofs.«900139_g7700000000000140_dist_ar_v7x_xy2x2_y_m1024_n512_f32_1_alg».proof.Proof.Protocol
import proofs.«900139_g7700000000000140_dist_ar_v7x_xy2x2_y_m1024_n512_f32_1_alg».proof.Proof.Tables
import proofs.«900139_g7700000000000140_dist_ar_v7x_xy2x2_y_m1024_n512_f32_1_alg».proof.Proof.Levels
import Idealize.ShloMosaic.Lib.Pipeline.Launch
import Idealize.ShloMosaic.Lib.Pipeline.Kit
import Idealize.ShloMosaic.Lib.Ring
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The kernel's own semaphores: the sixty-four transfer semaphores. -/
abbrev osem : Fin 4 × Fin 16 → SemLoc sig := fun aj => csem (some aj)

theorem osem_scoped : ∀ k : Fin 4 × Fin 16, (osem k).isScoped .tc = true := by decide
theorem osem_disj : ∀ (k : Fin 4 × Fin 16) (w : Fin cfg0.W) (s : Fin (cfg0.spec w).nbuf), osem k ≠ .dma ((cfg0.spec w).sem s) := by decide

theorem ownSemFacts : Pipeline.OwnSemFacts cfg0.spec osem :=
  ⟨osem_scoped, fun _ _ h => Option.some.inj (csem_injective h), osem_disj⟩

theorem share_eq (c : Dev nD) (w : Fin cfg0.W) : (dats m ρ 0 c).share w = fullShare := by unfold Dat.share; split <;> rfl

/-- The cells of the protocol: every device's sixty-five. -/
def protoCells : Finset (GSem nD τ sig) := Finset.univ.map ⟨kcell, kcell_injective⟩

/-- The duty tokens minted at launch, by (device, which): the entry cell's two duties, and the one duty of the transfer
    cell (array a, chunk j), listed chunk first. -/
abbrev TK : Type := Bool ⊕ (Fin 16 × Fin 4)
abbrev ckOf : TK → CK := Sum.elim (fun _ => none) (fun ja => some (ja.2, ja.1))
abbrev dOf : TK → Bool := Sum.elim id (fun _ => false)
abbrev tokOf (cx : Dev nD × TK) : GSem nD τ sig × ℕ × Bool := (kcell (cx.1, ckOf cx.2), 0, dOf cx.2)

theorem tokOf_injective : Function.Injective (tokOf : Dev nD × TK → GSem nD τ sig × ℕ × Bool) := by
  rintro ⟨c, x⟩ ⟨c', x'⟩ h
  have h1 : (c, ckOf x) = (c', ckOf x') := kcell_injective (congrArg (fun y : GSem nD τ sig × ℕ × Bool => y.1) h)
  have h2 : dOf x = dOf x' := congrArg (fun y : GSem nD τ sig × ℕ × Bool => y.2.2) h
  have hc : c = c' := congrArg Prod.fst h1
  have hk : ckOf x = ckOf x' := congrArg Prod.snd h1
  subst hc
  rcases x with b | ⟨j, a⟩ <;> rcases x' with b' | ⟨j', a'⟩
  · have : b = b' := h2
    subst this; rfl
  · exact absurd hk (by simp [ckOf])
  · exact absurd hk (by simp [ckOf])
  · have : (a, j) = (a', j') := Option.some.inj hk
    cases this; rfl

def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of device c's own cells, as minted. -/
def toks (c : Dev nD) : sProp 𝕄 :=
  iprop((bigSep Finset.univ fun b : Bool => dutyTok ER (barCell c) 0 b)
    ∗ bigSep Finset.univ fun ja : Fin 16 × Fin 4 => dutyTok ER (kcell (c, some (ja.2, ja.1))) 0 false)

/-- What the launch element deals device c. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_js (Φ : Fin 16 → sProp 𝕄) : bigSep Finset.univ Φ = bigSepL js Φ := bigSep_univ_eq_bigSepL js (by decide) (by decide) Φ

omit [FloatOps F] in
theorem bigSep_univ_option {α : Type} [Fintype α] (Φ : Option α → sProp 𝕄) :
    bigSep Finset.univ Φ = iprop(Φ none ∗ bigSep Finset.univ fun a => Φ (some a)) := by
  classical
  rw [show (Finset.univ : Finset (Option α)) = insert none (Finset.univ.map Function.Embedding.some) from by
      ext x; cases x <;> simp,
    bigSep_insert (by simp), bigSep_map]
  rfl

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 16 => semVal (kcell (c, some aj)) 0 := rfl
omit [FloatOps F] in
/-- the entry semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_univ_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device c pays: the entry signals to its two partners, and per chunk its two departures,
    the arrival at its second-axis partner and the arrival at its first-axis partner. -/
def payToks (c : Dev nD) : sProp 𝕄 :=
  iprop((dutyTok ER (barCell (yp c)) 0 false ∗ dutyTok ER (barCell (xp c)) 0 true)
    ∗ bigSep Finset.univ fun j : Fin 16 => iprop(dutyTok ER (dep1Cell c j) 0 false ∗ dutyTok ER (arr1Cell (yp c) j) 0 false
        ∗ dutyTok ER (dep2Cell c j) 0 false ∗ dutyTok ER (arr2Cell (xp c) j) 0 false))

theorem ghost_intro (K : Dev nD × CK → ℕ) (c : Dev nD) : iprop(records m ρ K ∗ linear c) ⊢ G' m ρ c := by
  unfold G' ghost
  iintro H
  iexists K
  iexact H

omit [FloatOps F] in
/-- A device's sixty-five positions and the tokens it pays with are what stays with it. -/
theorem linear_intro (c : Dev nD) :
    iprop((bigSep Finset.univ fun k : CK => (atPos ER (kcell (c, k)) 0 ∅ 0 : sProp 𝕄)) ∗ payToks c) ⊢ linear c := by
  unfold linear payToks
  rw [bigSep_univ_option, bigSep_univ_prod, bigSep_fin4, ← bigSep_js]
  unfold chunkGhost
  simp only [bigSep_sep']
  iintro ⟨⟨Hb, H0, H1, H2, H3⟩, ⟨Ty, Tx⟩, T0, T1, T2, T3⟩
  isplitl [Hb]; · iexact Hb
  isplitl [Ty]; · iexact Ty
  isplitl [Tx]; · iexact Tx
  isplitl [H0]; · iexact H0
  isplitl [H1]; · iexact H1
  isplitl [H2]; · iexact H2
  isplitl [H3]; · iexact H3
  isplitl [T0]; · iexact T0
  isplitl [T1]; · iexact T1
  isplitl [T2]; · iexact T2
  iexact T3

omit [FloatOps F] in
/-- A device's own tokens, chunk by chunk. -/
theorem toks_eq (c : Dev nD) : (toks c : sProp 𝕄) = iprop((dutyTok ER (barCell c) 0 false ∗ dutyTok ER (barCell c) 0 true)
    ∗ bigSep Finset.univ fun j : Fin 16 => iprop(dutyTok ER (dep1Cell c j) 0 false ∗ dutyTok ER (arr1Cell c j) 0 false
        ∗ dutyTok ER (dep2Cell c j) 0 false ∗ dutyTok ER (arr2Cell c j) 0 false)) := by
  unfold toks
  rw [bigSep_bool, bigSep_univ_prod,
    bigSep_congr (s := Finset.univ) fun (j : Fin 16) _ => bigSep_fin4 (fun a : Fin 4 => (dutyTok ER (kcell (c, some (a, j))) 0 false : sProp 𝕄))]

omit [FloatOps F] in
/-- The tokens dealt across the mesh: an entry cell's false token and a phase-1 arrival token go to the second-axis partner,
    an entry cell's true token and a phase-2 arrival token to the first-axis partner; departure tokens stay. -/
theorem toks_around : (bigSep Finset.univ fun c : Dev nD => (toks c : sProp 𝕄)) ⊢ bigSep Finset.univ fun c : Dev nD => payToks c := by
  have e1 := bigSep_univ_equiv ypEquiv (fun c : Dev nD => (dutyTok ER (barCell c) 0 false : sProp 𝕄))
  have e2 := bigSep_univ_equiv xpEquiv (fun c : Dev nD => (dutyTok ER (barCell c) 0 true : sProp 𝕄))
  have e3 := bigSep_univ_equiv ypEquiv (fun c : Dev nD => bigSep Finset.univ fun j : Fin 16 => (dutyTok ER (arr1Cell c j) 0 false : sProp 𝕄))
  have e4 := bigSep_univ_equiv xpEquiv (fun c : Dev nD => bigSep Finset.univ fun j : Fin 16 => (dutyTok ER (arr2Cell c j) 0 false : sProp 𝕄))
  simp only [toks_eq, payToks, bigSep_sep']
  iintro ⟨⟨H1, H2⟩, H3, H4, H5, H6⟩
  ihave H1' := (Entails.of_eq e1) $$ H1
  ihave H2' := (Entails.of_eq e2) $$ H2
  ihave H4' := (Entails.of_eq e3) $$ H4
  ihave H6' := (Entails.of_eq e4) $$ H6
  isplitl [H1' H2']
  · isplitl [H1']; · iexact H1'
    iexact H2'
  isplitl [H3]; · iexact H3
  isplitl [H4']; · iexact H4'
  isplitl [H5]; · iexact H5
  iexact H6'

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, Hz⟩
  isplitr; · iempintro
  isplitl [Hz]; · iexact Hz
  iexists (landVal m ρ c); iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters: given each device's body obligation, every weakly fair execution of the four
    devices terminates, and every final state has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the protocol's final contents of the result staging buffer. -/
theorem finalA_out (c : Dev nD) : finalA m ρ c (1 : Fin 2) = outVal m ρ c := by
  have h1 : finalA m ρ c (1 : Fin 2) = (dats m ρ 0 c).arrAt (1 : Fin 2) ((t0_0 : Fin cfg0.N).val + 1) := rfl
  rw [h1, Dat.arrAt_succ, flush0_1, if_pos rfl]
  exact Memref.write_access_unit_zero_univ (Elt F) main_v1 (funext fun a => Nat.zero_mul _) _ _ _

/-- info: 'Cert.KernelIdealProof.run_main' depends on axioms: [propext, Classical.choice, Quot.sound] -/
#guard_msgs in #print axioms run_main

/-- info: 'Cert.KernelIdealProof.finalA_x' depends on axioms: [propext, Classical.choice, Quot.sound] -/
#guard_msgs in #print axioms finalA_x

/-- info: 'Cert.KernelIdealProof.finalA_out' depends on axioms: [propext, Classical.choice, Quot.sound] -/
#guard_msgs in #print axioms finalA_out

end Cert.KernelIdealProof
end
-- ==== Proof.KProtocol.lean ====
/-
The all-reduce over a 2×2 mesh, as a protocol of semaphore cells.

Device `c` holds a 1024×512 block `X c`. Its own half of the rows is the 512 rows starting at 512·(c / 2), cut in
sixteen chunks of 32 rows; the other half starts at 512·(1 − c / 2).
Phase 1: chunk j of the own half of `X c` goes to chunk j of the landing buffer of `yp c`.
Phase 2: once chunk j has landed, the device adds it to its own chunk j of `X c`, stores the sum in chunk j of the own half
of its result, and sends that chunk to the same rows of the result of `xp c` (whose other half they are).
Phase 3: it waits for the sixteen chunks of its other half to land, and for its own transfers to have left.
Before any transfer it signals both partners' entry semaphore and waits for two units on its own.

Cells of device c: the entry cell (two duties: `false` paid by `yp c`, `true` by `xp c`) and 4 × 16 transfer cells
(one duty each): departure of chunk j in phase 1, arrival of chunk j in the landing buffer, departure of chunk j in
phase 2, arrival of chunk j in the other half of the result.
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import Idealize.ShloMosaic.Lib.Pipeline.Launch
import Idealize.ShloMosaic.Lib.Pipeline.Kit
import Idealize.ShloMosaic.Lib.Ring
import Idealize.ShloMosaic.Lib.Tactic
import Idealize.ShloMosaic.Lib.ValueIdx

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and their chunks -/

abbrev xM : Memref sig .tc .vmem S1024x512 .f32 := Memref.whole cc0_stg0_0
abbrev oM : Memref sig .tc .vmem S1024x512 .f32 := Memref.whole cc0_stg1_0
abbrev rM : Memref sig .tc .vmem S512x512 .f32 := Memref.whole cc0_scratch0

/-- Chunk j of the landing buffer: rows 32 j … 32 j + 31. -/
theorem inbSm (j : Fin 16) : ∀ a, (![32 * j.val, 0] : Fin 2 → Nat) a + S32x512.size a ≤ S512x512.size a := by
  revert j; decide
abbrev rRect (j : Fin 16) : Rect S512x512 := Rect.unit (s := S512x512) ![32 * j.val, 0] S32x512.size (inbSm j)
/-- Chunk j of the device's own half of a 1024-row buffer, and of its other half, at the offsets the program computes. -/
abbrev ownRect (c : Dev nD) (j : Fin 16) : Rect S1024x512 :=
  Rect.unit (s := S1024x512) (k0_off1 c (BitVec.ofNat 32 (32 * j.val))) S32x512.size (k0_off1_inb c j)
abbrev othRect (c : Dev nD) (j : Fin 16) : Rect S1024x512 :=
  Rect.unit (s := S1024x512) (k0_off3 c (BitVec.ofNat 32 (32 * j.val))) S32x512.size (k0_off3_inb c j)

abbrev rSl (j : Fin 16) : Memref sig .tc .vmem S32x512 .f32 := rM.slice (rRect j) (fun _ => rfl)
abbrev xSl (c : Dev nD) (j : Fin 16) : Memref sig .tc .vmem S32x512 .f32 := xM.slice (ownRect c j) (fun _ => rfl)
abbrev oSl (c : Dev nD) (j : Fin 16) : Memref sig .tc .vmem S32x512 .f32 := oM.slice (ownRect c j) (fun _ => rfl)
abbrev pSl (c : Dev nD) (j : Fin 16) : Memref sig .tc .vmem S32x512 .f32 := oM.slice (othRect c j) (fun _ => rfl)

/-! ## The semaphores and cells -/

theorem inb16 (j : Fin 16) : ∀ a, (![j.val] : Fin 1 → Nat) a + S1.size a ≤ S16.size a := by revert j; decide
/-- Semaphore j of one of the four semaphore arrays, as the program names it. -/
abbrev semAt (A : DmaSems sig S16) (j : Fin 16) : DmaSem sig :=
  ((A.slice (Rect.unit (s := S16) ![j.val] S1.size (inb16 j))).squeeze S_ squeezes_S1_S_).sem
abbrev semArr : Fin 4 → DmaSems sig S16 := ![cc0_scratch1, cc0_scratch2, cc0_scratch3, cc0_scratch4]

abbrev barS : Sem sig := (SemArray.scalar (sig.barrier 0 rfl) : Sems sig S_).sem

/-- A device's cells: the entry cell, and the transfer cell (array a, chunk j). -/
abbrev CK : Type := Option (Fin 4 × Fin 16)
abbrev csem : CK → SemLoc sig
  | none => .reg barS
  | some (a, j) => .dma (semAt (semArr a) j)
abbrev kcell (ck : Dev nD × CK) : GSem nD τ sig := ((ck.1 : Thread nD τ), csem ck.2)

abbrev barCell (c : Dev nD) : GSem nD τ sig := kcell (c, none)
abbrev dep1Cell (c : Dev nD) (j : Fin 16) : GSem nD τ sig := kcell (c, some (0, j))
abbrev arr1Cell (c : Dev nD) (j : Fin 16) : GSem nD τ sig := kcell (c, some (1, j))
abbrev dep2Cell (c : Dev nD) (j : Fin 16) : GSem nD τ sig := kcell (c, some (2, j))
abbrev arr2Cell (c : Dev nD) (j : Fin 16) : GSem nD τ sig := kcell (c, some (3, j))

/-- The units one chunk's transfer credits. -/
abbrev N : ℕ := (rSl 0 : Memref sig .tc .vmem S32x512 .f32).view.dmaCredit
theorem N_pos : 0 < N := View.dmaCredit_pos _ (by decide)

/-! ## Contents -/

/-- What device c's input staging buffer holds once fetched: its block. -/
def X (c : Dev nD) : (cc0_stg0_0 : Ref sig .tc).ty.Contents (Elt F) :=
  (win0_0.blk (0 : Fin 1)).view.read (Elt F) ((s₀ m ρ).mem ((c : Thread nD τ).loc main_arg0))

/-- The sum of device c's block and its second-axis partner's, entry by entry (the float addition of the instance). -/
def pairSum (c : Dev nD) : (cc0_stg1_0 : Ref sig .tc).ty.Contents (Elt F) :=
  fun i => FloatOps.addf (X m ρ c i) (X m ρ (yp c) i)

/-- Row r belongs to device c's own half. -/
abbrev ownRow (c : Dev nD) (r : ℕ) : Prop := r / 512 = c.val / 2

/-- What device c's result staging buffer holds at the end: on its own half its pair sum, on the other half its first-axis
    partner's pair sum. -/
def outVal (c : Dev nD) : (cc0_stg1_0 : Ref sig .tc).ty.Contents (Elt F) :=
  fun i => if ownRow c (i 0).val then pairSum m ρ c i else pairSum m ρ (xp c) i

/-- What device c's landing buffer holds at the end: the own-half rows of its second-axis partner's block. -/
def landVal (c : Dev nD) : (cc0_scratch0 : Ref sig .tc).ty.Contents (Elt F) :=
  fun i => X m ρ (yp c) (ValueIdx.ix2 (⟨512 * (c.val / 2) + (i 0).val, by have := ValueIdx.idx2_lt0 i; have hc : c.val < 4 := c.isLt; omega⟩ : Fin 1024)
    (⟨(i 1).val, ValueIdx.idx2_lt1 i⟩ : Fin 512))

/-! ## The buffers' chunks as assertions -/

/-- Chunk j of the landing buffer on device d, held whole at contents f. -/
def rPts (d : Dev nD) (j : Fin 16) (f : Buf (Elt F) ((rSl j).view.loc (d : Thread nD τ))) : sProp 𝕄 :=
  (rSl j).view.loc (d : Thread nD τ) ↦[(rSl j).view.set]{fullShare} f
/-- Chunk j of device c's own half of its input staging buffer, held at share q. -/
def xPts (c : Dev nD) (j : Fin 16) (q : PosShare TreeShare) : sProp 𝕄 :=
  (xSl c j).view.loc (c : Thread nD τ) ↦[(xSl c j).view.set]{q} X m ρ c
/-- Rows of the result staging buffer ON DEVICE d at the place of device c's own chunk j (for d the first-axis partner of c
    these are chunk j of d's other half), held whole at contents f. -/
def oPts (d c : Dev nD) (j : Fin 16) (f : Buf (Elt F) ((oSl c j).view.loc (d : Thread nD τ))) : sProp 𝕄 :=
  (oSl c j).view.loc (d : Thread nD τ) ↦[(oSl c j).view.set]{fullShare} f

/-- The sixteen chunk indices in program order. -/
abbrev js : List (Fin 16) := [0, 1, 2, 3, 4, 5, 6, 7, 8, 9, 10, 11, 12, 13, 14, 15]

/-! ## The schedule -/

/-- What the second-axis partner's entry signal hands device c: that partner's landing buffer, chunk by chunk. -/
def barPayY (c : Dev nD) : sProp 𝕄 := bigSepL js fun j => iprop(∃ f, rPts (yp c) j f)
/-- What the first-axis partner's entry signal hands device c: on that partner, the rows of its result buffer at device
    c's own half, chunk by chunk. -/
def barPayX (c : Dev nD) : sProp 𝕄 := bigSepL js fun j => iprop(∃ f, oPts (xp c) c j f)

/-- The payload of each duty of device c's cells. -/
def payOf (c : Dev nD) : CK → Bool → sProp 𝕄
  | none, false => barPayY c
  | none, true => barPayX c
  | some (a, j), _ =>
    if a = 0 then xPts m ρ c j fullShare.right
    else if a = 1 then rPts c j (landVal m ρ c)
    else if a = 2 then oPts c c j (outVal m ρ c)
    else oPts c (xp c) j (outVal m ρ c)

theorem csem_some_ne_bar (aj : Fin 4 × Fin 16) : csem (some aj) ≠ .reg barS := fun h => by cases h

/-- One round, round 0. The entry cell has two duties of one unit; a transfer cell one duty of a chunk's credit. -/
def Rd : Rounds.Schedule (GSem nD τ sig) Bool 𝕄 where
  duties g r := if r = 0 ∧ g.1.2 = .tc then (if g.2 = .reg barS then Finset.univ else if ∃ aj, csem (some aj) = g.2 then {false} else ∅) else ∅
  unitless _ := False
  amount g _ _ := if g.2 = .reg barS then 1 else N
  payload g _ d := if h : ∃ k : CK, csem k = g.2 then payOf m ρ g.1.1 (Classical.choose h) d else iprop(emp)
  amount_pos g _ _ _ := by
    by_cases h : g.2 = .reg barS
    · rw [if_pos h]; exact Nat.one_pos
    · rw [if_neg h]; exact N_pos

/-! ## What each device owes at launch; the levels -/

/-- The tallies of a list of (cell, amount) pairs, the head of the list the LAST summand: paying the head leaves the tail's. -/
def oweL : List (GSem nD τ sig × ℕ) → CellTallies nD τ sig Unit
  | [] => 0
  | p :: l => oweL l + tallyAt p.1 () p.2

/-- What device c pays, in the order it pays it: the two entry signals, the sixteen arrivals at its second-axis partner,
    the sixteen arrivals at its first-axis partner. -/
def payList (c : Dev nD) : List (GSem nD τ sig × ℕ) :=
  (barCell (yp c), 1) :: (barCell (xp c), 1) :: (js.map fun j => (arr1Cell (yp c) j, N)) ++ (js.map fun j => (arr2Cell (xp c) j, N))

def O₀ (c : Dev nD) : CellTallies nD τ sig Unit := oweL (payList c)

def L (g : GSem nD τ sig) : Finset Unit := if g.1.2 = .tc then {()} else ∅
/-- Entry cells at level 1, phase-1 arrival cells at 2, phase-2 arrival cells at 3, everything else (staging, departures) at 0. -/
def lv (g : GSem nD τ sig) (_ : Unit) : ℕ :=
  if g.2 = .reg barS then 1 else if ∃ j, g.2 = csem (some (1, j)) then 2 else if ∃ j, g.2 = csem (some (3, j)) then 3 else 0

/-! ## The ghost state of a device -/

/-- The cells' invariants at the names the launch allocated them at, and that round 0 of every cell is reached. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

/-- Per chunk: the four positions of device c's own cells and the four tokens of the duties it pays. -/
def chunkGhost (c : Dev nD) (j : Fin 16) : sProp 𝕄 :=
  iprop(atPos ER (dep1Cell c j) 0 ∅ 0 ∗ atPos ER (arr1Cell c j) 0 ∅ 0 ∗ atPos ER (dep2Cell c j) 0 ∅ 0 ∗ atPos ER (arr2Cell c j) 0 ∅ 0
    ∗ dutyTok ER (dep1Cell c j) 0 false ∗ dutyTok ER (arr1Cell (yp c) j) 0 false
    ∗ dutyTok ER (dep2Cell c j) 0 false ∗ dutyTok ER (arr2Cell (xp c) j) 0 false)

/-- What stays with device c: its entry cell's position, the two entry tokens it pays with, and the chunks' ghost state. -/
def linear (c : Dev nD) : sProp 𝕄 :=
  iprop(atPos ER (barCell c) 0 ∅ 0 ∗ dutyTok ER (barCell (yp c)) 0 false ∗ dutyTok ER (barCell (xp c)) 0 true
    ∗ bigSepL js (chunkGhost c))

def ghost (K : Dev nD × CK → ℕ) (c : Dev nD) : sProp 𝕄 := iprop(records m ρ K ∗ linear c)

/-- The credit tokens the launch deals device c: two units on its entry cell, a chunk's credit on each arrival cell. -/
def launchCreds (c : Dev nD) : sProp 𝕄 :=
  iprop(cred (tallyAt (barCell c) () 2) ∗ (bigSepL js fun j => cred (tallyAt (arr1Cell c j) () N)) ∗ bigSepL js fun j => cred (tallyAt (arr2Cell c j) () N))

def start (c : Dev nD) : sProp 𝕄 := iprop((∃ K, ghost m ρ K c) ∗ launchCreds c ∗ levAts L lv)

def Φ₀ (c : Dev nD) : sProp 𝕄 := iprop(start m ρ c ∗ ∃ f, ((c : Thread nD τ).loc cc0_scratch0) ↦{fullShare} f)
/-- After the point: the landing buffer holding the partner's rows, the 64 own cells closed at zero. -/
def Φ₁ (c : Dev nD) : sProp 𝕄 :=
  iprop((((c : Thread nD τ).loc cc0_scratch0) ↦{fullShare} landVal m ρ c)
    ∗ bigSep Finset.univ fun aj : Fin 4 × Fin 16 => semVal (kcell (c, some aj)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outVal m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelProof
end
-- ==== Proof.KTables.lean ====
/-
The schedule's tables: which duties each cell has, their amounts, a round's expected units, the payloads, and that the
cells of the protocol are pairwise distinct.
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import proofs.«900139_g7700000000000140_dist_ar_v7x_xy2x2_y_m1024_n512_f32_1_alg».proof.Proof.KProtocol
import Idealize.ShloMosaic.Lib.Pipeline.Launch
import Idealize.ShloMosaic.Lib.Pipeline.Kit
import Idealize.ShloMosaic.Lib.Ring
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are distinct -/

/-- Semaphore j of array a is DMA semaphore number 2 + 16 a + j. -/
theorem semAt_val (a : Fin 4) (j : Fin 16) : (semAt (semArr a) j).val = 2 + 16 * a.val + j.val := by
  revert a j; decide

theorem csem_injective : Function.Injective (csem : CK → SemLoc sig) := by
  rintro (_ | ⟨a, j⟩) (_ | ⟨a', j'⟩) h
  · rfl
  · cases h
  · cases h
  · have hv : (semAt (semArr a) j).val = (semAt (semArr a') j').val := congrArg Fin.val (SemLoc.dma.inj h)
    rw [semAt_val, semAt_val] at hv
    have ha : a = a' := Fin.ext (by omega)
    have hj : j = j' := Fin.ext (by omega)
    rw [ha, hj]

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

theorem choose_csem (k : CK) (h : ∃ k', csem k' = csem k) : Classical.choose h = k :=
  csem_injective (Classical.choose_spec h)

/-! ## The tables -/

section Sched
variable (c : Dev nD)

theorem duties_bar : (Rd (F := F) m ρ).duties (barCell c) 0 = Finset.univ := by
  dsimp only [Rd]; rw [if_pos ⟨rfl, rfl⟩, if_pos rfl]
theorem duties_x (aj : Fin 4 × Fin 16) : (Rd (F := F) m ρ).duties (kcell (c, some aj)) 0 = {false} := by
  dsimp only [Rd]; rw [if_pos ⟨rfl, rfl⟩, if_neg (csem_some_ne_bar aj), if_pos ⟨aj, rfl⟩]
theorem duties_later (g : GSem nD τ sig) : ∀ r, 1 ≤ r → (Rd (F := F) m ρ).duties g r = ∅ :=
  fun r hr => by dsimp only [Rd]; rw [if_neg fun h => by omega]
theorem amount_bar (d : Bool) : (Rd (F := F) m ρ).amount (barCell c) 0 d = 1 := by
  dsimp only [Rd]; exact if_pos rfl
theorem amount_x (aj : Fin 4 × Fin 16) (d : Bool) : (Rd (F := F) m ρ).amount (kcell (c, some aj)) 0 d = N := by
  dsimp only [Rd]; exact if_neg (csem_some_ne_bar aj)
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_x (aj : Fin 4 × Fin 16) : (Rd (F := F) m ρ).expect (kcell (c, some aj)) 0 = N := by
  unfold Schedule.expect Schedule.amountOf; rw [duties_x, Finset.sum_singleton, amount_x]
theorem payload_eq (k : CK) (r : ℕ) (d : Bool) : (Rd m ρ).payload (kcell (c, k)) r d = payOf m ρ c k d := by
  show (if h : ∃ k' : CK, csem k' = csem k then payOf m ρ c (Classical.choose h) d else iprop(emp)) = payOf m ρ c k d
  rw [dif_pos ⟨k, rfl⟩, choose_csem]
/-- The rest of the entry cell's round, no duty taken: both partners' payloads. -/
theorem rest_bar : bigSep ((Rd m ρ).duties (barCell c) 0 \ ∅) (fun d => (Rd m ρ).payload (barCell c) 0 d) = iprop(barPayY c ∗ barPayX c) := by
  rw [Finset.sdiff_empty, duties_bar, bigSep_univ_eq_bigSepL [false, true] (by decide) (by decide), bigSepL_cons_cons, bigSepL_singleton,
    payload_eq, payload_eq]
  rfl
/-- The rest of a transfer cell's round: its one duty's payload. -/
theorem rest_x (aj : Fin 4 × Fin 16) :
    bigSep ((Rd m ρ).duties (kcell (c, some aj)) 0 \ ∅) (fun d => (Rd m ρ).payload (kcell (c, some aj)) 0 d) = payOf m ρ c (some aj) false := by
  rw [Finset.sdiff_empty, duties_x, bigSep_singleton, payload_eq]

end Sched

/-- A chain of storable assertions over a list is storable. -/
theorem storable_bigSepL {I : Type} (l : List I) (Φ : I → sProp 𝕄) (h : ∀ i, BI.Storable (upEmb : UEmb _ 𝕄) (Φ i)) :
    BI.Storable (upEmb : UEmb _ 𝕄) (bigSepL l Φ) := by
  induction l with
  | nil => rw [bigSepL_nil]; exact BI.Storable.emp _
  | cons i l ih => rw [bigSepL_cons]; exact BI.Storable.sep _ _ _

instance payOf_storable (c : Dev nD) (k : CK) (d : Bool) : BI.Storable (upEmb : UEmb _ 𝕄) (payOf m ρ c k d) := by
  rcases k with _ | ⟨a, j⟩
  · cases d
    · show BI.Storable upEmb (barPayY c)
      unfold barPayY rPts; exact storable_bigSepL _ _ fun j => inferInstance
    · show BI.Storable upEmb (barPayX c)
      unfold barPayX oPts; exact storable_bigSepL _ _ fun j => inferInstance
  · show BI.Storable upEmb (if a = 0 then xPts m ρ c j fullShare.right else if a = 1 then rPts c j (landVal m ρ c)
      else if a = 2 then oPts c c j (outVal m ρ c) else oPts c (xp c) j (outVal m ρ c))
    unfold xPts rPts oPts
    (repeat' split) <;> infer_instance

instance Rd_payload_storable (g : GSem nD τ sig) (r : ℕ) (d : Bool) :
    BI.Storable (upEmb : UEmb _ 𝕄) ((Rd m ρ).payload g r d) := by
  show BI.Storable upEmb (if h : ∃ k : CK, csem k = g.2 then payOf m ρ g.1.1 (Classical.choose h) d else iprop(emp))
  split <;> infer_instance

/-- info: 'Cert.KernelProof.kcell_injective' depends on axioms: [propext, Classical.choice, Quot.sound] -/
#guard_msgs in #print axioms kcell_injective

/-- info: 'Cert.KernelProof.rest_bar' depends on axioms: [propext, Classical.choice, Quot.sound] -/
#guard_msgs in #print axioms rest_bar

/-- info: 'Cert.KernelProof.rest_x' depends on axioms: [propext, Classical.choice, Quot.sound] -/
#guard_msgs in #print axioms rest_x

/-- info: 'Cert.KernelProof.Rd_payload_storable' depends on axioms: [propext, Classical.choice, Quot.sound] -/
#guard_msgs in #print axioms Rd_payload_storable

end Cert.KernelProof
end
-- ==== Proof.KLevels.lean ====
/-
The deadlock argument: the levels of the cells, that every wait of a device sits below everything the device still owes,
and that the credit the launch deals a device is what its partners owe its cells.
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import proofs.«900139_g7700000000000140_dist_ar_v7x_xy2x2_y_m1024_n512_f32_1_alg».proof.Proof.KProtocol
import Idealize.ShloMosaic.Lib.Pipeline.Launch
import Idealize.ShloMosaic.Lib.Pipeline.Kit
import Idealize.ShloMosaic.Lib.Ring
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

/-- What device c still owes after its two entry signals: the thirty-two arrivals. -/
abbrev owedAfterEntry (c : Dev nD) : CellTallies nD τ sig Unit :=
  oweL ((js.map fun j => (arr1Cell (yp c) j, N)) ++ (js.map fun j => (arr2Cell (xp c) j, N)))
/-- What device c still owes when it waits for chunk j of phase 1 to land: the phase-2 arrivals of chunks j, j + 1, …. -/
abbrev owedPhase2 (c : Dev nD) (l : List (Fin 16)) : CellTallies nD τ sig Unit :=
  oweL (l.map fun j => (arr2Cell (xp c) j, N))

/-! ## The cells' numbers and levels -/

/-- Semaphore j of array a is number 2 + 16 a + j of the device's pool (numbers 0 and 1 are the staging semaphores). -/
theorem semAt_val' (a : Fin 4) (j : Fin 16) : (semAt (semArr a) j).val = 2 + 16 * a.val + j.val := by
  revert a j; decide

/-- Distinct (array, chunk) pairs name distinct semaphores. -/
theorem csem_some_inj {a a' : Fin 4} {j j' : Fin 16} (h : csem (some (a, j)) = csem (some (a', j'))) : a = a' ∧ j = j' := by
  have h1 : semAt (semArr a) j = semAt (semArr a') j' := SemLoc.dma.inj h
  have h2 := congrArg Fin.val h1
  rw [semAt_val', semAt_val'] at h2
  have := a.isLt; have := a'.isLt; have := j.isLt; have := j'.isLt
  constructor <;> apply Fin.ext <;> omega

theorem lv_bar (t : Thread nD τ) (u : Unit) : lv (t, .reg barS) u = 1 := by
  dsimp only [lv]; rw [if_pos rfl]

theorem lv_arr1 (t : Thread nD τ) (j : Fin 16) (u : Unit) : lv (t, csem (some (1, j))) u = 2 := by
  dsimp only [lv]; rw [if_neg (csem_some_ne_bar _), if_pos ⟨j, rfl⟩]

theorem lv_arr2 (t : Thread nD τ) (j : Fin 16) (u : Unit) : lv (t, csem (some (3, j))) u = 3 := by
  dsimp only [lv]
  rw [if_neg (csem_some_ne_bar _), if_neg (fun ⟨j', h⟩ => absurd (csem_some_inj h).1 (by decide)), if_pos ⟨j, rfl⟩]

/-- The two staging semaphores, numbers 0 and 1, are at level 0. -/
theorem lv_low (t : Thread nD τ) (q : DmaSem sig) (hq : q.val < 2) (u : Unit) : lv (t, .dma q) u = 0 := by
  dsimp only [lv]
  rw [if_neg (fun h => by cases h),
    if_neg (fun ⟨j, h⟩ => by have h2 := congrArg Fin.val (SemLoc.dma.inj h); rw [semAt_val'] at h2; omega),
    if_neg (fun ⟨j, h⟩ => by have h2 := congrArg Fin.val (SemLoc.dma.inj h); rw [semAt_val'] at h2; omega)]

/-! ## Where a list of dues is positive -/

theorem oweL_cons (g : GSem nD τ sig) (n : ℕ) (l : List (GSem nD τ sig × ℕ)) : oweL ((g, n) :: l) = oweL l + tallyAt g () n := rfl

theorem oweL_pos {l : List (GSem nD τ sig × ℕ)} {g : GSem nD τ sig} {u : Unit} (h : 0 < oweL l g u) : ∃ p ∈ l, g = p.1 := by
  induction l with
  | nil => exact absurd h (Nat.lt_irrefl 0)
  | cons p l ih =>
    obtain ⟨g', n⟩ := p
    rw [oweL_cons, Pi.add_apply, Finsupp.add_apply, tallyAt_apply] at h
    by_cases hp : g = g' ∧ u = ()
    · exact ⟨(g', n), List.mem_cons_self .., hp.1⟩
    · rw [if_neg hp, Nat.add_zero] at h
      obtain ⟨q, hq, hg⟩ := ih h
      exact ⟨q, List.mem_cons_of_mem _ hq, hg⟩

theorem mem_map_cell {f : Fin 16 → GSem nD τ sig} {l : List (Fin 16)} {p : GSem nD τ sig × ℕ} (h : p ∈ l.map fun j => (f j, N)) :
    ∃ j, p.1 = f j := by
  obtain ⟨j, -, rfl⟩ := List.mem_map.mp h
  exact ⟨j, rfl⟩

theorem owedAfterEntry_pos {c : Dev nD} {g : GSem nD τ sig} {u : Unit} (h : 0 < owedAfterEntry c g u) :
    (∃ j, g = arr1Cell (yp c) j) ∨ ∃ j, g = arr2Cell (xp c) j := by
  obtain ⟨p, hp, rfl⟩ := oweL_pos h
  rcases List.mem_append.mp hp with hp | hp
  · exact Or.inl (mem_map_cell hp)
  · exact Or.inr (mem_map_cell hp)

theorem O₀_pos {c : Dev nD} {g : GSem nD τ sig} {u : Unit} (h : 0 < O₀ c g u) :
    g = barCell (yp c) ∨ g = barCell (xp c) ∨ (∃ j, g = arr1Cell (yp c) j) ∨ ∃ j, g = arr2Cell (xp c) j := by
  obtain ⟨p, hp, rfl⟩ := oweL_pos h
  rcases List.mem_append.mp hp with hp | hp
  · rcases List.mem_cons.mp hp with rfl | hp
    · exact Or.inl rfl
    rcases List.mem_cons.mp hp with rfl | hp
    · exact Or.inr (Or.inl rfl)
    · exact Or.inr (Or.inr (Or.inl (mem_map_cell hp)))
  · exact Or.inr (Or.inr (Or.inr (mem_map_cell hp)))

omit [FloatOps F] in
/-- A wait on a cell of level 0 (a staging or a departure semaphore) is below all a device ever owes. -/
theorem mayWait_low (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq hq) (fun g u hg => ?_)
    · rcases O₀_pos hg with rfl | rfl | ⟨j, rfl⟩ | ⟨j, rfl⟩ <;> (rw [L_tc]; exact Finset.mem_singleton_self _)
    · rcases O₀_pos hg with rfl | rfl | ⟨j, rfl⟩ | ⟨j, rfl⟩
      · rw [lv_bar]; decide
      · rw [lv_bar]; decide
      · rw [lv_arr1]; decide
      · rw [lv_arr2]; decide
  · rw [MayWait_zero]; iintro -; iempintro

omit [FloatOps F] in
/-- At its entry wait a device owes arrivals only: cells of levels 2 and 3, above its entry cell's level 1. -/
theorem mayWait_bar (c : Dev nD) :
    (levAts L lv : sProp 𝕄) ⊢ MayWait (c : Thread nD τ) (.reg barS) () (owedAfterEntry c) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact le_of_eq (lv_bar _ _)) (fun g u hg => ?_)
  · rcases owedAfterEntry_pos hg with ⟨j, rfl⟩ | ⟨j, rfl⟩ <;> (rw [L_tc]; exact Finset.mem_singleton_self _)
  · rcases owedAfterEntry_pos hg with ⟨j, rfl⟩ | ⟨j, rfl⟩
    · rw [lv_arr1]; decide
    · rw [lv_arr2]; decide

omit [FloatOps F] in
/-- At its wait for a phase-1 arrival (level 2) a device owes phase-2 arrivals only (level 3). -/
theorem mayWait_arr1 (c : Dev nD) (j : Fin 16) (l : List (Fin 16)) :
    (levAts L lv : sProp 𝕄) ⊢ MayWait (c : Thread nD τ) (csem (some (1, j))) () (owedPhase2 c l) := by
  have hpos {g : GSem nD τ sig} {u : Unit} (hg : 0 < owedPhase2 c l g u) : ∃ j', g = arr2Cell (xp c) j' := by
    obtain ⟨p, hp, rfl⟩ := oweL_pos hg
    exact mem_map_cell hp
  refine MayOwe.of_cut (L := L) (lev := lv) 2 (fun p hp => by rw [Finset.mem_singleton.mp hp, L_tc]; exact Finset.mem_singleton_self _)
    (fun g u hg => ?_) (fun p hp => by rw [Finset.mem_singleton.mp hp]; exact le_of_eq (lv_arr1 _ _ _)) (fun g u hg => ?_)
  · obtain ⟨j', rfl⟩ := hpos hg
    rw [L_tc]; exact Finset.mem_singleton_self _
  · obtain ⟨j', rfl⟩ := hpos hg
    rw [lv_arr2]; decide

/-- The staging semaphores' waits, at every point's debt. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (lv_low _ _ (by fin_cases w <;> fin_cases s <;> decide) _) _ (by
      rcases t with ⟨_ | _, ht⟩
      · exact Or.inl rfl
      · exact Or.inr rfl)

/-! ## The launch credit -/

/-- A chunk's credit on each of the cells f j, j in l, as one tally. -/
def chunkTallies (f : Fin 16 → GSem nD τ sig) : List (Fin 16) → CellTallies nD τ sig Unit
  | [] => 0
  | j :: l => tallyAt (f j) () N + chunkTallies f l

theorem chunkTallies_cons (f : Fin 16 → GSem nD τ sig) (j : Fin 16) (l : List (Fin 16)) :
    chunkTallies f (j :: l) = tallyAt (f j) () N + chunkTallies f l := rfl

/-- What the partners of device d owe d's cells between them. -/
abbrev ownCredit (d : Dev nD) : CellTallies nD τ sig Unit :=
  tallyAt (barCell d) () 2 + (chunkTallies (arr1Cell d) js + chunkTallies (arr2Cell d) js)

theorem oweL_map (f : Fin 16 → GSem nD τ sig) (l : List (Fin 16)) : oweL (l.map fun j => (f j, N)) = chunkTallies f l := by
  induction l with
  | nil => rfl
  | cons j l ih => rw [List.map_cons, oweL_cons, ih, chunkTallies_cons, add_comm]

theorem oweL_append (l₁ l₂ : List (GSem nD τ sig × ℕ)) : oweL (l₁ ++ l₂) = oweL l₂ + oweL l₁ := by
  induction l₁ with
  | nil => exact (add_zero _).symm
  | cons p l₁ ih =>
    obtain ⟨g, n⟩ := p
    rw [List.cons_append, oweL_cons, ih, oweL_cons, add_assoc]

/-- What device c owes, by cell: a unit on each partner's entry cell, a chunk's credit on each phase-1 arrival cell of its
    second-axis partner and on each phase-2 arrival cell of its first-axis partner. -/
theorem O₀_eq (c : Dev nD) :
    O₀ c = chunkTallies (arr2Cell (xp c)) js + ((chunkTallies (arr1Cell (yp c)) js + tallyAt (barCell (xp c)) () 1) + tallyAt (barCell (yp c)) () 1) := by
  unfold O₀ payList
  rw [oweL_append, oweL_cons, oweL_cons, oweL_map, oweL_map]

theorem add_rearrange {M : Type} [AddCommMonoid M] (a b c : M) : c + ((b + a) + a) = (a + a) + (b + c) := by
  rw [add_comm c, add_assoc b a a, add_comm b (a + a), add_assoc]

theorem sum_yp {M : Type} [AddCommMonoid M] (g : Dev nD → M) : ∑ d, g (yp d) = ∑ d, g d := Equiv.sum_comp ypEquiv g
theorem sum_xp {M : Type} [AddCommMonoid M] (g : Dev nD → M) : ∑ d, g (xp d) = ∑ d, g d := Equiv.sum_comp xpEquiv g

/-- Summed over the devices, what they owe is what their cells are owed: the partner maps are bijections of the mesh. -/
theorem sum_O₀ : ∑ d, O₀ d = ∑ d : Dev nD, ownCredit d := by
  have h1 : ∑ d : Dev nD, chunkTallies (arr2Cell (xp d)) js = ∑ d : Dev nD, chunkTallies (arr2Cell d) js := sum_xp fun d => chunkTallies (arr2Cell d) js
  have h2 : ∑ d : Dev nD, chunkTallies (arr1Cell (yp d)) js = ∑ d : Dev nD, chunkTallies (arr1Cell d) js := sum_yp fun d => chunkTallies (arr1Cell d) js
  have h3 : ∑ d : Dev nD, (tallyAt (barCell (xp d)) () 1 : CellTallies nD τ sig Unit) = ∑ d : Dev nD, tallyAt (barCell d) () 1 := sum_xp fun d => tallyAt (barCell d) () 1
  have h4 : ∑ d : Dev nD, (tallyAt (barCell (yp d)) () 1 : CellTallies nD τ sig Unit) = ∑ d : Dev nD, tallyAt (barCell d) () 1 := sum_yp fun d => tallyAt (barCell d) () 1
  have h5 (d : Dev nD) : (tallyAt (barCell d) () 2 : CellTallies nD τ sig Unit) = tallyAt (barCell d) () 1 + tallyAt (barCell d) () 1 := (tallyAt_add _ _ 1 1).symm
  rw [Finset.sum_congr rfl fun d _ => O₀_eq d, Finset.sum_add_distrib, Finset.sum_add_distrib, Finset.sum_add_distrib, h1, h2, h3, h4]
  unfold ownCredit
  rw [Finset.sum_add_distrib, Finset.sum_add_distrib, Finset.sum_congr rfl fun d _ => h5 d, Finset.sum_add_distrib]
  exact add_rearrange _ _ _

theorem chunkTallies_ne (f : Fin 16 → GSem nD τ sig) (l : List (Fin 16)) {g : GSem nD τ sig} (h : ∀ j, g ≠ f j) : chunkTallies f l g = 0 := by
  induction l with
  | nil => rfl
  | cons j l ih => rw [chunkTallies_cons, Pi.add_apply, tallyAt_ne_cell (h j), ih, add_zero]

/-- A device's credit sits on its own cells only. -/
theorem ownCredit_own (d : Dev nD) (g : GSem nD τ sig) (h : ownCredit d g ≠ 0) : g.1 = (d.tc : Thread nD τ) := by
  by_contra hne
  have hk (k : CK) : g ≠ kcell (d, k) := fun e => hne (congrArg Prod.fst e)
  refine h ?_
  unfold ownCredit
  rw [Pi.add_apply, Pi.add_apply, tallyAt_ne_cell (hk none), chunkTallies_ne _ _ (fun j => hk (some (1, j))),
    chunkTallies_ne _ _ (fun j => hk (some (3, j))), add_zero, add_zero]

omit [FloatOps F] in
theorem cred_chunkTallies (f : Fin 16 → GSem nD τ sig) (l : List (Fin 16)) :
    (cred (chunkTallies f l) : sProp 𝕄) ⊢ bigSepL l fun j => cred (tallyAt (f j) () N) := by
  induction l with
  | nil => exact Entails.of_eq cred_zero
  | cons j l ih =>
    rw [bigSepL_cons, chunkTallies_cons]
    exact (cred_add _ _).1.trans (sep_mono_right ih)

omit [FloatOps F] in
/-- The launch credit of device c: two units on its entry cell (one from each partner), a chunk's credit on each of its
    arrival cells (phase 1 from its second-axis partner, phase 2 from its first-axis partner). -/
theorem creds (c : Dev nD) : (Pipeline.launchCred O₀ c : sProp 𝕄) ⊢ launchCreds c := by
  rw [Pipeline.launchCred_of_sum O₀ ownCredit sum_O₀ ownCredit_own c]
  unfold launchCreds
  exact (cred_add _ _).1.trans (sep_mono_right ((cred_add _ _).1.trans (BI.sep_mono (cred_chunkTallies _ _) (cred_chunkTallies _ _))))

/-- info: 'Cert.KernelProof.mayWait_low' depends on axioms: [propext, Classical.choice, Quot.sound] -/
#guard_msgs in #print axioms mayWait_low

/-- info: 'Cert.KernelProof.mayWait_bar' depends on axioms: [propext, Classical.choice, Quot.sound] -/
#guard_msgs in #print axioms mayWait_bar

/-- info: 'Cert.KernelProof.mayWait_arr1' depends on axioms: [propext, Classical.choice, Quot.sound] -/
#guard_msgs in #print axioms mayWait_arr1

/-- info: 'Cert.KernelProof.waits' depends on axioms: [propext, Classical.choice, Quot.sound] -/
#guard_msgs in #print axioms waits

/-- info: 'Cert.KernelProof.creds' depends on axioms: [propext, Classical.choice, Quot.sound] -/
#guard_msgs in #print axioms creds

end Cert.KernelProof
end
-- ==== Proof.KRegions.lean ====
/-
A buffer held whole is held chunk by chunk, and back: the landing buffer as its sixteen chunks; the two 1024-row staging
buffers as the sixteen chunks of the device's own half and the sixteen of its other half (which are the own-half chunks of
its first-axis partner).
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import proofs.«900139_g7700000000000140_dist_ar_v7x_xy2x2_y_m1024_n512_f32_1_alg».proof.Proof.KProtocol
import Idealize.ShloMosaic.Lib.Pipeline.Launch
import Idealize.ShloMosaic.Lib.Pipeline.Kit
import Idealize.ShloMosaic.Lib.Ring
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists -/

section Lists
variable {M : Type _} [URA M] {I J : Type _}

theorem bigSepL_map (g : I → J) (l : List I) (Φ : J → sProp M) : bigSepL (l.map g) Φ = bigSepL l fun i => Φ (g i) := by
  induction l with
  | nil => rfl
  | cons i l ih => rw [List.map_cons, bigSepL_cons, bigSepL_cons, ih]

theorem bigSepL_congr (l : List I) {Φ Ψ : I → sProp M} (h : ∀ i, Φ i = Ψ i) : bigSepL l Φ = bigSepL l Ψ := by
  rw [show Φ = Ψ from funext h]

theorem bigSepL_mono (l : List I) {Φ Ψ : I → sProp M} (h : ∀ i, Φ i ⊢ Ψ i) : bigSepL l Φ ⊢ bigSepL l Ψ := by
  induction l with
  | nil => exact .refl
  | cons i l ih => rw [bigSepL_cons, bigSepL_cons]; exact BIClass.sep_mono (h i) ih

end Lists

/-! ## The landing buffer: sixteen chunks of 32 rows -/

theorem rRect_disjoint (j j' : Fin 16) (h : j ≠ j') : Disjoint (rRect j).set (rRect j').set :=
  Ring.lead_disjoint (s := S512x512) (NB := 16) (0 : Fin 2) 32 (fun j => ![32 * j.val, 0]) S32x512.size inbSm (fun _ => rfl) rfl j j' h

theorem rRect_cover : Finset.univ.biUnion (fun j : Fin 16 => (rRect j).set) = Finset.univ :=
  Ring.lead_cover (s := S512x512) (NB := 16) (0 : Fin 2) 32 (fun j => ![32 * j.val, 0]) S32x512.size inbSm (fun _ => rfl)
    (fun b a ha => match a, ha with | 0, ha => absurd rfl ha | 1, _ => rfl) rfl
    (fun a ha => match a, ha with | 0, ha => absurd rfl ha | 1, _ => rfl) (by decide)

theorem rSl_set (j : Fin 16) : (rSl j).view.set = (rRect j).set := View.set_slice_whole cc0_scratch0 (rRect j)

omit [FloatOps F] in
/-- The landing buffer on device d, whole at f, is its sixteen chunks at f. -/
theorem scr_chunks (d : Dev nD) (f : Buf (Elt F) ((d : Thread nD τ).loc cc0_scratch0)) :
    ((((d : Thread nD τ).loc cc0_scratch0) ↦{fullShare} f : sProp 𝕄)) = bigSepL js fun j => rPts d j f := by
  rw [Ring.pointsTo_blocks (fun j : Fin 16 => (rRect j).set) rRect_disjoint rRect_cover f,
    bigSep_univ_eq_bigSepL js (by decide) (by decide)]
  refine bigSepL_congr js fun j => ?_
  unfold rPts; rw [rSl_set]

omit [FloatOps F] in
/-- Whole at some contents: chunk by chunk at some contents. -/
theorem scr_chunks_ex (d : Dev nD) :
    (iprop(∃ f, ((d : Thread nD τ).loc cc0_scratch0) ↦{fullShare} f) : sProp 𝕄) ⊢ bigSepL js fun j => iprop(∃ f, rPts (F := F) d j f) := by
  refine BIClass.exists_elim fun f => ?_
  rw [scr_chunks d f]
  exact bigSepL_mono js fun j => BIClass.exists_intro (Φ := fun f => rPts d j f) f

/-! ## The 1024-row buffers: the sixteen chunks of a half -/

/-- Membership in chunk j of device e's own half is a condition on the row alone. -/
theorem mem_own (e : Dev nD) (j : Fin 16) (i : S1024x512.Idx) :
    i ∈ (ownRect e j).set ↔ 512 * (e.val / 2) + 32 * j.val ≤ (i 0).val ∧ (i 0).val < 512 * (e.val / 2) + 32 * j.val + 32 := by
  rw [Rect.mem_set_unit, k0_off1_eq]
  constructor
  · intro h; exact h 0
  · intro h
    have h1 : (i 1).val < 512 := (i 1).isLt
    exact Fin.forall_fin_two.mpr ⟨h, Nat.zero_le _, by show (i 1).val < 0 + 512; omega⟩

/-- Chunks of different halves, or different chunks of one half, share no element. -/
theorem own_disjoint (e e' : Dev nD) (j j' : Fin 16) (h : e.val / 2 ≠ e'.val / 2 ∨ j ≠ j') :
    Disjoint (ownRect e j).set (ownRect e' j').set := by
  rw [Finset.disjoint_left]
  intro i hi hi'
  rw [mem_own] at hi hi'
  have he : e.val < 4 := e.isLt
  have he' : e'.val < 4 := e'.isLt
  have hj : j.val < 16 := j.isLt
  have hj' : j'.val < 16 := j'.isLt
  rcases h with h | h
  · omega
  · exact h (Fin.ext (by omega))

/-- The elements of device e's own half. -/
abbrev halfSet (e : Dev nD) : Finset S1024x512.Idx := Finset.univ.biUnion fun j : Fin 16 => (ownRect e j).set

theorem half_disjoint (c : Dev nD) : Disjoint (halfSet c) (halfSet (xp c)) := by
  rw [Finset.disjoint_biUnion_left]; intro j _
  rw [Finset.disjoint_biUnion_right]; intro j' _
  exact own_disjoint c (xp c) j j' (Or.inl (by have := xp_div c; have := c.isLt; omega))

/-- A device's own half and its first-axis partner's own half make up the buffer. -/
theorem half_cover (c : Dev nD) : halfSet c ∪ halfSet (xp c) = Finset.univ := by
  ext i
  simp only [Finset.mem_union, Finset.mem_biUnion, Finset.mem_univ, true_and, iff_true, mem_own]
  have hr : (i 0).val < 1024 := (i 0).isLt
  have hc : c.val < 4 := c.isLt
  have hx := xp_div c
  by_cases h : (i 0).val / 512 = c.val / 2
  · left; refine ⟨⟨((i 0).val % 512) / 32, by omega⟩, ?_⟩; dsimp only; omega
  · right; refine ⟨⟨((i 0).val % 512) / 32, by omega⟩, ?_⟩; dsimp only; omega

theorem xSl_set (c : Dev nD) (j : Fin 16) : (xSl c j).view.set = (ownRect c j).set := View.set_slice_whole cc0_stg0_0 (ownRect c j)
theorem oSl_set (c : Dev nD) (j : Fin 16) : (oSl c j).view.set = (ownRect c j).set := View.set_slice_whole cc0_stg1_0 (ownRect c j)

/-- Device c's input staging buffer at its block and share q: the own-half chunks, and the rest of the buffer. -/
theorem x_chunks (c : Dev nD) (q : PosShare TreeShare) :
    ∃ Rest : sProp 𝕄, ((((c : Thread nD τ).loc cc0_stg0_0) ↦{q} X m ρ c : sProp 𝕄)) = iprop((bigSepL js fun j => xPts m ρ c j q) ∗ Rest) := by
  refine ⟨(((c : Thread nD τ).loc cc0_stg0_0) ↦[Finset.univ \ halfSet c]{q} X m ρ c), ?_⟩
  have hs := pointsTo_split_subset (Ix := Unit) (Name := ℕ) (U := UU) (Lvl := ℕ) (ℓ := (c : Thread nD τ).loc cc0_stg0_0) (q := q) (f := X m ρ c) (Finset.subset_univ (halfSet c))
  rw [BI.equiv_iff.mp ⟨hs.1, hs.2⟩, pointsTo_biUnion (ℓ := (c : Thread nD τ).loc cc0_stg0_0) Finset.univ (fun j : Fin 16 => (ownRect c j).set) (fun j _ j' _ h => own_disjoint c c j j' (Or.inr h)),
    bigSep_univ_eq_bigSepL js (by decide) (by decide)]
  refine congrArg (fun P => iprop(P ∗ _)) (bigSepL_congr js fun j => ?_)
  unfold xPts; rw [xSl_set]

omit [FloatOps F] in
/-- Device c's result staging buffer whole at f: its own-half chunks and its other-half chunks, the latter at the places of its
    first-axis partner's own-half chunks. -/
theorem o_chunks (c : Dev nD) (f : Buf (Elt F) ((c : Thread nD τ).loc cc0_stg1_0)) :
    ((((c : Thread nD τ).loc cc0_stg1_0) ↦{fullShare} f : sProp 𝕄)) = iprop((bigSepL js fun j => oPts c c j f) ∗ bigSepL js fun j => oPts c (xp c) j f) := by
  have hu := pointsTo_union (Ix := Unit) (Name := ℕ) (U := UU) (Lvl := ℕ) (ℓ := (c : Thread nD τ).loc cc0_stg1_0) (q := fullShare) (f := f) (half_disjoint c)
  have h1 := BI.equiv_iff.mp ⟨hu.1, hu.2⟩
  rw [half_cover c] at h1
  rw [h1, pointsTo_biUnion (ℓ := (c : Thread nD τ).loc cc0_stg1_0) Finset.univ (fun j : Fin 16 => (ownRect c j).set) (fun j _ j' _ h => own_disjoint c c j j' (Or.inr h)),
    pointsTo_biUnion (ℓ := (c : Thread nD τ).loc cc0_stg1_0) Finset.univ (fun j : Fin 16 => (ownRect (xp c) j).set) (fun j _ j' _ h => own_disjoint (xp c) (xp c) j j' (Or.inr h)),
    bigSep_univ_eq_bigSepL js (by decide) (by decide), bigSep_univ_eq_bigSepL js (by decide) (by decide)]
  refine congrArg₂ (fun P Q => iprop(P ∗ Q)) (bigSepL_congr js fun j => ?_) (bigSepL_congr js fun j => ?_)
  · unfold oPts; rw [oSl_set]
  · unfold oPts; rw [oSl_set]

omit [FloatOps F] in
/-- The same with each chunk at contents of its own: they join to the buffer whole at some contents. -/
theorem o_chunks_ex (c : Dev nD) :
    (iprop(∃ f, ((c : Thread nD τ).loc cc0_stg1_0) ↦{fullShare} f) : sProp 𝕄)
      ⊢ iprop((bigSepL js fun j => iprop(∃ f, oPts (F := F) c c j f)) ∗ bigSepL js fun j => iprop(∃ f, oPts (F := F) c (xp c) j f)) := by
  refine BIClass.exists_elim fun f => ?_
  rw [o_chunks c f]
  exact BIClass.sep_mono (bigSepL_mono js fun j => BIClass.exists_intro (Φ := fun f => oPts c c j f) f)
    (bigSepL_mono js fun j => BIClass.exists_intro (Φ := fun f => oPts c (xp c) j f) f)

/-- info: 'Cert.KernelProof.scr_chunks_ex' depends on axioms: [propext, Classical.choice, Quot.sound] -/
#guard_msgs in #print axioms scr_chunks_ex

/-- info: 'Cert.KernelProof.x_chunks' depends on axioms: [propext, Classical.choice, Quot.sound] -/
#guard_msgs in #print axioms x_chunks

/-- info: 'Cert.KernelProof.o_chunks_ex' depends on axioms: [propext, Classical.choice, Quot.sound] -/
#guard_msgs in #print axioms o_chunks_ex

end Cert.KernelProof
end
-- ==== Proof.KValues.lean ====
/-
What a landing or a store leaves in a chunk, as the closed contents of the protocol: a chunk of the own half of a block
landed in the partner's landing buffer is that buffer's final contents there; the sum stored in a chunk of the result is
the result's final contents there; and a chunk of the result landed in the first-axis partner's result is that partner's
final contents there.
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import proofs.«900139_g7700000000000140_dist_ar_v7x_xy2x2_y_m1024_n512_f32_1_alg».proof.Proof.KProtocol
import Idealize.ShloMosaic.Lib.Pipeline.Launch
import Idealize.ShloMosaic.Lib.Pipeline.Kit
import Idealize.ShloMosaic.Lib.Ring
import Idealize.ShloMosaic.Lib.Tactic
import Idealize.ShloMosaic.Lib.Pipeline.Value
import Idealize.ShloMosaic.Lib.ValueIdx

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rectangles of the same sizes at equal offsets: the same embedding, read and write -/

section UnitCongr
variable {κ : Kind} {sp : Space} {s : Shape} {e : EltTy} {Val : EltTy → Type}

theorem emb_unit_congr (v : View sig κ sp s e) {off off' size : Fin s.rank → Nat} (h : off = off')
    (p : ∀ a, off a + size a ≤ s.size a) (p' : ∀ a, off' a + size a ≤ s.size a) (y : (⟨s.rank, size⟩ : Shape).Idx) :
    (v.slice (Rect.unit off size p)).emb y = (v.slice (Rect.unit off' size p')).emb y := by
  subst h; rfl

theorem write_unit_congr (v : View sig κ sp s e) {off off' size : Fin s.rank → Nat} (h : off = off')
    (p : ∀ a, off a + size a ≤ s.size a) (p' : ∀ a, off' a + size a ≤ s.size a) (f : v.ty.Contents Val)
    (w : (⟨s.rank, size⟩ : Shape).Idx → Val e) (M : Finset (⟨s.rank, size⟩ : Shape).Idx) :
    (v.slice (Rect.unit off size p)).write Val f w M = (v.slice (Rect.unit off' size p')).write Val f w M := by
  subst h; rfl

theorem read_unit_congr (v : View sig κ sp s e) {off off' size : Fin s.rank → Nat} (h : off = off')
    (p : ∀ a, off a + size a ≤ s.size a) (p' : ∀ a, off' a + size a ≤ s.size a) (f : v.ty.Contents Val) :
    (v.slice (Rect.unit off size p)).read Val f = (v.slice (Rect.unit off' size p')).read Val f := by
  subst h; rfl

end UnitCongr

omit [FloatOps F] in
theorem off2_eq_off1 (c : Dev nD) (j : Fin 16) :
    k0_off2 c (BitVec.ofNat 32 (32 * j.val)) = k0_off1 c (BitVec.ofNat 32 (32 * j.val)) :=
  (k0_off2_eq c j).trans (k0_off1_eq c j).symm

/-! ## Where a chunk's elements sit -/

omit [FloatOps F] in
/-- Element y of own chunk j of device c sits at row 512 (c / 2) + 32 j + y₀, column y₁. -/
theorem ownRect_emb (c : Dev nD) (j : Fin 16) (y : S32x512.Idx) :
    ((ownRect c j).emb y 0).val = 512 * (c.val / 2) + 32 * j.val + (y 0).val ∧ ((ownRect c j).emb y 1).val = (y 1).val := by
  refine ⟨?_, ?_⟩
  · rw [Rect.emb_apply]
    show k0_off1 c (BitVec.ofNat 32 (32 * j.val)) 0 + 1 * (y 0).val = _
    rw [k0_off1_eq]; simp
  · rw [Rect.emb_apply]
    show k0_off1 c (BitVec.ofNat 32 (32 * j.val)) 1 + 1 * (y 1).val = _
    rw [k0_off1_eq]; simp

omit [FloatOps F] in
/-- Element y of chunk j of the landing buffer sits at row 32 j + y₀, column y₁. -/
theorem rRect_emb (j : Fin 16) (y : S32x512.Idx) :
    ((rRect j).emb y 0).val = 32 * j.val + (y 0).val ∧ ((rRect j).emb y 1).val = (y 1).val := by
  refine ⟨?_, ?_⟩
  · rw [Rect.emb_apply]
    show (![32 * j.val, 0] : Fin 2 → Nat) 0 + 1 * (y 0).val = _
    simp
  · rw [Rect.emb_apply]
    show (![32 * j.val, 0] : Fin 2 → Nat) 1 + 1 * (y 1).val = _
    simp

/-- The rectangle of own chunk j as the loads and the store of phase 2 compute it. -/
abbrev ownRect2 (c : Dev nD) (j : Fin 16) : Rect S1024x512 :=
  Rect.unit (s := S1024x512) (k0_off2 c (BitVec.ofNat 32 (32 * j.val))) S32x512.size (k0_off2_inb c j)

omit [FloatOps F] in
theorem ownRect2_eq (c : Dev nD) (j : Fin 16) : ownRect2 c j = ownRect c j :=
  Rect.unit_congr (off2_eq_off1 c j) _ _

/-! ## The loads and the store of phase 2 stay inside their chunk -/

omit [FloatOps F] in
theorem load_r_sub (j : Fin 16) : (rM : Memref sig .tc .vmem S512x512 .f32).view.setOn (rRect j).toLoadRect.set ⊆ (rSl j).view.set := by
  show (rM : Memref sig .tc .vmem S512x512 .f32).view.setOn (rRect j).set ⊆ ((rM : Memref sig .tc .vmem S512x512 .f32).view.slice (rRect j)).set
  rw [View.set_slice]; exact subset_rfl
omit [FloatOps F] in
theorem load_o_sub (c : Dev nD) (j : Fin 16) : (oM : Memref sig .tc .vmem S1024x512 .f32).view.setOn (ownRect2 c j).toLoadRect.set ⊆ (oSl c j).view.set := by
  rw [ownRect2_eq]
  show (oM : Memref sig .tc .vmem S1024x512 .f32).view.setOn (ownRect c j).set ⊆ ((oM : Memref sig .tc .vmem S1024x512 .f32).view.slice (ownRect c j)).set
  rw [View.set_slice]; exact subset_rfl
omit [FloatOps F] in
theorem store_o_sub (c : Dev nD) (j : Fin 16) : ((oM : Memref sig .tc .vmem S1024x512 .f32).access (ownRect2 c j)).setOn Finset.univ ⊆ (oSl c j).view.set := by
  rw [ownRect2_eq]; exact subset_rfl

/-! ## Contents -/

/-- Phase 1: own chunk j of device c's block, landed in chunk j of its second-axis partner's landing buffer, is that
    buffer's final contents there. -/
theorem land1_val (c : Dev nD) (j : Fin 16) (fd : Buf (Elt F) ((rSl j).view.loc ((yp c : Dev nD) : Thread nD τ))) :
    (((rSl j).view.loc ((yp c : Dev nD) : Thread nD τ) ↦[(rSl j).view.set]{fullShare}
        ((rSl j).view.write (Elt F) fd ((xSl c j).view.read (Elt F) (X m ρ c)) Finset.univ)) : sProp 𝕄)
      = rPts (yp c) j (landVal m ρ (yp c)) := by
  unfold rPts
  refine pointsTo_congr (fun i hi => ?_)
  obtain ⟨y, rfl⟩ := View.exists_emb_of_mem_set (rSl j).view hi
  rw [View.write_emb_of_mem _ _ (Finset.mem_univ y), View.read_apply]
  unfold landVal
  rw [yp_yp]
  simp only [cast_cast, cast_eq]
  refine congrArg (X m ρ c) (funext fun a => Fin.ext ?_)
  have ho := ownRect_emb c j y
  have hr := rRect_emb j y
  have hd := yp_div c
  match a with
  | ⟨0, _⟩ =>
    show ((ownRect c j).emb y 0).val = 512 * ((yp c).val / 2) + ((rRect j).emb y 0).val
    omega
  | ⟨1, _⟩ =>
    show ((ownRect c j).emb y 1).val = ((rRect j).emb y 1).val
    omega

/-- The sum the store of phase 2 writes, at element y of the chunk: the block's entry there plus the landing buffer's. -/
theorem sum_apply (c : Dev nD) (j : Fin 16) (y : S32x512.Idx) :
    (addf (shapeCast S32x512 ((xM : Memref sig .tc .vmem S1024x512 .f32).view.readAt (Elt F) (ownRect2 c j).toLoadRect (X m ρ c)) shapeCasts_S32x512_S32x512)
        ((rM : Memref sig .tc .vmem S512x512 .f32).view.readAt (Elt F) (rRect j).toLoadRect (landVal m ρ c))) y
      = FloatOps.addf (X m ρ c ((ownRect c j).emb y)) (landVal m ρ c ((rRect j).emb y)) := by
  have h1 : shapeCast S32x512 ((xM : Memref sig .tc .vmem S1024x512 .f32).view.readAt (Elt F) (ownRect2 c j).toLoadRect (X m ρ c)) shapeCasts_S32x512_S32x512
      = (xM : Memref sig .tc .vmem S1024x512 .f32).view.readAt (Elt F) (ownRect2 c j).toLoadRect (X m ρ c) := shapeCast_self _ _
  have h2 : (xM : Memref sig .tc .vmem S1024x512 .f32).view.readAt (Elt F) (ownRect2 c j).toLoadRect (X m ρ c)
      = (xSl c j).view.read (Elt F) (X m ρ c) :=
    read_unit_congr (xM : Memref sig .tc .vmem S1024x512 .f32).view (off2_eq_off1 c j) (k0_off2_inb c j) (k0_off1_inb c j) (X m ρ c)
  unfold addf
  rw [h1, h2, View.readAt_rect]
  simp only [View.read_apply, cast_eq]
  rfl

/-- Phase 2: the sum of own chunk j of the block and chunk j of the landing buffer, stored over own chunk j of the result,
    is the result's final contents there. -/
theorem store_val (c : Dev nD) (j : Fin 16) (f : Buf (Elt F) (((oM : Memref sig .tc .vmem S1024x512 .f32).access (ownRect2 c j)).loc (c : Thread nD τ))) :
    ((((oM : Memref sig .tc .vmem S1024x512 .f32).access (ownRect2 c j)).loc (c : Thread nD τ) ↦[(oSl c j).view.set]{fullShare}
        ((oM : Memref sig .tc .vmem S1024x512 .f32).access (ownRect2 c j)).write (Elt F) f
          (addf (shapeCast S32x512 ((xM : Memref sig .tc .vmem S1024x512 .f32).view.readAt (Elt F) (ownRect2 c j).toLoadRect (X m ρ c)) shapeCasts_S32x512_S32x512)
            ((rM : Memref sig .tc .vmem S512x512 .f32).view.readAt (Elt F) (rRect j).toLoadRect (landVal m ρ c))) Finset.univ) : sProp 𝕄)
      = oPts c c j (outVal m ρ c) := by
  unfold oPts
  refine pointsTo_congr (fun i hi => ?_)
  obtain ⟨y, rfl⟩ := View.exists_emb_of_mem_set (oSl c j).view hi
  rw [write_unit_congr (oM : Memref sig .tc .vmem S1024x512 .f32).view (off2_eq_off1 c j) (k0_off2_inb c j) (k0_off1_inb c j),
    View.write_emb_of_mem _ _ (Finset.mem_univ y), sum_apply]
  simp only [cast_eq]
  have ho := ownRect_emb c j y
  have hr := rRect_emb j y
  have hy0 := ValueIdx.idx2_lt0 y
  have hj := j.isLt
  have hrow : ownRow c (((oSl c j).view.emb y) 0).val := by
    show ((ownRect c j).emb y 0).val / 512 = c.val / 2
    omega
  unfold outVal
  rw [if_pos hrow]
  unfold pairSum
  refine congrArg (FloatOps.addf _) ?_
  unfold landVal
  refine congrArg (X m ρ (yp c)) (funext fun a => Fin.ext ?_)
  match a with
  | ⟨0, _⟩ =>
    show 512 * (c.val / 2) + ((rRect j).emb y 0).val = ((ownRect c j).emb y 0).val
    omega
  | ⟨1, _⟩ =>
    show ((rRect j).emb y 1).val = ((ownRect c j).emb y 1).val
    omega

/-- Phase 2: own chunk j of device c's result, landed at the same rows of its first-axis partner's result, is that
    partner's final contents there. -/
theorem land2_val (c : Dev nD) (j : Fin 16) (fd : Buf (Elt F) ((oSl c j).view.loc ((xp c : Dev nD) : Thread nD τ))) :
    (((oSl c j).view.loc ((xp c : Dev nD) : Thread nD τ) ↦[(oSl c j).view.set]{fullShare}
        ((oSl c j).view.write (Elt F) fd ((oSl c j).view.read (Elt F) (outVal m ρ c)) Finset.univ)) : sProp 𝕄)
      = oPts (xp c) c j (outVal m ρ (xp c)) := by
  unfold oPts
  refine pointsTo_congr (fun i hi => ?_)
  obtain ⟨y, rfl⟩ := View.exists_emb_of_mem_set (oSl c j).view hi
  rw [View.write_emb_of_mem _ _ (Finset.mem_univ y), View.read_apply]
  simp only [cast_cast, cast_eq]
  have ho := ownRect_emb c j y
  have hy0 := ValueIdx.idx2_lt0 y
  have hj := j.isLt
  have hc : c.val < 4 := c.isLt
  have hrow : ownRow c (((oSl c j).view.emb y) 0).val := by
    show ((ownRect c j).emb y 0).val / 512 = c.val / 2
    omega
  have hrow' : ¬ ownRow (xp c) (((oSl c j).view.emb y) 0).val := by
    show ¬ (((ownRect c j).emb y 0).val / 512 = (xp c).val / 2)
    rw [xp_div]; omega
  unfold outVal
  rw [if_pos hrow, if_neg hrow', xp_xp]

/-- info: 'Cert.KernelProof.land1_val' depends on axioms: [propext, Classical.choice, Quot.sound] -/
#guard_msgs in #print axioms land1_val

/-- info: 'Cert.KernelProof.store_val' depends on axioms: [propext, Classical.choice, Quot.sound] -/
#guard_msgs in #print axioms store_val

/-- info: 'Cert.KernelProof.land2_val' depends on axioms: [propext, Classical.choice, Quot.sound] -/
#guard_msgs in #print axioms land2_val

end Cert.KernelProof
end
-- ==== Proof.KSteps.lean ====
/-
One device's body, phase by phase, at a symbolic device c and a symbolic chunk j: the transfer of phase 1; the wait, the two
loads, the store and the transfer of phase 2; the three waits of phase 3 and the closing of the chunk's four cells.
Each rule takes from the device's assertions exactly what the chunk's step consumes and hands back what it leaves.
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import proofs.«900139_g7700000000000140_dist_ar_v7x_xy2x2_y_m1024_n512_f32_1_alg».proof.Proof.KProtocol
import proofs.«900139_g7700000000000140_dist_ar_v7x_xy2x2_y_m1024_n512_f32_1_alg».proof.Proof.KTables
import proofs.«900139_g7700000000000140_dist_ar_v7x_xy2x2_y_m1024_n512_f32_1_alg».proof.Proof.KLevels
import proofs.«900139_g7700000000000140_dist_ar_v7x_xy2x2_y_m1024_n512_f32_1_alg».proof.Proof.KValues
import Idealize.ShloMosaic.Lib.Pipeline.Launch
import Idealize.ShloMosaic.Lib.Pipeline.Kit
import Idealize.ShloMosaic.Lib.Ring
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "WP" => wp frame (wpE (defs₀ (F := F)) 𝒱₀ (_ : Thread nD τ) none) Set.univ

/-! ## Reading the records -/

theorem inv_at0 (K : Dev nD × CK → ℕ) (ck : Dev nD × CK) :
    (bigSep Finset.univ fun ck : Dev nD × CK => (cellInv ER (Rd m ρ) (K ck) (kcell ck) : sProp 𝕄)) ⊢ cellInv ER (Rd m ρ) (K ck) (kcell ck) :=
  bigSep_elim (Finset.mem_univ ck)
omit [FloatOps F] in
theorem reached_at0 (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m ρ K ⊢ cellInv ER (Rd m ρ) (K ck) (kcell ck) := by
  unfold records
  iintro ⟨HI, -⟩
  iapply (inv_at0 m ρ K ck); iexact HI
theorem reached_at (K : Dev nD × CK → ℕ) (ck : Dev nD × CK) : records m ρ K ⊢ reached ER (kcell ck) 0 := by
  unfold records
  iintro ⟨-, HR⟩
  iapply (reached_at0 (F := F) ck); iexact HR

/-! ## The payloads of the four kinds of transfer cell -/

theorem payOf_dep1 (c : Dev nD) (j : Fin 16) (d : Bool) : payOf m ρ c (some (0, j)) d = xPts m ρ c j fullShare.right := by
  simp [payOf]
theorem payOf_arr1 (c : Dev nD) (j : Fin 16) (d : Bool) : payOf m ρ c (some (1, j)) d = rPts c j (landVal m ρ c) := by
  simp [payOf]
theorem payOf_dep2 (c : Dev nD) (j : Fin 16) (d : Bool) : payOf m ρ c (some (2, j)) d = oPts c c j (outVal m ρ c) := by
  simp [payOf]
theorem payOf_arr2 (c : Dev nD) (j : Fin 16) (d : Bool) : payOf m ρ c (some (3, j)) d = oPts c (xp c) j (outVal m ρ c) := by
  simp [payOf]

/-! ## Every chunk's transfer credits the same units -/

omit [FloatOps F] in
theorem amt_r (j : Fin 16) (sm : DmaSem sig) : (rSl j).view.amount (.dma sm) = N := rfl
omit [FloatOps F] in
theorem amt_o (c : Dev nD) (j : Fin 16) (sm : DmaSem sig) : (oSl c j).view.amount (.dma sm) = N := rfl

/-! ## The library's rules at this protocol's cells and payloads -/

set_option maxHeartbeats 1000000 in
/-- The library's rule for an addressed transfer, at phase 1's cells and payloads. -/
theorem wp_B0 (K : Dev nD × CK → ℕ) (c : Dev nD) (j : Fin 16) (O : CellTallies nD τ sig Unit) (W : Waits sig Unit) (n : Dev nD) (hn : n = yp c)
    {α : Type} {Q : α → sProp 𝕄} {k : PUnit → Prog (TpuEff nD τ sig (Elt F) Λ₀ .tc) α}
    {hsc : (rSl j : Memref sig (Dev.tc n : Thread nD τ).2.kind .vmem S32x512 .f32).view.ref.isScScratch = false}
    {hsrc : (xSl c j).view.WordExact} {hdst : (rSl j).view.WordExact}
    {hsem : DmaTarget.Typed .vmem (.dma (semAt cc0_scratch2 j)) (.remote (Dev.tc n : Thread nD τ) (rSl j) (.dma (semAt cc0_scratch1 j)) hsc)}
    (fd : Buf (Elt F) ((rSl j).view.loc ((yp c : Dev nD) : Thread nD τ))) :
    iprop(cellInv ER (Rd m ρ) (K (c, some (0, j))) (dep1Cell c j) ∗ cellInv ER (Rd m ρ) (K (yp c, some (1, j))) (arr1Cell (yp c) j)
        ∗ xPts m ρ c j fullShare.right ∗ rPts (yp c) j fd
        ∗ owes (c : Thread nD τ) (O + tallyAt (arr1Cell (yp c) j) () N) W
        ∗ dutyTok ER (dep1Cell c j) 0 false ∗ reached ER (dep1Cell c j) 0
        ∗ dutyTok ER (arr1Cell (yp c) j) 0 false ∗ reached ER (arr1Cell (yp c) j) 0)
      ⊢ iprop(((cred (tallyAt (dep1Cell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (xSl c j) (.remote (Dev.tc n : Thread nD τ) (rSl j) (.dma (semAt cc0_scratch1 j)) hsc) (.dma (semAt cc0_scratch2 j)) hsrc hdst hsem) k) Q) := by
  subst hn
  have hd1 : false ∈ (Rd m ρ).duties (dep1Cell c j) 0 := by rw [duties_x]; exact Finset.mem_singleton_self _
  have hd2 : false ∈ (Rd m ρ).duties (arr1Cell (yp c) j) 0 := by rw [duties_x]; exact Finset.mem_singleton_self _
  have hp1 : (xPts m ρ c j fullShare.right) ⊢ (Rd m ρ).payload (dep1Cell c j) 0 false :=
    Entails.of_eq (((payload_eq m ρ c (some (0, j)) 0 false).trans (payOf_dep1 m ρ c j false)).symm)
  have hp2 : (((rSl j).view.loc ((yp c : Dev nD) : Thread nD τ) ↦[(rSl j).view.set]{fullShare}
        ((rSl j).view.write (Elt F) fd ((xSl c j).view.read (Elt F) (X m ρ c)) Finset.univ)) : sProp 𝕄) ⊢ (Rd m ρ).payload (arr1Cell (yp c) j) 0 false :=
    Entails.of_eq ((land1_val m ρ c j fd).trans ((payload_eq m ρ (yp c) (some (1, j)) 0 false).trans (payOf_arr1 m ρ (yp c) j false)).symm)
  unfold xPts rPts at *
  exact Rounds.wp_send_pointsTo 𝒱₀ ER (Rd m ρ) (c : Thread nD τ) none (κ₁ := K (c, some (0, j))) (κ₂ := K (yp c, some (1, j)))
      (c' := (Dev.tc (yp c) : Thread nD τ)) (src := xSl c j) (dst := rSl j) (sS := .dma (semAt cc0_scratch1 j)) (sem := .dma (semAt cc0_scratch2 j))
      (r₁ := 0) (r₂ := 0) (d₁ := false) (d₂ := false) (fd := fd) (q := fullShare.right) (fs := X m ρ c)
      hd1 hd2 () () N (amt_r j _) (amount_x m ρ c (0, j) false) (amount_x m ρ (yp c) (1, j) false) O rfl (W := W) hp1 hp2

set_option maxHeartbeats 1000000 in
/-- The same for phase 2: own chunk j of the result, holding its final contents, sent to the same rows of the first-axis partner's result. -/
theorem wp_S0 (K : Dev nD × CK → ℕ) (c : Dev nD) (j : Fin 16) (O : CellTallies nD τ sig Unit) (W : Waits sig Unit) (n : Dev nD) (hn : n = xp c)
    {α : Type} {Q : α → sProp 𝕄} {k : PUnit → Prog (TpuEff nD τ sig (Elt F) Λ₀ .tc) α}
    {hsc : (oSl c j : Memref sig (Dev.tc n : Thread nD τ).2.kind .vmem S32x512 .f32).view.ref.isScScratch = false}
    {hsrc : (oSl c j).view.WordExact} {hdst : (oSl c j).view.WordExact}
    {hsem : DmaTarget.Typed .vmem (.dma (semAt cc0_scratch4 j)) (.remote (Dev.tc n : Thread nD τ) (oSl c j) (.dma (semAt cc0_scratch3 j)) hsc)}
    (fp : Buf (Elt F) ((oSl c j).view.loc ((xp c : Dev nD) : Thread nD τ))) :
    iprop(cellInv ER (Rd m ρ) (K (c, some (2, j))) (dep2Cell c j) ∗ cellInv ER (Rd m ρ) (K (xp c, some (3, j))) (arr2Cell (xp c) j)
        ∗ oPts c c j (outVal m ρ c) ∗ oPts (xp c) c j fp
        ∗ owes (c : Thread nD τ) (O + tallyAt (arr2Cell (xp c) j) () N) W
        ∗ dutyTok ER (dep2Cell c j) 0 false ∗ reached ER (dep2Cell c j) 0
        ∗ dutyTok ER (arr2Cell (xp c) j) 0 false ∗ reached ER (arr2Cell (xp c) j) 0)
      ⊢ iprop(((cred (tallyAt (dep2Cell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (oSl c j) (.remote (Dev.tc n : Thread nD τ) (oSl c j) (.dma (semAt cc0_scratch3 j)) hsc) (.dma (semAt cc0_scratch4 j)) hsrc hdst hsem) k) Q) := by
  subst hn
  have hd1 : false ∈ (Rd m ρ).duties (dep2Cell c j) 0 := by rw [duties_x]; exact Finset.mem_singleton_self _
  have hd2 : false ∈ (Rd m ρ).duties (arr2Cell (xp c) j) 0 := by rw [duties_x]; exact Finset.mem_singleton_self _
  have hp1 : (oPts c c j (outVal m ρ c)) ⊢ (Rd m ρ).payload (dep2Cell c j) 0 false :=
    Entails.of_eq (((payload_eq m ρ c (some (2, j)) 0 false).trans (payOf_dep2 m ρ c j false)).symm)
  have hp2 : (((oSl c j).view.loc ((xp c : Dev nD) : Thread nD τ) ↦[(oSl c j).view.set]{fullShare}
        ((oSl c j).view.write (Elt F) fp ((oSl c j).view.read (Elt F) (outVal m ρ c)) Finset.univ)) : sProp 𝕄) ⊢ (Rd m ρ).payload (arr2Cell (xp c) j) 0 false :=
    Entails.of_eq ((land2_val m ρ c j fp).trans ((payload_eq m ρ (xp c) (some (3, j)) 0 false).trans
      ((payOf_arr2 m ρ (xp c) j false).trans (by rw [xp_xp]))).symm)
  unfold oPts at *
  exact Rounds.wp_send_pointsTo 𝒱₀ ER (Rd m ρ) (c : Thread nD τ) none (κ₁ := K (c, some (2, j))) (κ₂ := K (xp c, some (3, j)))
      (c' := (Dev.tc (xp c) : Thread nD τ)) (src := oSl c j) (dst := oSl c j) (sS := .dma (semAt cc0_scratch3 j)) (sem := .dma (semAt cc0_scratch4 j))
      (r₁ := 0) (r₂ := 0) (d₁ := false) (d₂ := false) (fd := fp) (q := fullShare) (fs := outVal m ρ c)
      hd1 hd2 () () N (amt_o c j _) (amount_x m ρ c (2, j) false) (amount_x m ρ (xp c) (3, j) false) O rfl (W := W) hp1 hp2

set_option maxHeartbeats 1000000 in
/-- The library's rule for the wait on one of the device's transfer cells for its one duty: the duty's payload comes back. -/
theorem wp_W0 (K : Dev nD × CK → ℕ) (c : Dev nD) (aj : Fin 4 × Fin 16) (O : CellTallies nD τ sig Unit) (W : Waits sig Unit)
    {sp sp' : Space} {s s' : Shape} {e e' : EltTy} (src : Memref sig .tc sp' s' e') (dst : Memref sig .tc sp s e) (hcr : dst.view.dmaCredit = N)
    {hsrc : src.view.WordExact} {hdst : dst.view.WordExact} (P : sProp 𝕄) (hP : payOf m ρ c (some aj) false = P)
    {α : Type} {Q : α → sProp 𝕄} {k : PUnit → Prog (TpuEff nD τ sig (Elt F) Λ₀ .tc) α} :
    iprop(cellInv ER (Rd m ρ) (K (c, some aj)) (kcell (c, some aj)) ∗ cred (tallyAt (kcell (c, some aj)) () N) ∗ owes (c : Thread nD τ) O W
        ∗ MayWait (c : Thread nD τ) (csem (some aj)) () O ∗ atPos ER (kcell (c, some aj)) 0 ∅ 0)
      ⊢ iprop(((owes (c : Thread nD τ) O (insert (csem (some aj), ()) W) ∗ atPos ER (kcell (c, some aj)) (0 + 1) ∅ 0 ∗ reached ER (kcell (c, some aj)) (0 + 1)
              ∗ P)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (semAt (semArr aj.1) aj.2) src dst hsrc hdst) k) Q) := by
  have hk : 0 + dst.view.dmaCredit = (Rd m ρ).expect (kcell (c, some aj)) 0 := by rw [Nat.zero_add, hcr, expect_x]
  have h := Rounds.wp_wait_rest_token 𝒱₀ ER (Rd m ρ) (c : Thread nD τ) none (κ := K (c, some aj)) (sm := csem (some aj)) (k' := dst.view.dmaCredit)
      (w := .waitDma2 (semAt (semArr aj.1) aj.2) src dst hsrc hdst) (k := k) (Q := Q)
      (wpE_waitDma2_eq (defs := defs₀ (F := F)) 𝒱₀ (c : Thread nD τ) none Set.univ) (Set.mem_univ _) () (O := O) (W := W) (R := 0) (m := 0) (T := ∅) hk
  rw [rest_x, hcr, hP] at h
  exact h

/-! ## Phase 1: own chunk j of the block sent to the second-axis partner -/

set_option maxHeartbeats 1000000 in
theorem wp_B (K : Dev nD × CK → ℕ) (c : Dev nD) (j : Fin 16) (O : CellTallies nD τ sig Unit) (W : Waits sig Unit) (n : Dev nD) (hn : n = yp c)
    {α : Type} {Q : α → sProp 𝕄} {k : PUnit → Prog (TpuEff nD τ sig (Elt F) Λ₀ .tc) α}
    {hsc : (rSl j : Memref sig (Dev.tc n : Thread nD τ).2.kind .vmem S32x512 .f32).view.ref.isScScratch = false}
    {hsrc : (xSl c j).view.WordExact} {hdst : (rSl j).view.WordExact}
    {hsem : DmaTarget.Typed .vmem (.dma (semAt cc0_scratch2 j)) (.remote (Dev.tc n : Thread nD τ) (rSl j) (.dma (semAt cc0_scratch1 j)) hsc)}
    (fd : Buf (Elt F) ((rSl j).view.loc ((yp c : Dev nD) : Thread nD τ))) :
    records m ρ K ⊢ iprop(owes (c : Thread nD τ) (O + tallyAt (arr1Cell (yp c) j) () N) W -∗ xPts m ρ c j fullShare.right -∗ rPts (yp c) j fd
        -∗ dutyTok ER (dep1Cell c j) 0 false -∗ dutyTok ER (arr1Cell (yp c) j) 0 false
        -∗ ((cred (tallyAt (dep1Cell c j) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (xSl c j) (.remote (Dev.tc n : Thread nD τ) (rSl j) (.dma (semAt cc0_scratch1 j)) hsc) (.dma (semAt cc0_scratch2 j)) hsrc hdst hsem) k) Q) := by
  iintro #HI HO Hx Hr Ht1 Ht2 Hk
  iapply (wp_B0 m ρ K c j O W n hn (hsc := hsc) (hsrc := hsrc) (hdst := hdst) (hsem := hsem) (k := k) (Q := Q) fd) $$ [HO Hx Hr Ht1 Ht2]
  · isplitr; · iapply (inv_at m ρ K (c, some (0, j))); iexact HI
    isplitr; · iapply (inv_at m ρ K (yp c, some (1, j))); iexact HI
    isplitl [Hx]; · iexact Hx
    isplitl [Hr]; · iexact Hr
    isplitl [HO]; · iexact HO
    isplitl [Ht1]; · iexact Ht1
    isplitr; · iapply (reached_at m ρ K (c, some (0, j))); iexact HI
    isplitl [Ht2]; · iexact Ht2
    iapply (reached_at m ρ K (yp c, some (1, j))); iexact HI
  iexact Hk

/-! ## Phase 2: chunk j has landed; the sum is stored and sent to the first-axis partner -/

/-- The stored vector is the sum of the two loaded ones: the store's result is the result's final contents on the chunk. -/
theorem store_val' (c : Dev nD) (j : Fin 16) (w : Vec F S32x512 .f32 → Vec F S32x512 .f32 → FVec F S32x512 .f32)
    (hw : ∀ a b, w a b = addf (shapeCast S32x512 a shapeCasts_S32x512_S32x512) b)
    (f : Buf (Elt F) (((oM : Memref sig .tc .vmem S1024x512 .f32).access (ownRect2 c j)).loc (c : Thread nD τ))) :
    ((((oM : Memref sig .tc .vmem S1024x512 .f32).access (ownRect2 c j)).loc (c : Thread nD τ) ↦[(oSl c j).view.set]{fullShare}
        ((oM : Memref sig .tc .vmem S1024x512 .f32).access (ownRect2 c j)).write (Elt F) f
          (w ((xM : Memref sig .tc .vmem S1024x512 .f32).view.readAt (Elt F) (ownRect2 c j).toLoadRect (X m ρ c))
            ((rM : Memref sig .tc .vmem S512x512 .f32).view.readAt (Elt F) (rRect j).toLoadRect (landVal m ρ c))) Finset.univ) : sProp 𝕄)
      = oPts c c j (outVal m ρ c) := by
  rw [hw]; exact store_val m ρ c j f

set_option maxHeartbeats 4000000 in
theorem wp_C (K : Dev nD × CK → ℕ) (c : Dev nD) (j : Fin 16) (l : List (Fin 16)) (W : Waits sig Unit) (n : Dev nD) (hn : n = xp c)
    {α : Type} {Q : α → sProp 𝕄} {k : PUnit → Prog (TpuEff nD τ sig (Elt F) Λ₀ .tc) α}
    (w : Vec F S32x512 .f32 → Vec F S32x512 .f32 → FVec F S32x512 .f32)
    (hw : ∀ a b, w a b = addf (shapeCast S32x512 a shapeCasts_S32x512_S32x512) b)
    {hws : (xSl c j).view.WordExact} {hwd : (rSl j).view.WordExact}
    {hl1 : (xM : Memref sig .tc .vmem S1024x512 .f32).view.LoadsAt (ownRect2 c j).toLoadRect}
    {hl2 : (rM : Memref sig .tc .vmem S512x512 .f32).view.LoadsAt (rRect j).toLoadRect}
    {hl3 : (oM : Memref sig .tc .vmem S1024x512 .f32).view.LoadsAt (ownRect2 c j).toLoadRect}
    {hx : ((oM : Memref sig .tc .vmem S1024x512 .f32).access (ownRect2 c j)).Stores Finset.univ}
    {hm : (Finset.univ : Finset (ownRect2 c j).shape.Idx) = Finset.univ ∨ ∀ a, (ownRect2 c j).stride a = 1}
    {hsc : (oSl c j : Memref sig (Dev.tc n : Thread nD τ).2.kind .vmem S32x512 .f32).view.ref.isScScratch = false}
    {hsrc : (oSl c j).view.WordExact} {hdst : (oSl c j).view.WordExact}
    {hsem : DmaTarget.Typed .vmem (.dma (semAt cc0_scratch4 j)) (.remote (Dev.tc n : Thread nD τ) (oSl c j) (.dma (semAt cc0_scratch3 j)) hsc)}
    (fo : Buf (Elt F) ((oSl c j).view.loc (c : Thread nD τ))) (fp : Buf (Elt F) ((oSl c j).view.loc ((xp c : Dev nD) : Thread nD τ))) :
    records m ρ K ⊢ iprop(levAts L lv -∗ owes (c : Thread nD τ) (owedPhase2 c l + tallyAt (arr2Cell (xp c) j) () N) W
        -∗ cred (tallyAt (arr1Cell c j) () N) -∗ atPos ER (arr1Cell c j) 0 ∅ 0
        -∗ (((c : Thread nD τ).loc cc0_stg0_0) ↦{fullShare.left} X m ρ c)
        -∗ oPts c c j fo -∗ oPts (xp c) c j fp
        -∗ dutyTok ER (dep2Cell c j) 0 false -∗ dutyTok ER (arr2Cell (xp c) j) 0 false
        -∗ ((∃ W', owes (c : Thread nD τ) (owedPhase2 c l) W' ∗ atPos ER (arr1Cell c j) (0 + 1) ∅ 0 ∗ rPts c j (landVal m ρ c)
              ∗ (((c : Thread nD τ).loc cc0_stg0_0) ↦{fullShare.left} X m ρ c) ∗ cred (tallyAt (dep2Cell c j) () N))
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (semAt cc0_scratch2 j) (xSl c j) (rSl j) hws hwd) fun _ =>
             .op (.load xM (ownRect2 c j).toLoadRect hl1) fun v1 =>
             .op (.load rM (rRect j).toLoadRect hl2) fun v2 =>
             .op (.load oM (ownRect2 c j).toLoadRect hl3) fun _ =>
             .op (.store oM (ownRect2 c j) (w v1 v2) Finset.univ hx hm) fun _ =>
             .op (.enqueueDma (oSl c j) (.remote (Dev.tc n : Thread nD τ) (oSl c j) (.dma (semAt cc0_scratch3 j)) hsc) (.dma (semAt cc0_scratch4 j)) hsrc hdst hsem) k) Q) := by
  iintro #HI #Hlev HO HcR HatR Hx Ho Hp Ht1 Ht2 Hk
  -- the wait for chunk j's arrival: the landing buffer's chunk comes with it
  iapply (wp_W0 m ρ K c (1, j) (owedPhase2 c l + tallyAt (arr2Cell (xp c) j) () N) W (xSl c j) (rSl j) rfl (hsrc := hws) (hdst := hwd) _ (payOf_arr1 m ρ c j false)) $$ [HcR HO HatR]
  · isplitr; · iapply (inv_at m ρ K (c, some (1, j))); iexact HI
    isplitl [HcR]; · iexact HcR
    isplitl [HO]; · iexact HO
    isplitr; · iapply (mayWait_arr1 c j (j :: l)); iexact Hlev
    iexact HatR
  iintro ⟨HO, HatR, -, Hr⟩
  unfold rPts
  -- the loads and the store
  iapply (wp_load 𝒱₀ (c : Thread nD τ) none Set.univ (m := xM) (r := (ownRect2 c j).toLoadRect) (Finset.subset_univ _)) $$ Hx; iintro Hx
  iapply (wp_load 𝒱₀ (c : Thread nD τ) none Set.univ (m := rM) (r := (rRect j).toLoadRect) (load_r_sub j)) $$ Hr; iintro Hr
  unfold oPts
  iapply (wp_load 𝒱₀ (c : Thread nD τ) none Set.univ (m := oM) (r := (ownRect2 c j).toLoadRect) (load_o_sub c j)) $$ Ho; iintro Ho
  iapply (wp_store 𝒱₀ (c : Thread nD τ) none Set.univ (m := oM) (r := ownRect2 c j) (Mk := Finset.univ) (store_o_sub c j)) $$ Ho; iintro Ho
  ihave Ho := (Entails.of_eq (store_val' m ρ c j w hw fo)) $$ Ho
  -- the transfer to the first-axis partner
  iapply (wp_S0 m ρ K c j (owedPhase2 c l) _ n hn (hsc := hsc) (hsrc := hsrc) (hdst := hdst) (hsem := hsem) (k := k) (Q := Q) fp)
    $$ [HO Ho Hp Ht1 Ht2]
  · isplitr; · iapply (inv_at m ρ K (c, some (2, j))); iexact HI
    isplitr; · iapply (inv_at m ρ K (xp c, some (3, j))); iexact HI
    isplitl [Ho]; · iexact Ho
    isplitl [Hp]; · unfold oPts; iexact Hp
    isplitl [HO]; · iexact HO
    isplitl [Ht1]; · iexact Ht1
    isplitr; · iapply (reached_at m ρ K (c, some (2, j))); iexact HI
    isplitl [Ht2]; · iexact Ht2
    iapply (reached_at m ρ K (xp c, some (3, j))); iexact HI
  iintro ⟨HcS, HO⟩
  iapply Hk
  iexists _
  isplitl [HO]; · iexact HO
  isplitl [HatR]; · iexact HatR
  isplitl [Hr]; · iexact Hr
  isplitl [Hx]; · iexact Hx
  iexact HcS

/-! ## Phase 3: the other half's chunk j lands, the two departures of chunk j are over, and the chunk's four cells close -/

set_option maxHeartbeats 4000000 in
theorem wp_D (K : Dev nD × CK → ℕ) (c : Dev nD) (j : Fin 16) (W : Waits sig Unit)
    {α : Type} {Q : α → sProp 𝕄} {k : PUnit → Prog (TpuEff nD τ sig (Elt F) Λ₀ .tc) α}
    {h1 : (pSl c j).view.WordExact} {h2 : (pSl c j).view.WordExact}
    {h3 : (rSl j).view.WordExact} {h4 : (xSl c j).view.WordExact}
    {h5 : (oSl c j).view.WordExact} {h6 : (oSl c j).view.WordExact} :
    records m ρ K ⊢ iprop(owes (c : Thread nD τ) 0 W
        -∗ cred (tallyAt (arr2Cell c j) () N) -∗ atPos ER (arr2Cell c j) 0 ∅ 0
        -∗ cred (tallyAt (dep1Cell c j) () N) -∗ atPos ER (dep1Cell c j) 0 ∅ 0
        -∗ cred (tallyAt (dep2Cell c j) () N) -∗ atPos ER (dep2Cell c j) 0 ∅ 0
        -∗ atPos ER (arr1Cell c j) (0 + 1) ∅ 0
        -∗ ((∃ W', owes (c : Thread nD τ) 0 W' ∗ oPts c (xp c) j (outVal m ρ c) ∗ xPts m ρ c j fullShare.right ∗ oPts c c j (outVal m ρ c)
              ∗ semVal (dep1Cell c j) 0 ∗ semVal (arr1Cell c j) 0 ∗ semVal (dep2Cell c j) 0 ∗ semVal (arr2Cell c j) 0)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (semAt cc0_scratch4 j) (pSl c j) (pSl c j) h1 h2) fun _ =>
             .op (.waitDma2 (semAt cc0_scratch1 j) (rSl j) (xSl c j) h3 h4) fun _ =>
             .op (.waitDma2 (semAt cc0_scratch3 j) (oSl c j) (oSl c j) h5 h6) k) Q) := by
  iintro #HI HO Hc4 Hat4 Hc1 Hat1 Hc3 Hat3 Hat2 Hk
  iapply (wp_W0 m ρ K c (3, j) 0 W (pSl c j) (pSl c j) rfl (hsrc := h1) (hdst := h2) _ (payOf_arr2 m ρ c j false)) $$ [Hc4 HO Hat4]
  · isplitr; · iapply (inv_at m ρ K (c, some (3, j))); iexact HI
    isplitl [Hc4]; · iexact Hc4
    isplitl [HO]; · iexact HO
    isplitr; · rw [MayWait_zero]; iempintro
    iexact Hat4
  iintro ⟨HO, Hat4, -, Hp⟩
  iapply (wp_W0 m ρ K c (0, j) 0 _ (rSl j) (xSl c j) rfl (hsrc := h3) (hdst := h4) _ (payOf_dep1 m ρ c j false)) $$ [Hc1 HO Hat1]
  · isplitr; · iapply (inv_at m ρ K (c, some (0, j))); iexact HI
    isplitl [Hc1]; · iexact Hc1
    isplitl [HO]; · iexact HO
    isplitr; · rw [MayWait_zero]; iempintro
    iexact Hat1
  iintro ⟨HO, Hat1, -, Hx⟩
  iapply (wp_W0 m ρ K c (2, j) 0 _ (oSl c j) (oSl c j) rfl (hsrc := h5) (hdst := h6) _ (payOf_dep2 m ρ c j false)) $$ [Hc3 HO Hat3]
  · isplitr; · iapply (inv_at m ρ K (c, some (2, j))); iexact HI
    isplitl [Hc3]; · iexact Hc3
    isplitl [HO]; · iexact HO
    isplitr; · rw [MayWait_zero]; iempintro
    iexact Hat3
  iintro ⟨HO, Hat3, -, Ho⟩
  -- the chunk's four cells close: their counters at zero are the device's again
  imod (Rounds.cell_close ER (Rd m ρ) (Set.mem_univ (K (c, some (0, j)))) (fun h => h) (R := 0 + 1) (duties_later m ρ (dep1Cell c j))) $$ [Hat1] with Hz1
  · isplitr; · iapply (inv_at m ρ K (c, some (0, j))); iexact HI
    iexact Hat1
  imod (Rounds.cell_close ER (Rd m ρ) (Set.mem_univ (K (c, some (1, j)))) (fun h => h) (R := 0 + 1) (duties_later m ρ (arr1Cell c j))) $$ [Hat2] with Hz2
  · isplitr; · iapply (inv_at m ρ K (c, some (1, j))); iexact HI
    iexact Hat2
  imod (Rounds.cell_close ER (Rd m ρ) (Set.mem_univ (K (c, some (2, j)))) (fun h => h) (R := 0 + 1) (duties_later m ρ (dep2Cell c j))) $$ [Hat3] with Hz3
  · isplitr; · iapply (inv_at m ρ K (c, some (2, j))); iexact HI
    iexact Hat3
  imod (Rounds.cell_close ER (Rd m ρ) (Set.mem_univ (K (c, some (3, j)))) (fun h => h) (R := 0 + 1) (duties_later m ρ (arr2Cell c j))) $$ [Hat4] with Hz4
  · isplitr; · iapply (inv_at m ρ K (c, some (3, j))); iexact HI
    iexact Hat4
  iapply Hk
  iexists _
  isplitl [HO]; · iexact HO
  isplitl [Hp]; · iexact Hp
  isplitl [Hx]; · iexact Hx
  isplitl [Ho]; · iexact Ho
  isplitl [Hz1]; · iexact Hz1
  isplitl [Hz2]; · iexact Hz2
  isplitl [Hz3]; · iexact Hz3
  iexact Hz4

end Cert.KernelProof
end
-- ==== Proof.KBody.lean ====
/-
One device's body, from the assertions the pipeline hands it to the assertions it hands back.
The device splits its buffers into the chunks the protocol moves; signals both partners' entry cell — handing the second-axis
partner its landing buffer and the first-axis partner the other half of its result buffer — and waits for two units on
its own, which bring the partners' buffers; then the sixteen chunks go through the three phases, one rule per chunk
and phase; at the end the chunks are joined back: the landing buffer holds the partner's rows, the result buffer the
result, the input buffer what it held, and the sixty-four transfer cells are closed at zero.
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import proofs.«900139_g7700000000000140_dist_ar_v7x_xy2x2_y_m1024_n512_f32_1_alg».proof.Proof.KProtocol
import proofs.«900139_g7700000000000140_dist_ar_v7x_xy2x2_y_m1024_n512_f32_1_alg».proof.Proof.KTables
import proofs.«900139_g7700000000000140_dist_ar_v7x_xy2x2_y_m1024_n512_f32_1_alg».proof.Proof.KLevels
import proofs.«900139_g7700000000000140_dist_ar_v7x_xy2x2_y_m1024_n512_f32_1_alg».proof.Proof.KRegions
import proofs.«900139_g7700000000000140_dist_ar_v7x_xy2x2_y_m1024_n512_f32_1_alg».proof.Proof.KValues
import proofs.«900139_g7700000000000140_dist_ar_v7x_xy2x2_y_m1024_n512_f32_1_alg».proof.Proof.KSteps
import Idealize.ShloMosaic.Lib.Pipeline.Launch
import Idealize.ShloMosaic.Lib.Pipeline.Kit
import Idealize.ShloMosaic.Lib.Ring
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the device owes, chunk by chunk -/

/-- During phase 1, with the chunks of l still to send: their arrivals and all of phase 2's. -/
def owedB (c : Dev nD) (l : List (Fin 16)) : CellTallies nD τ sig Unit :=
  oweL ((l.map fun j => (arr1Cell (yp c) j, N)) ++ (js.map fun j => (arr2Cell (xp c) j, N)))

theorem owedB_cons (c : Dev nD) (j : Fin 16) (l : List (Fin 16)) : owedB c (j :: l) = owedB c l + tallyAt (arr1Cell (yp c) j) () N := rfl
theorem owedB_nil (c : Dev nD) : owedB c [] = owedPhase2 c js := rfl
theorem owedPhase2_cons (c : Dev nD) (j : Fin 16) (l : List (Fin 16)) :
    owedPhase2 c (j :: l) = owedPhase2 c l + tallyAt (arr2Cell (xp c) j) () N := rfl
theorem owedPhase2_nil (c : Dev nD) : owedPhase2 c [] = 0 := rfl
/-- What the device owes at launch: the two entry signals, then everything else. -/
theorem O₀_eq_entry (c : Dev nD) : O₀ c = oweL ((barCell (xp c), 1) :: ((js.map fun j => (arr1Cell (yp c) j, N)) ++ (js.map fun j => (arr2Cell (xp c) j, N)))) + tallyAt (barCell (yp c)) () 1 := rfl
theorem owed_entry2 (c : Dev nD) : oweL ((barCell (xp c), 1) :: ((js.map fun j => (arr1Cell (yp c) j, N)) ++ (js.map fun j => (arr2Cell (xp c) j, N)))) = owedB c js + tallyAt (barCell (xp c)) () 1 := rfl
theorem owedB_js (c : Dev nD) : owedB c js = owedAfterEntry c := rfl

/-! ## The device equations of the program's thirty-four addressed operations: the entry signals and phase 1 name the
second-axis partner, the second entry signal and phase 2 the first-axis partner -/

theorem dev1_eq (c : Dev nD) : (⟨k0_dev1 c, k0_dev1_lt c⟩ : Dev nD) = yp c := Fin.ext (k0_dev1_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = yp c := Fin.ext (k0_dev11_eq c)
theorem dev12_eq (c : Dev nD) : (⟨k0_dev12 c, k0_dev12_lt c⟩ : Dev nD) = yp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = yp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = yp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = yp c := Fin.ext (k0_dev18_eq c)
theorem dev2_eq (c : Dev nD) : (⟨k0_dev2 c, k0_dev2_lt c⟩ : Dev nD) = xp c := Fin.ext (k0_dev2_eq c)
theorem dev19_eq (c : Dev nD) : (⟨k0_dev19 c, k0_dev19_lt c⟩ : Dev nD) = xp c := Fin.ext (k0_dev19_eq c)
theorem dev20_eq (c : Dev nD) : (⟨k0_dev20 c, k0_dev20_lt c⟩ : Dev nD) = xp c := Fin.ext (k0_dev20_eq c)
theorem dev21_eq (c : Dev nD) : (⟨k0_dev21 c, k0_dev21_lt c⟩ : Dev nD) = xp c := Fin.ext (k0_dev21_eq c)
theorem dev22_eq (c : Dev nD) : (⟨k0_dev22 c, k0_dev22_lt c⟩ : Dev nD) = xp c := Fin.ext (k0_dev22_eq c)
theorem dev23_eq (c : Dev nD) : (⟨k0_dev23 c, k0_dev23_lt c⟩ : Dev nD) = xp c := Fin.ext (k0_dev23_eq c)
theorem dev24_eq (c : Dev nD) : (⟨k0_dev24 c, k0_dev24_lt c⟩ : Dev nD) = xp c := Fin.ext (k0_dev24_eq c)
theorem dev25_eq (c : Dev nD) : (⟨k0_dev25 c, k0_dev25_lt c⟩ : Dev nD) = xp c := Fin.ext (k0_dev25_eq c)
theorem dev26_eq (c : Dev nD) : (⟨k0_dev26 c, k0_dev26_lt c⟩ : Dev nD) = xp c := Fin.ext (k0_dev26_eq c)
theorem dev27_eq (c : Dev nD) : (⟨k0_dev27 c, k0_dev27_lt c⟩ : Dev nD) = xp c := Fin.ext (k0_dev27_eq c)
theorem dev28_eq (c : Dev nD) : (⟨k0_dev28 c, k0_dev28_lt c⟩ : Dev nD) = xp c := Fin.ext (k0_dev28_eq c)
theorem dev29_eq (c : Dev nD) : (⟨k0_dev29 c, k0_dev29_lt c⟩ : Dev nD) = xp c := Fin.ext (k0_dev29_eq c)
theorem dev30_eq (c : Dev nD) : (⟨k0_dev30 c, k0_dev30_lt c⟩ : Dev nD) = xp c := Fin.ext (k0_dev30_eq c)
theorem dev31_eq (c : Dev nD) : (⟨k0_dev31 c, k0_dev31_lt c⟩ : Dev nD) = xp c := Fin.ext (k0_dev31_eq c)
theorem dev32_eq (c : Dev nD) : (⟨k0_dev32 c, k0_dev32_lt c⟩ : Dev nD) = xp c := Fin.ext (k0_dev32_eq c)
theorem dev33_eq (c : Dev nD) : (⟨k0_dev33 c, k0_dev33_lt c⟩ : Dev nD) = xp c := Fin.ext (k0_dev33_eq c)
theorem dev34_eq (c : Dev nD) : (⟨k0_dev34 c, k0_dev34_lt c⟩ : Dev nD) = xp c := Fin.ext (k0_dev34_eq c)

omit [FloatOps F] in
/-- The chain over the sixteen chunks, written out. -/
theorem bigSepL_js (Φ : Fin 16 → sProp 𝕄) : bigSepL js Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := rfl

/-! ## The one grid point -/

theorem fetch_0 : (cfg0.win (0 : Fin 2)).fetch t0_0 = true := fetch0_0 t0_0

omit [FloatOps F] in
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

omit [FloatOps F] in
/-- The sixty-four transfer cells' counters, array by array. -/
theorem sems_eq (c : Dev nD) : (bigSep Finset.univ fun aj : Fin 4 × Fin 16 => (semVal (kcell (c, some aj)) 0 : sProp 𝕄))
    = iprop((bigSepL js fun j => semVal (dep1Cell c j) 0) ∗ (bigSepL js fun j => semVal (arr1Cell c j) 0)
        ∗ (bigSepL js fun j => semVal (dep2Cell c j) 0) ∗ (bigSepL js fun j => semVal (arr2Cell c j) 0)) := by
  rw [bigSep_univ_prod, bigSep_univ_eq_bigSepL [(0 : Fin 4), 1, 2, 3] (by decide) (by decide)]
  simp only [bigSep_univ_eq_bigSepL js (by decide) (by decide)]
  rfl

def bodyPre (K : Dev nD × CK → ℕ) (c : Dev nD) : sProp 𝕄 :=
  iprop((ghost m ρ K c ∗ launchCreds c ∗ levAts L lv ∗ ∃ f, ((c : Thread nD τ).loc cc0_scratch0) ↦{fullShare} f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (X m ρ c) ∗ stg c cc0_stg1_0 (outVal m ρ c))

set_option maxHeartbeats 40000000 in
set_option maxRecDepth 65536 in
/-- The body, from bodyPre, one rule per effect (the entry) or per chunk and phase, to bodyPost. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel,
    semSignalWord, semWaitWord, Prog.lift, Prog.bind_op, Prog.bind_ret, Prog.pure_eq_ret, wp_deviceId]
  simp only [dev1_eq c, dev2_eq c]
  unfold bodyPre ghost linear launchCreds
  iintro ⟨⟨⟨⟨#HI, HatB, HtY, HtX, HG⟩, ⟨HcB, HC1, HC2⟩, #Hlev, Hscr⟩, Ho, ⟨%d0, %g0, %hg0, Hx⟩, ⟨%d1, %g1, %hg1, Hout⟩⟩, Hk⟩
  have hx : g0 = X m ρ c := by rw [hg0]; unfold Dat.before; rw [if_pos fetch_0]; rfl
  subst hx
  unfold Dat.owesAt Pipeline.owesWithin
  icases Ho with ⟨%W, %hW, HO⟩
  rw [show (dats m ρ 0 c).owed t0_0.castSucc = O₀ c from rfl]
  -- the buffers, chunk by chunk: the landing buffer; the result buffer's own and other half; the input buffer at half its share
  ihave HscrC := (scr_chunks_ex (F := F) c) $$ Hscr
  ihave HoutC := (o_chunks_ex (F := F) c) $$ [Hout]
  · iexists g1; iexact Hout
  icases HoutC with ⟨HoOwn, HoOth⟩
  ihave Hx2 := ((pointsTo_share (PosShare.mem_left_op_right fullShare)).1) $$ Hx
  icases Hx2 with ⟨HxL, HxR⟩
  obtain ⟨Rest, hRest⟩ := x_chunks m ρ c fullShare.right
  ihave HxC := (Entails.of_eq hRest) $$ HxR
  icases HxC with ⟨HxC, HxRest⟩
  -- the FIRST signal, to the second-axis partner's entry cell: its duty false, with this device's landing buffer
  iapply (Rounds.wp_signal 𝒱₀ ER (Rd m ρ) (c : Thread nD τ) none (dst := (yp c : Thread nD τ)) (κ := K (yp c, none))
      (d := false) (by rw [duties_bar]; exact Finset.mem_univ _) ((amount_bar m ρ (yp c) false).trans (by decide)) ()
      (oweL ((barCell (xp c), 1) :: ((js.map fun j => (arr1Cell (yp c) j, N)) ++ (js.map fun j => (arr2Cell (xp c) j, N))))) rfl)
    $$ [HO HtY HscrC]
  · isplitr; · iapply (inv_at m ρ K (yp c, none)); iexact HI
    isplitl [HO]; · iexact HO
    isplitl [HtY]; · iexact HtY
    isplitl [HscrC]
    · iapply (Entails.of_eq (payload_eq m ρ (yp c) none 0 false).symm)
      simp only [payOf]; unfold barPayY; rw [yp_yp]; iexact HscrC
    iapply (reached_at m ρ K (yp c, none)); iexact HI
  iintro HO
  -- the SECOND, to the first-axis partner's: its duty true, with the other half of this device's result buffer
  iapply (Rounds.wp_signal 𝒱₀ ER (Rd m ρ) (c : Thread nD τ) none (dst := (xp c : Thread nD τ)) (κ := K (xp c, none))
      (d := true) (by rw [duties_bar]; exact Finset.mem_univ _) ((amount_bar m ρ (xp c) true).trans (by decide)) () (owedB c js) rfl)
    $$ [HO HtX HoOth]
  · isplitr; · iapply (inv_at m ρ K (xp c, none)); iexact HI
    isplitl [HO]; · iexact HO
    isplitl [HtX]; · iexact HtX
    isplitl [HoOth]
    · iapply (Entails.of_eq (payload_eq m ρ (xp c) none 0 true).symm)
      simp only [payOf]; unfold barPayX; rw [xp_xp]; iexact HoOth
    iapply (reached_at m ρ K (xp c, none)); iexact HI
  iintro HO
  -- the WAIT for two units on its own entry cell: both partners are inside, and their buffers come with the units
  iapply (Rounds.wp_wait_rest_token 𝒱₀ ER (Rd m ρ) (c : Thread nD τ) none (κ := K (c, none))
      (wpE_semWait_eq 𝒱₀ (c : Thread nD τ) none Set.univ) (Set.mem_univ _) () (O := owedB c js) (W := W) (R := 0) (m := 0) (T := ∅)
      (by rw [expect_bar]; decide)) $$ [HcB HO HatB]
  · isplitr; · iapply (inv_at m ρ K (c, none)); iexact HI
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPayY barPayX chunkGhost
  simp only [bigSepL_js]
  icases Hp with ⟨⟨⟨%f0, Hr0⟩, ⟨%f1, Hr1⟩, ⟨%f2, Hr2⟩, ⟨%f3, Hr3⟩, ⟨%f4, Hr4⟩, ⟨%f5, Hr5⟩, ⟨%f6, Hr6⟩, ⟨%f7, Hr7⟩, ⟨%f8, Hr8⟩, ⟨%f9, Hr9⟩, ⟨%f10, Hr10⟩, ⟨%f11, Hr11⟩, ⟨%f12, Hr12⟩, ⟨%f13, Hr13⟩, ⟨%f14, Hr14⟩, ⟨%f15, Hr15⟩⟩, ⟨⟨%g0, Hp0⟩, ⟨%g1, Hp1⟩, ⟨%g2, Hp2⟩, ⟨%g3, Hp3⟩, ⟨%g4, Hp4⟩, ⟨%g5, Hp5⟩, ⟨%g6, Hp6⟩, ⟨%g7, Hp7⟩, ⟨%g8, Hp8⟩, ⟨%g9, Hp9⟩, ⟨%g10, Hp10⟩, ⟨%g11, Hp11⟩, ⟨%g12, Hp12⟩, ⟨%g13, Hp13⟩, ⟨%g14, Hp14⟩, ⟨%g15, Hp15⟩⟩⟩
  icases HG with ⟨⟨Ha1_0, Ha2_0, Ha3_0, Ha4_0, Hta0, Htb0, Htc0, Htd0⟩, ⟨Ha1_1, Ha2_1, Ha3_1, Ha4_1, Hta1, Htb1, Htc1, Htd1⟩, ⟨Ha1_2, Ha2_2, Ha3_2, Ha4_2, Hta2, Htb2, Htc2, Htd2⟩, ⟨Ha1_3, Ha2_3, Ha3_3, Ha4_3, Hta3, Htb3, Htc3, Htd3⟩, ⟨Ha1_4, Ha2_4, Ha3_4, Ha4_4, Hta4, Htb4, Htc4, Htd4⟩, ⟨Ha1_5, Ha2_5, Ha3_5, Ha4_5, Hta5, Htb5, Htc5, Htd5⟩, ⟨Ha1_6, Ha2_6, Ha3_6, Ha4_6, Hta6, Htb6, Htc6, Htd6⟩, ⟨Ha1_7, Ha2_7, Ha3_7, Ha4_7, Hta7, Htb7, Htc7, Htd7⟩, ⟨Ha1_8, Ha2_8, Ha3_8, Ha4_8, Hta8, Htb8, Htc8, Htd8⟩, ⟨Ha1_9, Ha2_9, Ha3_9, Ha4_9, Hta9, Htb9, Htc9, Htd9⟩, ⟨Ha1_10, Ha2_10, Ha3_10, Ha4_10, Hta10, Htb10, Htc10, Htd10⟩, ⟨Ha1_11, Ha2_11, Ha3_11, Ha4_11, Hta11, Htb11, Htc11, Htd11⟩, ⟨Ha1_12, Ha2_12, Ha3_12, Ha4_12, Hta12, Htb12, Htc12, Htd12⟩, ⟨Ha1_13, Ha2_13, Ha3_13, Ha4_13, Hta13, Htb13, Htc13, Htd13⟩, ⟨Ha1_14, Ha2_14, Ha3_14, Ha4_14, Hta14, Htb14, Htc14, Htd14⟩, ⟨Ha1_15, Ha2_15, Ha3_15, Ha4_15, Hta15, Htb15, Htc15, Htd15⟩⟩
  icases HC1 with ⟨Hcr0, Hcr1, Hcr2, Hcr3, Hcr4, Hcr5, Hcr6, Hcr7, Hcr8, Hcr9, Hcr10, Hcr11, Hcr12, Hcr13, Hcr14, Hcr15⟩
  icases HC2 with ⟨Hcq0, Hcq1, Hcq2, Hcq3, Hcq4, Hcq5, Hcq6, Hcq7, Hcq8, Hcq9, Hcq10, Hcq11, Hcq12, Hcq13, Hcq14, Hcq15⟩
  icases HxC with ⟨Hx0, Hx1, Hx2, Hx3, Hx4, Hx5, Hx6, Hx7, Hx8, Hx9, Hx10, Hx11, Hx12, Hx13, Hx14, Hx15⟩
  icases HoOwn with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩, ⟨%fo8, Ho8⟩, ⟨%fo9, Ho9⟩, ⟨%fo10, Ho10⟩, ⟨%fo11, Ho11⟩, ⟨%fo12, Ho12⟩, ⟨%fo13, Ho13⟩, ⟨%fo14, Ho14⟩, ⟨%fo15, Ho15⟩⟩
  -- PHASE 1, chunk by chunk
  rw [owedB_cons c 0 [1, 2, 3, 4, 5, 6, 7, 8, 9, 10, 11, 12, 13, 14, 15]]
  iapply (wp_B m ρ K c 0 (owedB c [1, 2, 3, 4, 5, 6, 7, 8, 9, 10, 11, 12, 13, 14, 15]) _ _ (dev3_eq c) f0) $$ HI HO Hx0 Hr0 Hta0 Htb0
  iintro ⟨Hca0, HO⟩
  rw [owedB_cons c 1 [2, 3, 4, 5, 6, 7, 8, 9, 10, 11, 12, 13, 14, 15]]
  iapply (wp_B m ρ K c 1 (owedB c [2, 3, 4, 5, 6, 7, 8, 9, 10, 11, 12, 13, 14, 15]) _ _ (dev4_eq c) f1) $$ HI HO Hx1 Hr1 Hta1 Htb1
  iintro ⟨Hca1, HO⟩
  rw [owedB_cons c 2 [3, 4, 5, 6, 7, 8, 9, 10, 11, 12, 13, 14, 15]]
  iapply (wp_B m ρ K c 2 (owedB c [3, 4, 5, 6, 7, 8, 9, 10, 11, 12, 13, 14, 15]) _ _ (dev5_eq c) f2) $$ HI HO Hx2 Hr2 Hta2 Htb2
  iintro ⟨Hca2, HO⟩
  rw [owedB_cons c 3 [4, 5, 6, 7, 8, 9, 10, 11, 12, 13, 14, 15]]
  iapply (wp_B m ρ K c 3 (owedB c [4, 5, 6, 7, 8, 9, 10, 11, 12, 13, 14, 15]) _ _ (dev6_eq c) f3) $$ HI HO Hx3 Hr3 Hta3 Htb3
  iintro ⟨Hca3, HO⟩
  rw [owedB_cons c 4 [5, 6, 7, 8, 9, 10, 11, 12, 13, 14, 15]]
  iapply (wp_B m ρ K c 4 (owedB c [5, 6, 7, 8, 9, 10, 11, 12, 13, 14, 15]) _ _ (dev7_eq c) f4) $$ HI HO Hx4 Hr4 Hta4 Htb4
  iintro ⟨Hca4, HO⟩
  rw [owedB_cons c 5 [6, 7, 8, 9, 10, 11, 12, 13, 14, 15]]
  iapply (wp_B m ρ K c 5 (owedB c [6, 7, 8, 9, 10, 11, 12, 13, 14, 15]) _ _ (dev8_eq c) f5) $$ HI HO Hx5 Hr5 Hta5 Htb5
  iintro ⟨Hca5, HO⟩
  rw [owedB_cons c 6 [7, 8, 9, 10, 11, 12, 13, 14, 15]]
  iapply (wp_B m ρ K c 6 (owedB c [7, 8, 9, 10, 11, 12, 13, 14, 15]) _ _ (dev9_eq c) f6) $$ HI HO Hx6 Hr6 Hta6 Htb6
  iintro ⟨Hca6, HO⟩
  rw [owedB_cons c 7 [8, 9, 10, 11, 12, 13, 14, 15]]
  iapply (wp_B m ρ K c 7 (owedB c [8, 9, 10, 11, 12, 13, 14, 15]) _ _ (dev10_eq c) f7) $$ HI HO Hx7 Hr7 Hta7 Htb7
  iintro ⟨Hca7, HO⟩
  rw [owedB_cons c 8 [9, 10, 11, 12, 13, 14, 15]]
  iapply (wp_B m ρ K c 8 (owedB c [9, 10, 11, 12, 13, 14, 15]) _ _ (dev11_eq c) f8) $$ HI HO Hx8 Hr8 Hta8 Htb8
  iintro ⟨Hca8, HO⟩
  rw [owedB_cons c 9 [10, 11, 12, 13, 14, 15]]
  iapply (wp_B m ρ K c 9 (owedB c [10, 11, 12, 13, 14, 15]) _ _ (dev12_eq c) f9) $$ HI HO Hx9 Hr9 Hta9 Htb9
  iintro ⟨Hca9, HO⟩
  rw [owedB_cons c 10 [11, 12, 13, 14, 15]]
  iapply (wp_B m ρ K c 10 (owedB c [11, 12, 13, 14, 15]) _ _ (dev13_eq c) f10) $$ HI HO Hx10 Hr10 Hta10 Htb10
  iintro ⟨Hca10, HO⟩
  rw [owedB_cons c 11 [12, 13, 14, 15]]
  iapply (wp_B m ρ K c 11 (owedB c [12, 13, 14, 15]) _ _ (dev14_eq c) f11) $$ HI HO Hx11 Hr11 Hta11 Htb11
  iintro ⟨Hca11, HO⟩
  rw [owedB_cons c 12 [13, 14, 15]]
  iapply (wp_B m ρ K c 12 (owedB c [13, 14, 15]) _ _ (dev15_eq c) f12) $$ HI HO Hx12 Hr12 Hta12 Htb12
  iintro ⟨Hca12, HO⟩
  rw [owedB_cons c 13 [14, 15]]
  iapply (wp_B m ρ K c 13 (owedB c [14, 15]) _ _ (dev16_eq c) f13) $$ HI HO Hx13 Hr13 Hta13 Htb13
  iintro ⟨Hca13, HO⟩
  rw [owedB_cons c 14 [15]]
  iapply (wp_B m ρ K c 14 (owedB c [15]) _ _ (dev17_eq c) f14) $$ HI HO Hx14 Hr14 Hta14 Htb14
  iintro ⟨Hca14, HO⟩
  rw [owedB_cons c 15 []]
  iapply (wp_B m ρ K c 15 (owedB c []) _ _ (dev18_eq c) f15) $$ HI HO Hx15 Hr15 Hta15 Htb15
  iintro ⟨Hca15, HO⟩
  -- PHASE 2, chunk by chunk
  rw [owedB_nil c]
  rw [owedPhase2_cons c 0 [1, 2, 3, 4, 5, 6, 7, 8, 9, 10, 11, 12, 13, 14, 15]]
  iapply (wp_C m ρ K c 0 [1, 2, 3, 4, 5, 6, 7, 8, 9, 10, 11, 12, 13, 14, 15] _ _ (dev19_eq c) _ (fun _ _ => rfl) fo0 g0) $$ HI Hlev HO Hcr0 Ha2_0 HxL Ho0 Hp0 Htc0 Htd0
  iintro ⟨%W0, HO, Ha2_0, Hl0, HxL, Hcc0⟩
  rw [owedPhase2_cons c 1 [2, 3, 4, 5, 6, 7, 8, 9, 10, 11, 12, 13, 14, 15]]
  iapply (wp_C m ρ K c 1 [2, 3, 4, 5, 6, 7, 8, 9, 10, 11, 12, 13, 14, 15] _ _ (dev20_eq c) _ (fun _ _ => rfl) fo1 g1) $$ HI Hlev HO Hcr1 Ha2_1 HxL Ho1 Hp1 Htc1 Htd1
  iintro ⟨%W1, HO, Ha2_1, Hl1, HxL, Hcc1⟩
  rw [owedPhase2_cons c 2 [3, 4, 5, 6, 7, 8, 9, 10, 11, 12, 13, 14, 15]]
  iapply (wp_C m ρ K c 2 [3, 4, 5, 6, 7, 8, 9, 10, 11, 12, 13, 14, 15] _ _ (dev21_eq c) _ (fun _ _ => rfl) fo2 g2) $$ HI Hlev HO Hcr2 Ha2_2 HxL Ho2 Hp2 Htc2 Htd2
  iintro ⟨%W2, HO, Ha2_2, Hl2, HxL, Hcc2⟩
  rw [owedPhase2_cons c 3 [4, 5, 6, 7, 8, 9, 10, 11, 12, 13, 14, 15]]
  iapply (wp_C m ρ K c 3 [4, 5, 6, 7, 8, 9, 10, 11, 12, 13, 14, 15] _ _ (dev22_eq c) _ (fun _ _ => rfl) fo3 g3) $$ HI Hlev HO Hcr3 Ha2_3 HxL Ho3 Hp3 Htc3 Htd3
  iintro ⟨%W3, HO, Ha2_3, Hl3, HxL, Hcc3⟩
  rw [owedPhase2_cons c 4 [5, 6, 7, 8, 9, 10, 11, 12, 13, 14, 15]]
  iapply (wp_C m ρ K c 4 [5, 6, 7, 8, 9, 10, 11, 12, 13, 14, 15] _ _ (dev23_eq c) _ (fun _ _ => rfl) fo4 g4) $$ HI Hlev HO Hcr4 Ha2_4 HxL Ho4 Hp4 Htc4 Htd4
  iintro ⟨%W4, HO, Ha2_4, Hl4, HxL, Hcc4⟩
  rw [owedPhase2_cons c 5 [6, 7, 8, 9, 10, 11, 12, 13, 14, 15]]
  iapply (wp_C m ρ K c 5 [6, 7, 8, 9, 10, 11, 12, 13, 14, 15] _ _ (dev24_eq c) _ (fun _ _ => rfl) fo5 g5) $$ HI Hlev HO Hcr5 Ha2_5 HxL Ho5 Hp5 Htc5 Htd5
  iintro ⟨%W5, HO, Ha2_5, Hl5, HxL, Hcc5⟩
  rw [owedPhase2_cons c 6 [7, 8, 9, 10, 11, 12, 13, 14, 15]]
  iapply (wp_C m ρ K c 6 [7, 8, 9, 10, 11, 12, 13, 14, 15] _ _ (dev25_eq c) _ (fun _ _ => rfl) fo6 g6) $$ HI Hlev HO Hcr6 Ha2_6 HxL Ho6 Hp6 Htc6 Htd6
  iintro ⟨%W6, HO, Ha2_6, Hl6, HxL, Hcc6⟩
  rw [owedPhase2_cons c 7 [8, 9, 10, 11, 12, 13, 14, 15]]
  iapply (wp_C m ρ K c 7 [8, 9, 10, 11, 12, 13, 14, 15] _ _ (dev26_eq c) _ (fun _ _ => rfl) fo7 g7) $$ HI Hlev HO Hcr7 Ha2_7 HxL Ho7 Hp7 Htc7 Htd7
  iintro ⟨%W7, HO, Ha2_7, Hl7, HxL, Hcc7⟩
  rw [owedPhase2_cons c 8 [9, 10, 11, 12, 13, 14, 15]]
  iapply (wp_C m ρ K c 8 [9, 10, 11, 12, 13, 14, 15] _ _ (dev27_eq c) _ (fun _ _ => rfl) fo8 g8) $$ HI Hlev HO Hcr8 Ha2_8 HxL Ho8 Hp8 Htc8 Htd8
  iintro ⟨%W8, HO, Ha2_8, Hl8, HxL, Hcc8⟩
  rw [owedPhase2_cons c 9 [10, 11, 12, 13, 14, 15]]
  iapply (wp_C m ρ K c 9 [10, 11, 12, 13, 14, 15] _ _ (dev28_eq c) _ (fun _ _ => rfl) fo9 g9) $$ HI Hlev HO Hcr9 Ha2_9 HxL Ho9 Hp9 Htc9 Htd9
  iintro ⟨%W9, HO, Ha2_9, Hl9, HxL, Hcc9⟩
  rw [owedPhase2_cons c 10 [11, 12, 13, 14, 15]]
  iapply (wp_C m ρ K c 10 [11, 12, 13, 14, 15] _ _ (dev29_eq c) _ (fun _ _ => rfl) fo10 g10) $$ HI Hlev HO Hcr10 Ha2_10 HxL Ho10 Hp10 Htc10 Htd10
  iintro ⟨%W10, HO, Ha2_10, Hl10, HxL, Hcc10⟩
  rw [owedPhase2_cons c 11 [12, 13, 14, 15]]
  iapply (wp_C m ρ K c 11 [12, 13, 14, 15] _ _ (dev30_eq c) _ (fun _ _ => rfl) fo11 g11) $$ HI Hlev HO Hcr11 Ha2_11 HxL Ho11 Hp11 Htc11 Htd11
  iintro ⟨%W11, HO, Ha2_11, Hl11, HxL, Hcc11⟩
  rw [owedPhase2_cons c 12 [13, 14, 15]]
  iapply (wp_C m ρ K c 12 [13, 14, 15] _ _ (dev31_eq c) _ (fun _ _ => rfl) fo12 g12) $$ HI Hlev HO Hcr12 Ha2_12 HxL Ho12 Hp12 Htc12 Htd12
  iintro ⟨%W12, HO, Ha2_12, Hl12, HxL, Hcc12⟩
  rw [owedPhase2_cons c 13 [14, 15]]
  iapply (wp_C m ρ K c 13 [14, 15] _ _ (dev32_eq c) _ (fun _ _ => rfl) fo13 g13) $$ HI Hlev HO Hcr13 Ha2_13 HxL Ho13 Hp13 Htc13 Htd13
  iintro ⟨%W13, HO, Ha2_13, Hl13, HxL, Hcc13⟩
  rw [owedPhase2_cons c 14 [15]]
  iapply (wp_C m ρ K c 14 [15] _ _ (dev33_eq c) _ (fun _ _ => rfl) fo14 g14) $$ HI Hlev HO Hcr14 Ha2_14 HxL Ho14 Hp14 Htc14 Htd14
  iintro ⟨%W14, HO, Ha2_14, Hl14, HxL, Hcc14⟩
  rw [owedPhase2_cons c 15 []]
  iapply (wp_C m ρ K c 15 [] _ _ (dev34_eq c) _ (fun _ _ => rfl) fo15 g15) $$ HI Hlev HO Hcr15 Ha2_15 HxL Ho15 Hp15 Htc15 Htd15
  iintro ⟨%W15, HO, Ha2_15, Hl15, HxL, Hcc15⟩
  -- PHASE 3, chunk by chunk
  rw [owedPhase2_nil c]
  iapply (wp_D m ρ K c 0 _) $$ HI HO Hcq0 Ha4_0 Hca0 Ha1_0 Hcc0 Ha3_0 Ha2_0
  iintro ⟨%V0, HO, Hq0, Hx0, Ho0, Hz1_0, Hz2_0, Hz3_0, Hz4_0⟩
  iapply (wp_D m ρ K c 1 _) $$ HI HO Hcq1 Ha4_1 Hca1 Ha1_1 Hcc1 Ha3_1 Ha2_1
  iintro ⟨%V1, HO, Hq1, Hx1, Ho1, Hz1_1, Hz2_1, Hz3_1, Hz4_1⟩
  iapply (wp_D m ρ K c 2 _) $$ HI HO Hcq2 Ha4_2 Hca2 Ha1_2 Hcc2 Ha3_2 Ha2_2
  iintro ⟨%V2, HO, Hq2, Hx2, Ho2, Hz1_2, Hz2_2, Hz3_2, Hz4_2⟩
  iapply (wp_D m ρ K c 3 _) $$ HI HO Hcq3 Ha4_3 Hca3 Ha1_3 Hcc3 Ha3_3 Ha2_3
  iintro ⟨%V3, HO, Hq3, Hx3, Ho3, Hz1_3, Hz2_3, Hz3_3, Hz4_3⟩
  iapply (wp_D m ρ K c 4 _) $$ HI HO Hcq4 Ha4_4 Hca4 Ha1_4 Hcc4 Ha3_4 Ha2_4
  iintro ⟨%V4, HO, Hq4, Hx4, Ho4, Hz1_4, Hz2_4, Hz3_4, Hz4_4⟩
  iapply (wp_D m ρ K c 5 _) $$ HI HO Hcq5 Ha4_5 Hca5 Ha1_5 Hcc5 Ha3_5 Ha2_5
  iintro ⟨%V5, HO, Hq5, Hx5, Ho5, Hz1_5, Hz2_5, Hz3_5, Hz4_5⟩
  iapply (wp_D m ρ K c 6 _) $$ HI HO Hcq6 Ha4_6 Hca6 Ha1_6 Hcc6 Ha3_6 Ha2_6
  iintro ⟨%V6, HO, Hq6, Hx6, Ho6, Hz1_6, Hz2_6, Hz3_6, Hz4_6⟩
  iapply (wp_D m ρ K c 7 _) $$ HI HO Hcq7 Ha4_7 Hca7 Ha1_7 Hcc7 Ha3_7 Ha2_7
  iintro ⟨%V7, HO, Hq7, Hx7, Ho7, Hz1_7, Hz2_7, Hz3_7, Hz4_7⟩
  iapply (wp_D m ρ K c 8 _) $$ HI HO Hcq8 Ha4_8 Hca8 Ha1_8 Hcc8 Ha3_8 Ha2_8
  iintro ⟨%V8, HO, Hq8, Hx8, Ho8, Hz1_8, Hz2_8, Hz3_8, Hz4_8⟩
  iapply (wp_D m ρ K c 9 _) $$ HI HO Hcq9 Ha4_9 Hca9 Ha1_9 Hcc9 Ha3_9 Ha2_9
  iintro ⟨%V9, HO, Hq9, Hx9, Ho9, Hz1_9, Hz2_9, Hz3_9, Hz4_9⟩
  iapply (wp_D m ρ K c 10 _) $$ HI HO Hcq10 Ha4_10 Hca10 Ha1_10 Hcc10 Ha3_10 Ha2_10
  iintro ⟨%V10, HO, Hq10, Hx10, Ho10, Hz1_10, Hz2_10, Hz3_10, Hz4_10⟩
  iapply (wp_D m ρ K c 11 _) $$ HI HO Hcq11 Ha4_11 Hca11 Ha1_11 Hcc11 Ha3_11 Ha2_11
  iintro ⟨%V11, HO, Hq11, Hx11, Ho11, Hz1_11, Hz2_11, Hz3_11, Hz4_11⟩
  iapply (wp_D m ρ K c 12 _) $$ HI HO Hcq12 Ha4_12 Hca12 Ha1_12 Hcc12 Ha3_12 Ha2_12
  iintro ⟨%V12, HO, Hq12, Hx12, Ho12, Hz1_12, Hz2_12, Hz3_12, Hz4_12⟩
  iapply (wp_D m ρ K c 13 _) $$ HI HO Hcq13 Ha4_13 Hca13 Ha1_13 Hcc13 Ha3_13 Ha2_13
  iintro ⟨%V13, HO, Hq13, Hx13, Ho13, Hz1_13, Hz2_13, Hz3_13, Hz4_13⟩
  iapply (wp_D m ρ K c 14 _) $$ HI HO Hcq14 Ha4_14 Hca14 Ha1_14 Hcc14 Ha3_14 Ha2_14
  iintro ⟨%V14, HO, Hq14, Hx14, Ho14, Hz1_14, Hz2_14, Hz3_14, Hz4_14⟩
  iapply (wp_D m ρ K c 15 _) $$ HI HO Hcq15 Ha4_15 Hca15 Ha1_15 Hcc15 Ha3_15 Ha2_15
  iintro ⟨%V15, HO, Hq15, Hx15, Ho15, Hz1_15, Hz2_15, Hz3_15, Hz4_15⟩
  rw [wp_ret]; imodintro
  iapply Hk
  unfold bodyPost Φ₁ Dat.owesAt Pipeline.owesWithin
  rw [show (dats m ρ 0 c).owed t0_0.succ = 0 from rfl, scr_chunks, sems_eq]
  simp only [bigSepL_js]
  isplitl [Hl0 Hl1 Hl2 Hl3 Hl4 Hl5 Hl6 Hl7 Hl8 Hl9 Hl10 Hl11 Hl12 Hl13 Hl14 Hl15 Hz1_0 Hz2_0 Hz3_0 Hz4_0 Hz1_1 Hz2_1 Hz3_1 Hz4_1 Hz1_2 Hz2_2 Hz3_2 Hz4_2 Hz1_3 Hz2_3 Hz3_3 Hz4_3 Hz1_4 Hz2_4 Hz3_4 Hz4_4 Hz1_5 Hz2_5 Hz3_5 Hz4_5 Hz1_6 Hz2_6 Hz3_6 Hz4_6 Hz1_7 Hz2_7 Hz3_7 Hz4_7 Hz1_8 Hz2_8 Hz3_8 Hz4_8 Hz1_9 Hz2_9 Hz3_9 Hz4_9 Hz1_10 Hz2_10 Hz3_10 Hz4_10 Hz1_11 Hz2_11 Hz3_11 Hz4_11 Hz1_12 Hz2_12 Hz3_12 Hz4_12 Hz1_13 Hz2_13 Hz3_13 Hz4_13 Hz1_14 Hz2_14 Hz3_14 Hz4_14 Hz1_15 Hz2_15 Hz3_15 Hz4_15]
  · isplitl [Hl0 Hl1 Hl2 Hl3 Hl4 Hl5 Hl6 Hl7 Hl8 Hl9 Hl10 Hl11 Hl12 Hl13 Hl14 Hl15]
    · skip
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      isplitl [Hl7]; · iexact Hl7
      isplitl [Hl8]; · iexact Hl8
      isplitl [Hl9]; · iexact Hl9
      isplitl [Hl10]; · iexact Hl10
      isplitl [Hl11]; · iexact Hl11
      isplitl [Hl12]; · iexact Hl12
      isplitl [Hl13]; · iexact Hl13
      isplitl [Hl14]; · iexact Hl14
      iexact Hl15
    isplitl [Hz1_0 Hz1_1 Hz1_2 Hz1_3 Hz1_4 Hz1_5 Hz1_6 Hz1_7 Hz1_8 Hz1_9 Hz1_10 Hz1_11 Hz1_12 Hz1_13 Hz1_14 Hz1_15]
    · skip
      isplitl [Hz1_0]; · iexact Hz1_0
      isplitl [Hz1_1]; · iexact Hz1_1
      isplitl [Hz1_2]; · iexact Hz1_2
      isplitl [Hz1_3]; · iexact Hz1_3
      isplitl [Hz1_4]; · iexact Hz1_4
      isplitl [Hz1_5]; · iexact Hz1_5
      isplitl [Hz1_6]; · iexact Hz1_6
      isplitl [Hz1_7]; · iexact Hz1_7
      isplitl [Hz1_8]; · iexact Hz1_8
      isplitl [Hz1_9]; · iexact Hz1_9
      isplitl [Hz1_10]; · iexact Hz1_10
      isplitl [Hz1_11]; · iexact Hz1_11
      isplitl [Hz1_12]; · iexact Hz1_12
      isplitl [Hz1_13]; · iexact Hz1_13
      isplitl [Hz1_14]; · iexact Hz1_14
      iexact Hz1_15
    isplitl [Hz2_0 Hz2_1 Hz2_2 Hz2_3 Hz2_4 Hz2_5 Hz2_6 Hz2_7 Hz2_8 Hz2_9 Hz2_10 Hz2_11 Hz2_12 Hz2_13 Hz2_14 Hz2_15]
    · skip
      isplitl [Hz2_0]; · iexact Hz2_0
      isplitl [Hz2_1]; · iexact Hz2_1
      isplitl [Hz2_2]; · iexact Hz2_2
      isplitl [Hz2_3]; · iexact Hz2_3
      isplitl [Hz2_4]; · iexact Hz2_4
      isplitl [Hz2_5]; · iexact Hz2_5
      isplitl [Hz2_6]; · iexact Hz2_6
      isplitl [Hz2_7]; · iexact Hz2_7
      isplitl [Hz2_8]; · iexact Hz2_8
      isplitl [Hz2_9]; · iexact Hz2_9
      isplitl [Hz2_10]; · iexact Hz2_10
      isplitl [Hz2_11]; · iexact Hz2_11
      isplitl [Hz2_12]; · iexact Hz2_12
      isplitl [Hz2_13]; · iexact Hz2_13
      isplitl [Hz2_14]; · iexact Hz2_14
      iexact Hz2_15
    isplitl [Hz3_0 Hz3_1 Hz3_2 Hz3_3 Hz3_4 Hz3_5 Hz3_6 Hz3_7 Hz3_8 Hz3_9 Hz3_10 Hz3_11 Hz3_12 Hz3_13 Hz3_14 Hz3_15]
    · skip
      isplitl [Hz3_0]; · iexact Hz3_0
      isplitl [Hz3_1]; · iexact Hz3_1
      isplitl [Hz3_2]; · iexact Hz3_2
      isplitl [Hz3_3]; · iexact Hz3_3
      isplitl [Hz3_4]; · iexact Hz3_4
      isplitl [Hz3_5]; · iexact Hz3_5
      isplitl [Hz3_6]; · iexact Hz3_6
      isplitl [Hz3_7]; · iexact Hz3_7
      isplitl [Hz3_8]; · iexact Hz3_8
      isplitl [Hz3_9]; · iexact Hz3_9
      isplitl [Hz3_10]; · iexact Hz3_10
      isplitl [Hz3_11]; · iexact Hz3_11
      isplitl [Hz3_12]; · iexact Hz3_12
      isplitl [Hz3_13]; · iexact Hz3_13
      isplitl [Hz3_14]; · iexact Hz3_14
      iexact Hz3_15
    isplitl [Hz4_0]; · iexact Hz4_0
    isplitl [Hz4_1]; · iexact Hz4_1
    isplitl [Hz4_2]; · iexact Hz4_2
    isplitl [Hz4_3]; · iexact Hz4_3
    isplitl [Hz4_4]; · iexact Hz4_4
    isplitl [Hz4_5]; · iexact Hz4_5
    isplitl [Hz4_6]; · iexact Hz4_6
    isplitl [Hz4_7]; · iexact Hz4_7
    isplitl [Hz4_8]; · iexact Hz4_8
    isplitl [Hz4_9]; · iexact Hz4_9
    isplitl [Hz4_10]; · iexact Hz4_10
    isplitl [Hz4_11]; · iexact Hz4_11
    isplitl [Hz4_12]; · iexact Hz4_12
    isplitl [Hz4_13]; · iexact Hz4_13
    isplitl [Hz4_14]; · iexact Hz4_14
    iexact Hz4_15
  isplitl [HO]
  · iexists V15
    isplitr; · ipureintro; exact fun _ _ => Or.inl trivial
    iexact HO
  isplitl [HxL HxRest Hx0 Hx1 Hx2 Hx3 Hx4 Hx5 Hx6 Hx7 Hx8 Hx9 Hx10 Hx11 Hx12 Hx13 Hx14 Hx15]
  · iexists _; isplitr; · (ipureintro; rfl)
    iapply ((pointsTo_share (PosShare.mem_left_op_right fullShare)).2)
    isplitl [HxL]; · iexact HxL
    iapply (Entails.of_eq hRest.symm)
    simp only [bigSepL_js]
    isplitr [HxRest]
    · skip
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      isplitl [Hx12]; · iexact Hx12
      isplitl [Hx13]; · iexact Hx13
      isplitl [Hx14]; · iexact Hx14
      iexact Hx15
    iexact HxRest
  iexists _; isplitr; · (ipureintro; rfl)
  rw [o_chunks]
  simp only [bigSepL_js]
  isplitl [Ho0 Ho1 Ho2 Ho3 Ho4 Ho5 Ho6 Ho7 Ho8 Ho9 Ho10 Ho11 Ho12 Ho13 Ho14 Ho15]
  · skip
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  iexact Hq15

/-- The library's body obligation on device c. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 2) t0_0 d))
      ∗ (∃ d, stg c cc0_stg1_0 ((dats m ρ 0 c).before (1 : Fin 2) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2 cc0_scratch3 cc0_scratch4) (fun _ => bodyPost m ρ c)
  unfold Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Cert.KernelProof
end
-- ==== Proof.KLaunch.lean ====
/-
The launch: the protocol's ghost state is allocated for all devices at once (the entry semaphore is the runtime's, shared by
the three devices that touch it), dealt to the devices, and the region's launch theorem turns the devices' body obligations
into a run of the whole program; the arrays' final contents are read off the proof data.
-/
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Mesh
import proofs.«900139_g7700000000000140_dist_ar_v7x_xy2x2_y_m1024_n512_f32_1_alg».proof.Proof.KProtocol
import proofs.«900139_g7700000000000140_dist_ar_v7x_xy2x2_y_m1024_n512_f32_1_alg».proof.Proof.KTables
import proofs.«900139_g7700000000000140_dist_ar_v7x_xy2x2_y_m1024_n512_f32_1_alg».proof.Proof.KLevels
import Idealize.ShloMosaic.Lib.Pipeline.Launch
import Idealize.ShloMosaic.Lib.Pipeline.Kit
import Idealize.ShloMosaic.Lib.Ring
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The kernel's own semaphores: the sixty-four transfer semaphores. -/
abbrev osem : Fin 4 × Fin 16 → SemLoc sig := fun aj => csem (some aj)

theorem osem_scoped : ∀ k : Fin 4 × Fin 16, (osem k).isScoped .tc = true := by decide
theorem osem_disj : ∀ (k : Fin 4 × Fin 16) (w : Fin cfg0.W) (s : Fin (cfg0.spec w).nbuf), osem k ≠ .dma ((cfg0.spec w).sem s) := by decide

theorem ownSemFacts : Pipeline.OwnSemFacts cfg0.spec osem :=
  ⟨osem_scoped, fun _ _ h => Option.some.inj (csem_injective h), osem_disj⟩

theorem share_eq (c : Dev nD) (w : Fin cfg0.W) : (dats m ρ 0 c).share w = fullShare := by unfold Dat.share; split <;> rfl

/-- The cells of the protocol: every device's sixty-five. -/
def protoCells : Finset (GSem nD τ sig) := Finset.univ.map ⟨kcell, kcell_injective⟩

/-- The duty tokens minted at launch, by (device, which): the entry cell's two duties, and the one duty of the transfer
    cell (array a, chunk j), listed chunk first. -/
abbrev TK : Type := Bool ⊕ (Fin 16 × Fin 4)
abbrev ckOf : TK → CK := Sum.elim (fun _ => none) (fun ja => some (ja.2, ja.1))
abbrev dOf : TK → Bool := Sum.elim id (fun _ => false)
abbrev tokOf (cx : Dev nD × TK) : GSem nD τ sig × ℕ × Bool := (kcell (cx.1, ckOf cx.2), 0, dOf cx.2)

theorem tokOf_injective : Function.Injective (tokOf : Dev nD × TK → GSem nD τ sig × ℕ × Bool) := by
  rintro ⟨c, x⟩ ⟨c', x'⟩ h
  have h1 : (c, ckOf x) = (c', ckOf x') := kcell_injective (congrArg (fun y : GSem nD τ sig × ℕ × Bool => y.1) h)
  have h2 : dOf x = dOf x' := congrArg (fun y : GSem nD τ sig × ℕ × Bool => y.2.2) h
  have hc : c = c' := congrArg Prod.fst h1
  have hk : ckOf x = ckOf x' := congrArg Prod.snd h1
  subst hc
  rcases x with b | ⟨j, a⟩ <;> rcases x' with b' | ⟨j', a'⟩
  · have : b = b' := h2
    subst this; rfl
  · exact absurd hk (by simp [ckOf])
  · exact absurd hk (by simp [ckOf])
  · have : (a, j) = (a', j') := Option.some.inj hk
    cases this; rfl

def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of device c's own cells, as minted. -/
def toks (c : Dev nD) : sProp 𝕄 :=
  iprop((bigSep Finset.univ fun b : Bool => dutyTok ER (barCell c) 0 b)
    ∗ bigSep Finset.univ fun ja : Fin 16 × Fin 4 => dutyTok ER (kcell (c, some (ja.2, ja.1))) 0 false)

/-- What the launch element deals device c. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_js (Φ : Fin 16 → sProp 𝕄) : bigSep Finset.univ Φ = bigSepL js Φ := bigSep_univ_eq_bigSepL js (by decide) (by decide) Φ

omit [FloatOps F] in
theorem bigSep_univ_option {α : Type} [Fintype α] (Φ : Option α → sProp 𝕄) :
    bigSep Finset.univ Φ = iprop(Φ none ∗ bigSep Finset.univ fun a => Φ (some a)) := by
  classical
  rw [show (Finset.univ : Finset (Option α)) = insert none (Finset.univ.map Function.Embedding.some) from by
      ext x; cases x <;> simp,
    bigSep_insert (by simp), bigSep_map]
  rfl

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 16 => semVal (kcell (c, some aj)) 0 := rfl
omit [FloatOps F] in
/-- the entry semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_univ_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device c pays: the entry signals to its two partners, and per chunk its two departures,
    the arrival at its second-axis partner and the arrival at its first-axis partner. -/
def payToks (c : Dev nD) : sProp 𝕄 :=
  iprop((dutyTok ER (barCell (yp c)) 0 false ∗ dutyTok ER (barCell (xp c)) 0 true)
    ∗ bigSep Finset.univ fun j : Fin 16 => iprop(dutyTok ER (dep1Cell c j) 0 false ∗ dutyTok ER (arr1Cell (yp c) j) 0 false
        ∗ dutyTok ER (dep2Cell c j) 0 false ∗ dutyTok ER (arr2Cell (xp c) j) 0 false))

theorem ghost_intro (K : Dev nD × CK → ℕ) (c : Dev nD) : iprop(records m ρ K ∗ linear c) ⊢ G' m ρ c := by
  unfold G' ghost
  iintro H
  iexists K
  iexact H

omit [FloatOps F] in
/-- A device's sixty-five positions and the tokens it pays with are what stays with it. -/
theorem linear_intro (c : Dev nD) :
    iprop((bigSep Finset.univ fun k : CK => (atPos ER (kcell (c, k)) 0 ∅ 0 : sProp 𝕄)) ∗ payToks c) ⊢ linear c := by
  unfold linear payToks
  rw [bigSep_univ_option, bigSep_univ_prod, bigSep_fin4, ← bigSep_js]
  unfold chunkGhost
  simp only [bigSep_sep']
  iintro ⟨⟨Hb, H0, H1, H2, H3⟩, ⟨Ty, Tx⟩, T0, T1, T2, T3⟩
  isplitl [Hb]; · iexact Hb
  isplitl [Ty]; · iexact Ty
  isplitl [Tx]; · iexact Tx
  isplitl [H0]; · iexact H0
  isplitl [H1]; · iexact H1
  isplitl [H2]; · iexact H2
  isplitl [H3]; · iexact H3
  isplitl [T0]; · iexact T0
  isplitl [T1]; · iexact T1
  isplitl [T2]; · iexact T2
  iexact T3

omit [FloatOps F] in
/-- A device's own tokens, chunk by chunk. -/
theorem toks_eq (c : Dev nD) : (toks c : sProp 𝕄) = iprop((dutyTok ER (barCell c) 0 false ∗ dutyTok ER (barCell c) 0 true)
    ∗ bigSep Finset.univ fun j : Fin 16 => iprop(dutyTok ER (dep1Cell c j) 0 false ∗ dutyTok ER (arr1Cell c j) 0 false
        ∗ dutyTok ER (dep2Cell c j) 0 false ∗ dutyTok ER (arr2Cell c j) 0 false)) := by
  unfold toks
  rw [bigSep_bool, bigSep_univ_prod,
    bigSep_congr (s := Finset.univ) fun (j : Fin 16) _ => bigSep_fin4 (fun a : Fin 4 => (dutyTok ER (kcell (c, some (a, j))) 0 false : sProp 𝕄))]

omit [FloatOps F] in
/-- The tokens dealt across the mesh: an entry cell's false token and a phase-1 arrival token go to the second-axis partner,
    an entry cell's true token and a phase-2 arrival token to the first-axis partner; departure tokens stay. -/
theorem toks_around : (bigSep Finset.univ fun c : Dev nD => (toks c : sProp 𝕄)) ⊢ bigSep Finset.univ fun c : Dev nD => payToks c := by
  have e1 := bigSep_univ_equiv ypEquiv (fun c : Dev nD => (dutyTok ER (barCell c) 0 false : sProp 𝕄))
  have e2 := bigSep_univ_equiv xpEquiv (fun c : Dev nD => (dutyTok ER (barCell c) 0 true : sProp 𝕄))
  have e3 := bigSep_univ_equiv ypEquiv (fun c : Dev nD => bigSep Finset.univ fun j : Fin 16 => (dutyTok ER (arr1Cell c j) 0 false : sProp 𝕄))
  have e4 := bigSep_univ_equiv xpEquiv (fun c : Dev nD => bigSep Finset.univ fun j : Fin 16 => (dutyTok ER (arr2Cell c j) 0 false : sProp 𝕄))
  simp only [toks_eq, payToks, bigSep_sep']
  iintro ⟨⟨H1, H2⟩, H3, H4, H5, H6⟩
  ihave H1' := (Entails.of_eq e1) $$ H1
  ihave H2' := (Entails.of_eq e2) $$ H2
  ihave H4' := (Entails.of_eq e3) $$ H4
  ihave H6' := (Entails.of_eq e4) $$ H6
  isplitl [H1' H2']
  · isplitl [H1']; · iexact H1'
    iexact H2'
  isplitl [H3]; · iexact H3
  isplitl [H4']; · iexact H4'
  isplitl [H5]; · iexact H5
  iexact H6'

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, Hz⟩
  isplitr; · iempintro
  isplitl [Hz]; · iexact Hz
  iexists (landVal m ρ c); iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters: given each device's body obligation, every weakly fair execution of the four
    devices terminates, and every final state has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the protocol's final contents of the result staging buffer. -/
theorem finalA_out (c : Dev nD) : finalA m ρ c (1 : Fin 2) = outVal m ρ c := by
  have h1 : finalA m ρ c (1 : Fin 2) = (dats m ρ 0 c).arrAt (1 : Fin 2) ((t0_0 : Fin cfg0.N).val + 1) := rfl
  rw [h1, Dat.arrAt_succ, flush0_1, if_pos rfl]
  exact Memref.write_access_unit_zero_univ (Elt F) main_v1 (funext fun a => Nat.zero_mul _) _ _ _

/-- info: 'Cert.KernelProof.run_main' depends on axioms: [propext, Classical.choice, Quot.sound] -/
#guard_msgs in #print axioms run_main

/-- info: 'Cert.KernelProof.finalA_x' depends on axioms: [propext, Classical.choice, Quot.sound] -/
#guard_msgs in #print axioms finalA_x

/-- info: 'Cert.KernelProof.finalA_out' depends on axioms: [propext, Classical.choice, Quot.sound] -/
#guard_msgs in #print axioms finalA_out

end Cert.KernelProof
end
-- ==== Proof.lean ====
/-
The five claims of the certificate, from the runs.

The kernel, on the four devices of the 2 × 2 mesh, is an all-reduce along the second mesh axis followed by an exchange
along the first: every device ends with the sum of its block and the block of its partner along the second axis, and
its argument unchanged. The run of the whole program (one theorem for the word-level program, one for its reading over
the extended reals) gives every device's two arrays their final contents; the frames read the argument array off it.
The reference, on one device over the whole argument, ends with row r of the first half plus row r of the second half.
Device c's block of the whole argument is its half number c mod 2, so a block plus the second-axis partner's block is
the reference's result: at the ideal instance every device's result is the value the reference's result holds.
The idealized program is the program's own text read over the extended reals, so there is nothing to preserve.
-/
import proofs.«900139_g7700000000000140_dist_ar_v7x_xy2x2_y_m1024_n512_f32_1_alg».proof.Defs
import proofs.«900139_g7700000000000140_dist_ar_v7x_xy2x2_y_m1024_n512_f32_1_alg».proof.Proof.Gen.Kernel
import proofs.«900139_g7700000000000140_dist_ar_v7x_xy2x2_y_m1024_n512_f32_1_alg».proof.Proof.Gen.Kernel.Skeleton
import proofs.«900139_g7700000000000140_dist_ar_v7x_xy2x2_y_m1024_n512_f32_1_alg».proof.Proof.Gen.Kernel.Launch
import proofs.«900139_g7700000000000140_dist_ar_v7x_xy2x2_y_m1024_n512_f32_1_alg».proof.Proof.Gen.Kernel.Points
import proofs.«900139_g7700000000000140_dist_ar_v7x_xy2x2_y_m1024_n512_f32_1_alg».proof.Proof.Gen.Kernel.Frame
import proofs.«900139_g7700000000000140_dist_ar_v7x_xy2x2_y_m1024_n512_f32_1_alg».proof.Proof.Gen.KernelIdeal
import proofs.«900139_g7700000000000140_dist_ar_v7x_xy2x2_y_m1024_n512_f32_1_alg».proof.Proof.Gen.KernelIdeal.Skeleton
import proofs.«900139_g7700000000000140_dist_ar_v7x_xy2x2_y_m1024_n512_f32_1_alg».proof.Proof.Gen.KernelIdeal.Launch
import proofs.«900139_g7700000000000140_dist_ar_v7x_xy2x2_y_m1024_n512_f32_1_alg».proof.Proof.Gen.KernelIdeal.Points
import proofs.«900139_g7700000000000140_dist_ar_v7x_xy2x2_y_m1024_n512_f32_1_alg».proof.Proof.Gen.KernelIdeal.Frame
import proofs.«900139_g7700000000000140_dist_ar_v7x_xy2x2_y_m1024_n512_f32_1_alg».proof.Proof.Gen.ReferenceIdeal
import proofs.«900139_g7700000000000140_dist_ar_v7x_xy2x2_y_m1024_n512_f32_1_alg».proof.Proof.Gen.Pre_finite_inputs_Kernel
import proofs.«900139_g7700000000000140_dist_ar_v7x_xy2x2_y_m1024_n512_f32_1_alg».proof.Proof.Gen.Pre_finite_inputs_ReferenceIdeal
import proofs.«900139_g7700000000000140_dist_ar_v7x_xy2x2_y_m1024_n512_f32_1_alg».proof.Proof.RefSide
import proofs.«900139_g7700000000000140_dist_ar_v7x_xy2x2_y_m1024_n512_f32_1_alg».proof.Proof.Bridge
import proofs.«900139_g7700000000000140_dist_ar_v7x_xy2x2_y_m1024_n512_f32_1_alg».proof.Proof.Body
import proofs.«900139_g7700000000000140_dist_ar_v7x_xy2x2_y_m1024_n512_f32_1_alg».proof.Proof.Launch
import proofs.«900139_g7700000000000140_dist_ar_v7x_xy2x2_y_m1024_n512_f32_1_alg».proof.Proof.KBody
import proofs.«900139_g7700000000000140_dist_ar_v7x_xy2x2_y_m1024_n512_f32_1_alg».proof.Proof.KLaunch
import Idealize.ShloMosaic.Adequacy
import Idealize.ShloMosaic.Init

noncomputable section

namespace Cert.Proof

open Idealize.ShloMosaic Idealize.SL.Sem

/-- The word-level program runs and every device's argument array ends as it began: the run, read at the input window. -/
theorem frame_kernel : Cert.frame_Kernel := by
  intro m g _
  exact (θ_run (Cert.Kernel.defs (F := Bits)) _ _).mono
    (fun _ h c => (h c (0 : Fin 2)).trans (Cert.KernelProof.finalA_x m g c))
    (Cert.KernelProof.run_main (F := Bits) m g (Cert.KernelProof.body_obligation m g))

/-- The same of the program read over the extended reals. -/
theorem frame_kernelIdeal : Cert.frame_KernelIdeal := by
  intro m g _
  exact (θ_run (Cert.KernelIdeal.defs (F := Ideal)) _ _).mono
    (fun _ h c => (h c (0 : Fin 2)).trans (Cert.KernelIdealProof.finalA_x m g c))
    (Cert.KernelIdealProof.run_main (F := Ideal) m g (Cert.KernelIdealProof.body_obligation m g))

/-- At the ideal instance, every device's blocks being their parts of the reference's whole argument: both programs
    run, every device's result array ends at the reference's result (row r of the first half plus row r of the second
    half of the whole argument), and the arguments of both end unchanged. -/
theorem algebraic : Cert.algebraic_KernelIdeal_ReferenceIdeal := by
  intro m g m' g' _ hag
  refine ⟨Cert.RefSide.refVal (m' (((0 : Dev Cert.ReferenceIdeal.nD).tc : Thread Cert.ReferenceIdeal.nD Cert.ReferenceIdeal.τ).loc Cert.ReferenceIdeal.main_arg0)),
    ?_, Cert.RefSide.ref_run m' g'⟩
  exact (θ_run (Cert.KernelIdeal.defs (F := Ideal)) _ _).mono
    (fun _ h c => ⟨((h c (1 : Fin 2)).trans (Cert.KernelIdealProof.finalA_out m g c)).trans (Cert.Bridge.outVal_eq_ref m g m' hag c),
      (h c (0 : Fin 2)).trans (Cert.KernelIdealProof.finalA_x m g c)⟩)
    (Cert.KernelIdealProof.run_main (F := Ideal) m g (Cert.KernelIdealProof.body_obligation m g))

/-- The claims together, after the witnesses of the facts the printed programs and predicates state. -/
theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_kernel, frame_kernelIdeal, Cert.RefSide.ref_frame, trivial, algebraic⟩

/-- info: 'Cert.Proof.claim' depends on axioms: [propext, Classical.choice, Quot.sound] -/
#guard_msgs in #print axioms claim

end Cert.Proof

end
